-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v109)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v109) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v142) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000 : Shape := ⟨1, ![10000]⟩
abbrev S320000 : Shape := ⟨1, ![320000]⟩
abbrev S2x320000 : Shape := ⟨2, ![2, 320000]⟩
abbrev S100000x2 : Shape := ⟨2, ![100000, 2]⟩
abbrev S100x256 : Shape := ⟨2, ![100, 256]⟩
abbrev S256x256 : Shape := ⟨2, ![256, 256]⟩
abbrev S256 : Shape := ⟨1, ![256]⟩
abbrev S10x256 : Shape := ⟨2, ![10, 256]⟩
abbrev S3x256x256 : Shape := ⟨3, ![3, 256, 256]⟩
abbrev S3x256 : Shape := ⟨2, ![3, 256]⟩
abbrev S512x256 : Shape := ⟨2, ![512, 256]⟩
abbrev S256x1 : Shape := ⟨2, ![256, 1]⟩
abbrev S1 : Shape := ⟨1, ![1]⟩
abbrev S_ : Shape := ⟨0, ![]⟩

class Facts : Prop where
  bcast_S_S100x256 : S_.BroadcastsInDim S100x256 (![] : Fin 0 → Fin S100x256.rank)
  reducesTo_S100x256_S_d0_1 : S100x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S10x256 : S_.BroadcastsInDim S10x256 (![] : Fin 0 → Fin S10x256.rank)
  reducesTo_S10x256_S_d0_1 : S10x256.ReducesTo [0, 1] S_
  bcast_S_S3x256x256 : S_.BroadcastsInDim S3x256x256 (![] : Fin 0 → Fin S3x256x256.rank)
  reducesTo_S3x256x256_S_d0_1_2 : S3x256x256.ReducesTo [0, 1, 2] S_
  bcast_S_S3x256 : S_.BroadcastsInDim S3x256 (![] : Fin 0 → Fin S3x256.rank)
  reducesTo_S3x256_S_d0_1 : S3x256.ReducesTo [0, 1] S_
  bcast_S_S512x256 : S_.BroadcastsInDim S512x256 (![] : Fin 0 → Fin S512x256.rank)
  reducesTo_S512x256_S_d0_1 : S512x256.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg15 : FVec F S1 .f32) (main_v48 : IVec S_ 1) (main_v49 : FVec F S256x1 .f32) (main_v50 : FVec F S256x1 .f32) : IVec S_ 1 :=
  let main_v51 : IVec S256x1 1 := cmpf .olt main_v49 main_v50
  let main_c_19 : IVec S_ 1 := constantI S_ 1 1#1
  let main_v52 : IVec S_ 1 := (fun x v => Host.reduce IntOp.andi x v reducesTo_S256x1_S_d0_1 h_S_) main_v51 main_c_19
  let main_v53 : IVec S_ 1 := andi main_v48 main_v52
  let main_v54 : FVec F S1 .f32 := Host.absf main_arg15
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg11 : FVec F S3x256 .f32) (main_arg12 : FVec F S512x256 .f32) (main_arg13 : FVec F S256 .f32) (main_arg14 : FVec F S256x1 .f32) (main_arg15 : FVec F S1 .f32) (main_v33 : IVec S_ 1) : IVec S_ 1 :=
  let main_v34 : FVec F S3x256 .f32 := Host.absf main_arg11
  let main_cst_12 : FVec F S_ .f32 := constant S_ .f32 0x7F800000#32
  let main_v35 : FVec F S3x256 .f32 := broadcastInDim S3x256 ![] bcast_S_S3x256 main_cst_12
  let main_v36 : IVec S3x256 1 := cmpf .olt main_v34 main_v35
  let main_c_13 : IVec S_ 1 := constantI S_ 1 1#1
  let main_v37 : IVec S_ 1 := (fun x v => Host.reduce IntOp.andi x v reducesTo_S3x256_S_d0_1 h_S_) main_v36 main_c_13
  let main_v38 : IVec S_ 1 := andi main_v33 main_v37
  let main_v39 : FVec F S512x256 .f32 := Host.absf main_arg12
  let main_cst_14 : FVec F S_ .f32 := constant S_ .f32 0x7F800000#32
  let main_v40 : FVec F S512x256 .f32 := broadcastInDim S512x256 ![] bcast_S_S512x256 main_cst_14
  let main_v41 : IVec S512x256 1 := cmpf .olt main_v39 main_v40
  let main_c_15 : IVec S_ 1 := constantI S_ 1 1#1
  let main_v42 : IVec S_ 1 := (fun x v => Host.reduce IntOp.andi x v reducesTo_S512x256_S_d0_1 h_S_) main_v41 main_c_15
  let main_v43 : IVec S_ 1 := andi main_v38 main_v42
  let main_v44 : FVec F S256 .f32 := Host.absf main_arg13
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x1 .f32 := Host.absf main_arg14
  let main_cst_18 : FVec F S_ .f32 := constant S_ .f32 0x7F800000#32
  let main_v50 : FVec F S256x1 .f32 := broadcastInDim S256x1 ![] bcast_S_S256x1 main_cst_18
  fn_part3 (F := F) main_arg15 main_v48 main_v49 main_v50

def fn_part1 {F : FTy → Type} [FloatOps F] (main_arg8 : FVec F S256x256 .f32) (main_arg9 : FVec F S256 .f32) (main_arg10 : FVec F S3x256x256 .f32) (main_arg11 : FVec F S3x256 .f32) (main_arg12 : FVec F S512x256 .f32) (main_arg13 : FVec F S256 .f32) (main_arg14 : FVec F S256x1 .f32) (main_arg15 : FVec F S1 .f32) (main_v13 : IVec S_ 1) (main_v16 : IVec S10x256 1) : IVec S_ 1 :=
  let main_c_5 : IVec S_ 1 := constantI S_ 1 1#1
  let main_v17 : IVec S_ 1 := (fun x v => Host.reduce IntOp.andi x v reducesTo_S10x256_S_d0_1 h_S_) main_v16 main_c_5
  let main_v18 : IVec S_ 1 := andi main_v13 main_v17
  let main_v19 : FVec F S256x256 .f32 := Host.absf main_arg8
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg9
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S3x256x256 .f32 := Host.absf main_arg10
  let main_cst_10 : FVec F S_ .f32 := constant S_ .f32 0x7F800000#32
  let main_v30 : FVec F S3x256x256 .f32 := broadcastInDim S3x256x256 ![] bcast_S_S3x256x256 main_cst_10
  let main_v31 : IVec S3x256x256 1 := cmpf .olt main_v29 main_v30
  let main_c_11 : IVec S_ 1 := constantI S_ 1 1#1
  let main_v32 : IVec S_ 1 := (fun x v => Host.reduce IntOp.andi x v reducesTo_S3x256x256_S_d0_1_2 h_S_) main_v31 main_c_11
  let main_v33 : IVec S_ 1 := andi main_v28 main_v32
  fn_part2 (F := F) main_arg11 main_arg12 main_arg13 main_arg14 main_arg15 main_v33

def fn {F : FTy → Type} [FloatOps F] (main_arg0 : IVec S10000 32) (main_arg1 : IVec S320000 32) (main_arg2 : IVec S2x320000 32) (main_arg3 : IVec S100000x2 32) (main_arg4 : FVec F S100x256 .f32) (main_arg5 : FVec F S256x256 .f32) (main_arg6 : FVec F S256 .f32) (main_arg7 : FVec F S10x256 .f32) (main_arg8 : FVec F S256x256 .f32) (main_arg9 : FVec F S256 .f32) (main_arg10 : FVec F S3x256x256 .f32) (main_arg11 : FVec F S3x256 .f32) (main_arg12 : FVec F S512x256 .f32) (main_arg13 : FVec F S256 .f32) (main_arg14 : FVec F S256x1 .f32) (main_arg15 : FVec F S1 .f32) : IVec S_ 1 :=
  let main_v0 : FVec F S100x256 .f32 := Host.absf main_arg4
  let main_cst : FVec F S_ .f32 := constant S_ .f32 0x7F800000#32
  let main_v1 : FVec F S100x256 .f32 := broadcastInDim S100x256 ![] bcast_S_S100x256 main_cst
  let main_v2 : IVec S100x256 1 := cmpf .olt main_v0 main_v1
  let main_c : IVec S_ 1 := constantI S_ 1 1#1
  let main_v3 : IVec S_ 1 := (fun x v => Host.reduce IntOp.andi x v reducesTo_S100x256_S_d0_1 h_S_) main_v2 main_c
  let main_v4 : FVec F S256x256 .f32 := Host.absf main_arg5
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg6
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S10x256 .f32 := Host.absf main_arg7
  let main_cst_4 : FVec F S_ .f32 := constant S_ .f32 0x7F800000#32
  let main_v15 : FVec F S10x256 .f32 := broadcastInDim S10x256 ![] bcast_S_S10x256 main_cst_4
  let main_v16 : IVec S10x256 1 := cmpf .olt main_v14 main_v15
  fn_part1 (F := F) main_arg8 main_arg9 main_arg10 main_arg11 main_arg12 main_arg13 main_arg14 main_arg15 main_v13 main_v16
-- ==== Kernel.lean ====
abbrev S10000 : Shape := ⟨1, ![10000]⟩
abbrev S320000 : Shape := ⟨1, ![320000]⟩
abbrev S2x320000 : Shape := ⟨2, ![2, 320000]⟩
abbrev S100000x2 : Shape := ⟨2, ![100000, 2]⟩
abbrev S100x256 : Shape := ⟨2, ![100, 256]⟩
abbrev S256x256 : Shape := ⟨2, ![256, 256]⟩
abbrev S256 : Shape := ⟨1, ![256]⟩
abbrev S10x256 : Shape := ⟨2, ![10, 256]⟩
abbrev S3x256x256 : Shape := ⟨3, ![3, 256, 256]⟩
abbrev S3x256 : Shape := ⟨2, ![3, 256]⟩
abbrev S512x256 : Shape := ⟨2, ![512, 256]⟩
abbrev S256x1 : Shape := ⟨2, ![256, 1]⟩
abbrev S1 : Shape := ⟨1, ![1]⟩
abbrev S_ : Shape := ⟨0, ![]⟩
abbrev S10000x1 : Shape := ⟨2, ![10000, 1]⟩
abbrev S10000x256 : Shape := ⟨2, ![10000, 256]⟩
abbrev S1x320000 : Shape := ⟨2, ![1, 320000]⟩
abbrev S320000x1 : Shape := ⟨2, ![320000, 1]⟩
abbrev S1x256 : Shape := ⟨2, ![1, 256]⟩
abbrev S400x256 : Shape := ⟨2, ![400, 256]⟩
abbrev S400x1 : Shape := ⟨2, ![400, 1]⟩
abbrev S320000x256 : Shape := ⟨2, ![320000, 256]⟩
abbrev S1x256x256 : Shape := ⟨3, ![1, 256, 256]⟩
abbrev S100000x1 : Shape := ⟨2, ![100000, 1]⟩
abbrev S100000 : Shape := ⟨1, ![100000]⟩
abbrev S100000x256 : Shape := ⟨2, ![100000, 256]⟩
abbrev S1x1 : Shape := ⟨2, ![1, 1]⟩
abbrev S4000x256 : Shape := ⟨2, ![4000, 256]⟩
abbrev S4000x1 : Shape := ⟨2, ![4000, 1]⟩
abbrev S4000 : Shape := ⟨1, ![4000]⟩

abbrev nBuf : Space → Nat
  | .hbm => 154
  | .vmem => 47
  | .smem => 0
  | _ => 0

abbrev hbmTy0_0 (i : Nat) : BufTy := match i % 128 with
  | 0 => ⟨S10000, .i32⟩
  | 1 => ⟨S320000, .i32⟩
  | 2 => ⟨S2x320000, .i32⟩
  | 3 => ⟨S100000x2, .i32⟩
  | 4 => ⟨S100x256, .f32⟩
  | 5 => ⟨S256x256, .f32⟩
  | 6 => ⟨S256, .f32⟩
  | 7 => ⟨S10x256, .f32⟩
  | 8 => ⟨S256x256, .f32⟩
  | 9 => ⟨S256, .f32⟩
  | 10 => ⟨S3x256x256, .f32⟩
  | 11 => ⟨S3x256, .f32⟩
  | 12 => ⟨S512x256, .f32⟩
  | 13 => ⟨S256, .f32⟩
  | 14 => ⟨S256x1, .f32⟩
  | 15 => ⟨S1, .f32⟩
  | 16 => ⟨S_, .i32⟩
  | 17 => ⟨S10000, .i32⟩
  | 18 => ⟨S10000, .i1⟩
  | 19 => ⟨S_, .i32⟩
  | 20 => ⟨S10000, .i32⟩
  | 21 => ⟨S10000, .i32⟩
  | 22 => ⟨S10000, .i32⟩
  | 23 => ⟨S10000x1, .i32⟩
  | 24 => ⟨S10000x256, .f32⟩
  | 25 => ⟨S1x320000, .i32⟩
  | 26 => ⟨S320000, .i32⟩
  | 27 => ⟨S1x320000, .i32⟩
  | 28 => ⟨S320000, .i32⟩
  | 29 => ⟨S_, .f32⟩
  | 30 => ⟨S320000, .f32⟩
  | 31 => ⟨S_, .f32⟩
  | 32 => ⟨S10000, .f32⟩
  | 33 => ⟨S320000x1, .i32⟩
  | 34 => ⟨S10000, .f32⟩
  | 35 => ⟨S_, .f32⟩
  | 36 => ⟨S10000, .f32⟩
  | 37 => ⟨S320000x1, .i32⟩
  | 38 => ⟨S10000, .f32⟩
  | 39 => ⟨S_, .f32⟩
  | 40 => ⟨S10000, .f32⟩
  | 41 => ⟨S10000, .i1⟩
  | 42 => ⟨S_, .f32⟩
  | 43 => ⟨S10000, .f32⟩
  | 44 => ⟨S10000, .f32⟩
  | 45 => ⟨S_, .f32⟩
  | 46 => ⟨S_, .f32⟩
  | 47 => ⟨S10000, .f32⟩
  | 48 => ⟨S10000, .f32⟩
  | 49 => ⟨S10000x1, .f32⟩
  | 50 => ⟨S_, .f32⟩
  | 51 => ⟨S10000, .f32⟩
  | 52 => ⟨S10000, .i1⟩
  | 53 => ⟨S_, .f32⟩
  | 54 => ⟨S10000, .f32⟩
  | 55 => ⟨S10000, .f32⟩
  | 56 => ⟨S_, .f32⟩
  | 57 => ⟨S_, .f32⟩
  | 58 => ⟨S10000, .f32⟩
  | 59 => ⟨S10000, .f32⟩
  | 60 => ⟨S10000x1, .f32⟩
  | 61 => ⟨S1x256, .f32⟩
  | 62 => ⟨S10000x256, .bf16⟩
  | 63 => ⟨S_, .i32⟩
  | 64 => ⟨S320000, .i32⟩
  | 65 => ⟨S320000, .i1⟩
  | 66 => ⟨S_, .i32⟩
  | 67 => ⟨S320000, .i32⟩
  | 68 => ⟨S320000, .i32⟩
  | 69 => ⟨S320000, .i32⟩
  | 70 => ⟨S320000x1, .i32⟩
  | 71 => ⟨S320000x256, .bf16⟩
  | 72 => ⟨S320000x256, .f32⟩
  | 73 => ⟨S_, .f32⟩
  | 74 => ⟨S10000x256, .f32⟩
  | 75 => ⟨S320000x1, .i32⟩
  | 76 => ⟨S10000x256, .f32⟩
  | 77 => ⟨S1x256x256, .f32⟩
  | 78 => ⟨S256x256, .f32⟩
  | 79 => ⟨S1x256, .f32⟩
  | 80 => ⟨S256, .f32⟩
  | 81 => ⟨S1x256, .f32⟩
  | 82 => ⟨S10000x256, .bf16⟩
  | 83 => ⟨S_, .i32⟩
  | 84 => ⟨S320000, .i32⟩
  | 85 => ⟨S320000, .i1⟩
  | 86 => ⟨S_, .i32⟩
  | 87 => ⟨S320000, .i32⟩
  | 88 => ⟨S320000, .i32⟩
  | 89 => ⟨S320000, .i32⟩
  | 90 => ⟨S320000x1, .i32⟩
  | 91 => ⟨S320000x256, .bf16⟩
  | 92 => ⟨S320000x256, .f32⟩
  | 93 => ⟨S_, .f32⟩
  | 94 => ⟨S10000x256, .f32⟩
  | 95 => ⟨S320000x1, .i32⟩
  | 96 => ⟨S10000x256, .f32⟩
  | 97 => ⟨S1x256x256, .f32⟩
  | 98 => ⟨S256x256, .f32⟩
  | 99 => ⟨S1x256, .f32⟩
  | 100 => ⟨S256, .f32⟩
  | 101 => ⟨S1x256, .f32⟩
  | 102 => ⟨S10000x256, .bf16⟩
  | 103 => ⟨S_, .i32⟩
  | 104 => ⟨S320000, .i32⟩
  | 105 => ⟨S320000, .i1⟩
  | 106 => ⟨S_, .i32⟩
  | 107 => ⟨S320000, .i32⟩
  | 108 => ⟨S320000, .i32⟩
  | 109 => ⟨S320000, .i32⟩
  | 110 => ⟨S320000x1, .i32⟩
  | 111 => ⟨S320000x256, .bf16⟩
  | 112 => ⟨S320000x256, .f32⟩
  | 113 => ⟨S_, .f32⟩
  | 114 => ⟨S10000x256, .f32⟩
  | 115 => ⟨S320000x1, .i32⟩
  | 116 => ⟨S10000x256, .f32⟩
  | 117 => ⟨S1x256x256, .f32⟩
  | 118 => ⟨S256x256, .f32⟩
  | 119 => ⟨S1x256, .f32⟩
  | 120 => ⟨S256, .f32⟩
  | 121 => ⟨S1x256, .f32⟩
  | 122 => ⟨S10000x256, .bf16⟩
  | 123 => ⟨S100000x1, .i32⟩
  | 124 => ⟨S100000, .i32⟩
  | 125 => ⟨S100000x1, .i32⟩
  | 126 => ⟨S100000, .i32⟩
  | 127 => ⟨S_, .i32⟩
  | _ => ⟨S10000, .i32⟩

abbrev hbmTy0_1 (i : Nat) : BufTy := match i % 128 with
  | 0 => ⟨S100000, .i32⟩
  | 1 => ⟨S100000, .i1⟩
  | 2 => ⟨S_, .i32⟩
  | 3 => ⟨S100000, .i32⟩
  | 4 => ⟨S100000, .i32⟩
  | 5 => ⟨S100000, .i32⟩
  | 6 => ⟨S100000x1, .i32⟩
  | 7 => ⟨S100000x256, .bf16⟩
  | 8 => ⟨S_, .i32⟩
  | 9 => ⟨S100000, .i32⟩
  | 10 => ⟨S100000, .i1⟩
  | 11 => ⟨S_, .i32⟩
  | 12 => ⟨S100000, .i32⟩
  | 13 => ⟨S100000, .i32⟩
  | 14 => ⟨S100000, .i32⟩
  | 15 => ⟨S100000x1, .i32⟩
  | 16 => ⟨S100000x256, .bf16⟩
  | 17 => ⟨S256x256, .f32⟩
  | 18 => ⟨S256x256, .bf16⟩
  | 19 => ⟨S256x256, .f32⟩
  | 20 => ⟨S256x256, .bf16⟩
  | 21 => ⟨S1x256, .f32⟩
  | 22 => ⟨S1x256, .f32⟩
  | 23 => ⟨S1x1, .f32⟩
  | 24 => ⟨S100000x1, .f32⟩
  | 25 => ⟨S100000, .f32⟩
  | _ => ⟨S10000, .i32⟩

abbrev hbmTy (i : Nat) : BufTy := match i / 128 with
  | 0 => hbmTy0_0 i
  | 1 => hbmTy0_1 i
  | _ => ⟨S10000, .i32⟩

abbrev bufTy : (tb : Table) → Fin (tcTables nBuf tb) → BufTy
  | .hbm, ⟨i, _⟩ => hbmTy i
  | .local _ .vmem, ⟨0, _⟩ => ⟨S400x256, .f32⟩
  | .local _ .vmem, ⟨1, _⟩ => ⟨S400x256, .f32⟩
  | .local _ .vmem, ⟨2, _⟩ => ⟨S256x256, .f32⟩
  | .local _ .vmem, ⟨3, _⟩ => ⟨S1x256, .f32⟩
  | .local _ .vmem, ⟨4, _⟩ => ⟨S400x1, .f32⟩
  | .local _ .vmem, ⟨5, _⟩ => ⟨S400x1, .f32⟩
  | .local _ .vmem, ⟨6, _⟩ => ⟨S400x256, .bf16⟩
  | .local _ .vmem, ⟨7, _⟩ => ⟨S400x256, .bf16⟩
  | .local _ .vmem, ⟨8, _⟩ => ⟨S400x256, .f32⟩
  | .local _ .vmem, ⟨9, _⟩ => ⟨S400x256, .f32⟩
  | .local _ .vmem, ⟨10, _⟩ => ⟨S256x256, .f32⟩
  | .local _ .vmem, ⟨11, _⟩ => ⟨S1x256, .f32⟩
  | .local _ .vmem, ⟨12, _⟩ => ⟨S400x1, .f32⟩
  | .local _ .vmem, ⟨13, _⟩ => ⟨S400x1, .f32⟩
  | .local _ .vmem, ⟨14, _⟩ => ⟨S400x1, .f32⟩
  | .local _ .vmem, ⟨15, _⟩ => ⟨S400x1, .f32⟩
  | .local _ .vmem, ⟨16, _⟩ => ⟨S400x256, .bf16⟩
  | .local _ .vmem, ⟨17, _⟩ => ⟨S400x256, .bf16⟩
  | .local _ .vmem, ⟨18, _⟩ => ⟨S400x256, .f32⟩
  | .local _ .vmem, ⟨19, _⟩ => ⟨S400x256, .f32⟩
  | .local _ .vmem, ⟨20, _⟩ => ⟨S256x256, .f32⟩
  | .local _ .vmem, ⟨21, _⟩ => ⟨S1x256, .f32⟩
  | .local _ .vmem, ⟨22, _⟩ => ⟨S400x1, .f32⟩
  | .local _ .vmem, ⟨23, _⟩ => ⟨S400x1, .f32⟩
  | .local _ .vmem, ⟨24, _⟩ => ⟨S400x1, .f32⟩
  | .local _ .vmem, ⟨25, _⟩ => ⟨S400x1, .f32⟩
  | .local _ .vmem, ⟨26, _⟩ => ⟨S400x256, .bf16⟩
  | .local _ .vmem, ⟨27, _⟩ => ⟨S400x256, .bf16⟩
  | .local _ .vmem, ⟨28, _⟩ => ⟨S400x256, .f32⟩
  | .local _ .vmem, ⟨29, _⟩ => ⟨S400x256, .f32⟩
  | .local _ .vmem, ⟨30, _⟩ => ⟨S256x256, .f32⟩
  | .local _ .vmem, ⟨31, _⟩ => ⟨S1x256, .f32⟩
  | .local _ .vmem, ⟨32, _⟩ => ⟨S400x1, .f32⟩
  | .local _ .vmem, ⟨33, _⟩ => ⟨S400x1, .f32⟩
  | .local _ .vmem, ⟨34, _⟩ => ⟨S400x256, .bf16⟩
  | .local _ .vmem, ⟨35, _⟩ => ⟨S400x256, .bf16⟩
  | .local _ .vmem, ⟨36, _⟩ => ⟨S4000x256, .bf16⟩
  | .local _ .vmem, ⟨37, _⟩ => ⟨S4000x256, .bf16⟩
  | .local _ .vmem, ⟨38, _⟩ => ⟨S4000x256, .bf16⟩
  | .local _ .vmem, ⟨39, _⟩ => ⟨S4000x256, .bf16⟩
  | .local _ .vmem, ⟨40, _⟩ => ⟨S256x256, .bf16⟩
  | .local _ .vmem, ⟨41, _⟩ => ⟨S256x256, .bf16⟩
  | .local _ .vmem, ⟨42, _⟩ => ⟨S1x256, .f32⟩
  | .local _ .vmem, ⟨43, _⟩ => ⟨S1x256, .f32⟩
  | .local _ .vmem, ⟨44, _⟩ => ⟨S1x1, .f32⟩
  | .local _ .vmem, ⟨45, _⟩ => ⟨S4000x1, .f32⟩
  | .local _ .vmem, ⟨46, _⟩ => ⟨S4000x1, .f32⟩
  | _, _ => ⟨S10000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_cst_1 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst_2 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_3 : Ref sig .tc := ⟨.hbm, 39, rfl⟩
abbrev main_v18 : Ref sig .tc := ⟨.hbm, 40, rfl⟩
abbrev main_v19 : Ref sig .tc := ⟨.hbm, 41, rfl⟩
abbrev main_cst_4 : Ref sig .tc := ⟨.hbm, 42, rfl⟩
abbrev main_v20 : Ref sig .tc := ⟨.hbm, 43, rfl⟩
abbrev main_v21 : Ref sig .tc := ⟨.hbm, 44, rfl⟩
abbrev main_cst_5 : Ref sig .tc := ⟨.hbm, 45, rfl⟩
abbrev main_call0_v0 : Ref sig .tc := ⟨.hbm, 46, rfl⟩
abbrev main_call0_v1 : Ref sig .tc := ⟨.hbm, 47, rfl⟩
abbrev main_v22 : Ref sig .tc := ⟨.hbm, 48, rfl⟩
abbrev main_v23 : Ref sig .tc := ⟨.hbm, 49, rfl⟩
abbrev main_cst_6 : Ref sig .tc := ⟨.hbm, 50, rfl⟩
abbrev main_v24 : Ref sig .tc := ⟨.hbm, 51, rfl⟩
abbrev main_v25 : Ref sig .tc := ⟨.hbm, 52, rfl⟩
abbrev main_cst_7 : Ref sig .tc := ⟨.hbm, 53, rfl⟩
abbrev main_v26 : Ref sig .tc := ⟨.hbm, 54, rfl⟩
abbrev main_v27 : Ref sig .tc := ⟨.hbm, 55, rfl⟩
abbrev main_cst_8 : Ref sig .tc := ⟨.hbm, 56, rfl⟩
abbrev main_call1_v0 : Ref sig .tc := ⟨.hbm, 57, rfl⟩
abbrev main_call1_v1 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_c_9 : Ref sig .tc := ⟨.hbm, 63, rfl⟩
abbrev main_v32 : Ref sig .tc := ⟨.hbm, 64, rfl⟩
abbrev main_v33 : Ref sig .tc := ⟨.hbm, 65, rfl⟩
abbrev main_c_10 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_cst_11 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_c_12 : Ref sig .tc := ⟨.hbm, 83, rfl⟩
abbrev main_v49 : Ref sig .tc := ⟨.hbm, 84, rfl⟩
abbrev main_v50 : Ref sig .tc := ⟨.hbm, 85, rfl⟩
abbrev main_c_13 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_cst_14 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_c_15 : Ref sig .tc := ⟨.hbm, 103, rfl⟩
abbrev main_v66 : Ref sig .tc := ⟨.hbm, 104, rfl⟩
abbrev main_v67 : Ref sig .tc := ⟨.hbm, 105, rfl⟩
abbrev main_c_16 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_cst_17 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_c_18 : Ref sig .tc := ⟨.hbm, 127, rfl⟩
abbrev main_v87 : Ref sig .tc := ⟨.hbm, 128, rfl⟩
abbrev main_v88 : Ref sig .tc := ⟨.hbm, 129, rfl⟩
abbrev main_c_19 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_c_20 : Ref sig .tc := ⟨.hbm, 136, rfl⟩
abbrev main_v94 : Ref sig .tc := ⟨.hbm, 137, rfl⟩
abbrev main_v95 : Ref sig .tc := ⟨.hbm, 138, rfl⟩
abbrev main_c_21 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc2_stg4_0 : Ref sig .tc := ⟨.vmem, 24, rfl⟩
abbrev cc2_stg4_1 : Ref sig .tc := ⟨.vmem, 25, rfl⟩
abbrev cc2_stg5_0 : Ref sig .tc := ⟨.vmem, 26, rfl⟩
abbrev cc2_stg5_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg3_1 : Ref sig .tc := ⟨.vmem, 33, rfl⟩
abbrev cc3_stg4_0 : Ref sig .tc := ⟨.vmem, 34, rfl⟩
abbrev cc3_stg4_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg5_0 : Ref sig .tc := ⟨.vmem, 43, rfl⟩
abbrev cc4_stg6_0 : Ref sig .tc := ⟨.vmem, 44, rfl⟩
abbrev cc4_stg7_0 : Ref sig .tc := ⟨.vmem, 45, rfl⟩
abbrev cc4_stg7_1 : Ref sig .tc := ⟨.vmem, 46, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem3_1 : DmaSem sig := 23
abbrev cc2_sem4_0 : DmaSem sig := 24
abbrev cc2_sem4_1 : DmaSem sig := 25
abbrev cc2_sem5_0 : DmaSem sig := 26
abbrev cc2_sem5_1 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem3_0 : DmaSem sig := 32
abbrev cc3_sem3_1 : DmaSem sig := 33
abbrev cc3_sem4_0 : DmaSem sig := 34
abbrev cc3_sem4_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem3_0 : DmaSem sig := 41
abbrev cc4_sem4_0 : DmaSem sig := 42
abbrev cc4_sem5_0 : DmaSem sig := 43
abbrev cc4_sem6_0 : DmaSem sig := 44
abbrev cc4_sem7_0 : DmaSem sig := 45
abbrev cc4_sem7_1 : DmaSem sig := 46

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S400x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S400x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S400x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S400x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S400x256 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S400x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S400x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S400x256 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S400x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S400x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S400x256 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x256 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4000x256 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S256x256 .bf16 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S256x256 .bf16 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x256 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x1 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S4000x1 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

class Facts₀ : Prop where
  bcast_S_S10000 : S_.BroadcastsInDim S10000 (![] : Fin 0 → Fin S10000.rank)
  bcast_S10000_S10000x1_0 : S10000.BroadcastsInDim S10000x1 (![0] : Fin 1 → Fin S10000x1.rank)
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  shapeCasts_S10000_S10000x1 : S10000.ShapeCasts S10000x1
  shapeCasts_S256_S1x256 : S256.ShapeCasts S1x256
  inb_S400x256_S400x256_0_0 : ∀ a, (![0, 0] : Fin 2 → Nat) a + S400x256.size a ≤ S400x256.size a
  h_S400x256 : 0 < S400x256.numel
  shapeCasts_S400x256_S400x256 : S400x256.ShapeCasts S400x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S400x256 : S1x256.Broadcasts S400x256
  inb_S400x1_S400x1_0_0 : ∀ a, (![0, 0] : Fin 2 → Nat) a + S400x1.size a ≤ S400x1.size a
  h_S400x1 : 0 < S400x1.numel
  shapeCasts_S400x1_S400x1 : S400x1.ShapeCasts S400x1
  broadcasts_S400x1_S400x256 : S400x1.Broadcasts S400x256
  packedbf16_S400x256_S400x256_0_0 : (Rect.unit (s := S400x256) ![0, 0] S400x256.size inb_S400x256_S400x256_0_0).PackedRows (EltTy.packing .bf16)
  bcast_S_S10000x256 : S_.BroadcastsInDim S10000x256 (![] : Fin 0 → Fin S10000x256.rank)
  slices_S3x256x256_S1x256x256_0_0_0 : S3x256x256.Slices ![0, 0, 0] S1x256x256
  shapeCasts_S1x256x256_S256x256 : S1x256x256.ShapeCasts S256x256
  slices_S3x256_S1x256_0_0 : S3x256.Slices ![0, 0] S1x256
  shapeCasts_S1x256_S256 : S1x256.ShapeCasts S256
  shapeCasts_S256x256_S256x256 : S256x256.ShapeCasts S256x256
  slices_S3x256x256_S1x256x256_1_0_0 : S3x256x256.Slices ![1, 0, 0] S1x256x256
  slices_S3x256_S1x256_1_0 : S3x256.Slices ![1, 0] S1x256
  slices_S3x256x256_S1x256x256_2_0_0 : S3x256x256.Slices ![2, 0, 0] S1x256x256
  slices_S3x256_S1x256_2_0 : S3x256.Slices ![2, 0] S1x256
  slices_S100000x2_S100000x1_0_0 : S100000x2.Slices ![0, 0] S100000x1
  shapeCasts_S100000x1_S100000 : S100000x1.ShapeCasts S100000
  slices_S100000x2_S100000x1_0_1 : S100000x2.Slices ![0, 1] S100000x1
  bcast_S_S100000 : S_.BroadcastsInDim S100000 (![] : Fin 0 → Fin S100000.rank)
  bcast_S100000_S100000x1_0 : S100000.BroadcastsInDim S100000x1 (![0] : Fin 1 → Fin S100000x1.rank)
  slices_S512x256_S256x256_0_0 : S512x256.Slices ![0, 0] S256x256
  slices_S512x256_S256x256_256_0 : S512x256.Slices ![256, 0] S256x256
  shapeCasts_S256x1_S1x256 : S256x1.ShapeCasts S1x256
  shapeCasts_S1_S1x1 : S1.ShapeCasts S1x1
  inb_S4000x256_S4000x256_0_0 : ∀ a, (![0, 0] : Fin 2 → Nat) a + S4000x256.size a ≤ S4000x256.size a
  h_S4000x256 : 0 < S4000x256.numel
  shapeCasts_S4000x256_S4000x256 : S4000x256.ShapeCasts S4000x256
  broadcasts_S1x256_S4000x256 : S1x256.Broadcasts S4000x256
  reduces_S4000x256_S4000 : S4000x256.Reduces [1] S4000
  shapeCasts_S4000_S4000x1 : S4000.ShapeCasts S4000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  inb_S4000x1_S4000x1_0_0 : ∀ a, (![0, 0] : Fin 2 → Nat) a + S4000x1.size a ≤ S4000x1.size a
  h_S4000x1 : 0 < S4000x1.numel
  gather_S100x256_S10000x1_S10000x256_1_0_n_n_0_1_1256_wf : GatherDims.WF S100x256 S10000x1 S10000x256 [1] [0] [] [0] [] 1 ![1, 256]
  scatter_S10000_S320000x1_S320000_n_0_0_1_wf : ScatterDims.WF S10000 S320000x1 S320000 [] [0] [0] 1
  dot_S400x256_S256x256_S400x256_1_0_0_1_n_n_wf : DotDims.WF S400x256 S256x256 S400x256 [1] [0] [0] [1] [] []
  gather_S10000x256_S320000x1_S320000x256_1_0_n_n_0_1_1256_wf : GatherDims.WF S10000x256 S320000x1 S320000x256 [1] [0] [] [0] [] 1 ![1, 256]
  scatter_S10000x256_S320000x1_S320000x256_1_0_0_1_wf : ScatterDims.WF S10000x256 S320000x1 S320000x256 [1] [0] [0] 1
  gather_S10000x256_S100000x1_S100000x256_1_0_n_n_0_1_1256_wf : GatherDims.WF S10000x256 S100000x1 S100000x256 [1] [0] [] [0] [] 1 ![1, 256]
  dot_S4000x256_S256x256_S4000x256_1_0_0_1_n_n_wf : DotDims.WF S4000x256 S256x256 S4000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x256.size a ≤ S10000x256.size a
  hwx0_0 : ∀ i : grid0.Coords, EltTy.bits .f32 = 32 ∨ (Rect.block (s := S10000x256) S400x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x1.size a ≤ S10000x1.size a
  hwx0_3 : ∀ i : grid0.Coords, EltTy.bits .f32 = 32 ∨ (Rect.block (s := S10000x1) S400x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x256.size a ≤ S10000x256.size a
  hwx0_4 : ∀ i : grid0.Coords, EltTy.bits .bf16 = 32 ∨ (Rect.block (s := S10000x256) S400x256.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x256.size a ≤ S10000x256.size a
  hwx1_0 : ∀ i : grid1.Coords, EltTy.bits .f32 = 32 ∨ (Rect.block (s := S10000x256) S400x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x1.size a ≤ S10000x1.size a
  hwx1_3 : ∀ i : grid1.Coords, EltTy.bits .f32 = 32 ∨ (Rect.block (s := S10000x1) S400x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x1.size a ≤ S10000x1.size a
  hwx1_4 : ∀ i : grid1.Coords, EltTy.bits .f32 = 32 ∨ (Rect.block (s := S10000x1) S400x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S400x256.size a ≤ S10000x256.size a
  hwx1_5 : ∀ i : grid1.Coords, EltTy.bits .bf16 = 32 ∨ (Rect.block (s := S10000x256) S400x256.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x256.size a ≤ S10000x256.size a
  hwx2_0 : ∀ i : grid2.Coords, EltTy.bits .f32 = 32 ∨ (Rect.block (s := S10000x256) S400x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S400x1.size a ≤ S10000x1.size a
  hwx2_3 : ∀ i : grid2.Coords, EltTy.bits .f32 = 32 ∨ (Rect.block (s := S10000x1) S400x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S400x1.size a ≤ S10000x1.size a
  hwx2_4 : ∀ i : grid2.Coords, EltTy.bits .f32 = 32 ∨ (Rect.block (s := S10000x1) S400x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S400x256.size a ≤ S10000x256.size a
  hwx2_5 : ∀ i : grid2.Coords, EltTy.bits .bf16 = 32 ∨ (Rect.block (s := S10000x256) S400x256.size (cc2_transform_5 i) (hinb2_5 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S400x256.size a ≤ S10000x256.size a
  hwx3_0 : ∀ i : grid3.Coords, EltTy.bits .f32 = 32 ∨ (Rect.block (s := S10000x256) S400x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x256.size a ≤ S256x256.size a
  hwx3_1 : ∀ i : grid3.Coords, EltTy.bits .f32 = 32 ∨ (Rect.block (s := S256x256) S256x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S400x1.size a ≤ S10000x1.size a
  hwx3_3 : ∀ i : grid3.Coords, EltTy.bits .f32 = 32 ∨ (Rect.block (s := S10000x1) S400x1.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S400x256.size a ≤ S10000x256.size a
  hwx3_4 : ∀ i : grid3.Coords, EltTy.bits .bf16 = 32 ∨ (Rect.block (s := S10000x256) S400x256.size (cc3_transform_4 i) (hinb3_4 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x256.size a ≤ S100000x256.size a
  hwx4_0 : ∀ i : grid4.Coords, EltTy.bits .bf16 = 32 ∨ (Rect.block (s := S100000x256) S4000x256.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4000x256.size a ≤ S100000x256.size a
  hwx4_1 : ∀ i : grid4.Coords, EltTy.bits .bf16 = 32 ∨ (Rect.block (s := S100000x256) S4000x256.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S256x256.size a ≤ S256x256.size a
  hwx4_2 : ∀ i : grid4.Coords, EltTy.bits .bf16 = 32 ∨ (Rect.block (s := S256x256) S256x256.size (cc4_transform_2 i) (hinb4_2 i)).WholeWords (EltTy.packing .bf16)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S256x256.size a ≤ S256x256.size a
  hwx4_3 : ∀ i : grid4.Coords, EltTy.bits .bf16 = 32 ∨ (Rect.block (s := S256x256) S256x256.size (cc4_transform_3 i) (hinb4_3 i)).WholeWords (EltTy.packing .bf16)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x256.size a ≤ S1x256.size a
  hwx4_4 : ∀ i : grid4.Coords, EltTy.bits .f32 = 32 ∨ (Rect.block (s := S1x256) S1x256.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x256.size a ≤ S1x256.size a
  hwx4_5 : ∀ i : grid4.Coords, EltTy.bits .f32 = 32 ∨ (Rect.block (s := S1x256) S1x256.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x1.size a ≤ S1x1.size a
  hwx4_6 : ∀ i : grid4.Coords, EltTy.bits .f32 = 32 ∨ (Rect.block (s := S1x1) S1x1.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S4000x1.size a ≤ S100000x1.size a
  hwx4_7 : ∀ i : grid4.Coords, EltTy.bits .f32 = 32 ∨ (Rect.block (s := S100000x1) S4000x1.size (cc4_transform_7 i) (hinb4_7 i)).WholeWords (EltTy.packing .f32)

variable [Facts₀]

def gather_S100x256_S10000x1_S10000x256_1_0_n_n_0_1_1256 : GatherDims S100x256 S10000x1 S10000x256 where
  offsetDims := [1]
  collapsedSliceDims := [0]
  operandBatchingDims := []
  startIndicesBatchingDims := []
  startIndexMap := [0]
  indexVectorDim := 1
  sliceSizes := ![1, 256]
  wf := gather_S100x256_S10000x1_S10000x256_1_0_n_n_0_1_1256_wf
def scatter_S10000_S320000x1_S320000_n_0_0_1 : ScatterDims S10000 S320000x1 S320000 where
  updateWindowDims := []
  insertedWindowDims := [0]
  scatterDimsToOperandDims := [0]
  indexVectorDim := 1
  wf := scatter_S10000_S320000x1_S320000_n_0_0_1_wf
def dot_S400x256_S256x256_S400x256_1_0_0_1_n_n : DotDims S400x256 S256x256 S400x256 where
  lhsContracting := [1]
  rhsContracting := [0]
  lhsNonContracting := [0]
  rhsNonContracting := [1]
  lhsBatch := []
  rhsBatch := []
  wf := dot_S400x256_S256x256_S400x256_1_0_0_1_n_n_wf
def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf
def gather_S10000x256_S100000x1_S100000x256_1_0_n_n_0_1_1256 : GatherDims S10000x256 S100000x1 S100000x256 where
  offsetDims := [1]
  collapsedSliceDims := [0]
  operandBatchingDims := []
  startIndicesBatchingDims := []
  startIndexMap := [0]
  indexVectorDim := 1
  sliceSizes := ![1, 256]
  wf := gather_S10000x256_S100000x1_S100000x256_1_0_n_n_0_1_1256_wf
def dot_S4000x256_S256x256_S4000x256_1_0_0_1_n_n : DotDims S4000x256 S256x256 S4000x256 where
  lhsContracting := [1]
  rhsContracting := [0]
  lhsNonContracting := [0]
  rhsNonContracting := [1]
  lhsBatch := []
  rhsBatch := []
  wf := dot_S4000x256_S256x256_S4000x256_1_0_0_1_n_n_wf

abbrev win0_0 : Pipeline.Window sig grid0 :=
  Pipeline.Window.ofSpec (Memref.whole main_v6) S400x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S400x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v31) S400x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v42) S400x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S400x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v23) S400x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v48) S400x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v59) S400x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v64) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v29) S400x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v23) S400x1.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v65) S400x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v76) S400x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v78) S256x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v81) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v29) S400x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v82) S400x256.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v93) S4000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v100) S4000x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v102) S256x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v104) S256x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v106) S1x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v105) S1x256.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v107) S1x1.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v108) S4000x1.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

class Facts : Prop extends Facts₀ where

variable [Facts]
-- ==== ReferenceIdeal.lean ====
abbrev S10000 : Shape := ⟨1, ![10000]⟩
abbrev S320000 : Shape := ⟨1, ![320000]⟩
abbrev S2x320000 : Shape := ⟨2, ![2, 320000]⟩
abbrev S100000x2 : Shape := ⟨2, ![100000, 2]⟩
abbrev S100x256 : Shape := ⟨2, ![100, 256]⟩
abbrev S256x256 : Shape := ⟨2, ![256, 256]⟩
abbrev S256 : Shape := ⟨1, ![256]⟩
abbrev S10x256 : Shape := ⟨2, ![10, 256]⟩
abbrev S3x256x256 : Shape := ⟨3, ![3, 256, 256]⟩
abbrev S3x256 : Shape := ⟨2, ![3, 256]⟩
abbrev S512x256 : Shape := ⟨2, ![512, 256]⟩
abbrev S256x1 : Shape := ⟨2, ![256, 1]⟩
abbrev S1 : Shape := ⟨1, ![1]⟩
abbrev S_ : Shape := ⟨0, ![]⟩
abbrev S10000x1 : Shape := ⟨2, ![10000, 1]⟩
abbrev S10000x256 : Shape := ⟨2, ![10000, 256]⟩
abbrev S1x256 : Shape := ⟨2, ![1, 256]⟩
abbrev S320000x1 : Shape := ⟨2, ![320000, 1]⟩
abbrev S320000x256 : Shape := ⟨2, ![320000, 256]⟩
abbrev S1x320000 : Shape := ⟨2, ![1, 320000]⟩
abbrev S1x256x256 : Shape := ⟨3, ![1, 256, 256]⟩
abbrev S100000x1 : Shape := ⟨2, ![100000, 1]⟩
abbrev S100000 : Shape := ⟨1, ![100000]⟩
abbrev S100000x256 : Shape := ⟨2, ![100000, 256]⟩
abbrev S100000x512 : Shape := ⟨2, ![100000, 512]⟩
abbrev S1x1 : Shape := ⟨2, ![1, 1]⟩

abbrev nBuf : Space → Nat
  | .hbm => 197
  | .vmem => 0
  | .smem => 0
  | _ => 0

abbrev hbmTy0_0 (i : Nat) : BufTy := match i % 128 with
  | 0 => ⟨S10000, .i32⟩
  | 1 => ⟨S320000, .i32⟩
  | 2 => ⟨S2x320000, .i32⟩
  | 3 => ⟨S100000x2, .i32⟩
  | 4 => ⟨S100x256, .f32⟩
  | 5 => ⟨S256x256, .f32⟩
  | 6 => ⟨S256, .f32⟩
  | 7 => ⟨S10x256, .f32⟩
  | 8 => ⟨S256x256, .f32⟩
  | 9 => ⟨S256, .f32⟩
  | 10 => ⟨S3x256x256, .f32⟩
  | 11 => ⟨S3x256, .f32⟩
  | 12 => ⟨S512x256, .f32⟩
  | 13 => ⟨S256, .f32⟩
  | 14 => ⟨S256x1, .f32⟩
  | 15 => ⟨S1, .f32⟩
  | 16 => ⟨S_, .i32⟩
  | 17 => ⟨S10000, .i32⟩
  | 18 => ⟨S10000, .i1⟩
  | 19 => ⟨S_, .i32⟩
  | 20 => ⟨S10000, .i32⟩
  | 21 => ⟨S10000, .i32⟩
  | 22 => ⟨S10000, .i32⟩
  | 23 => ⟨S10000x1, .i32⟩
  | 24 => ⟨S10000x256, .f32⟩
  | 25 => ⟨S10000x256, .f32⟩
  | 26 => ⟨S1x256, .f32⟩
  | 27 => ⟨S10000x256, .f32⟩
  | 28 => ⟨S10000x256, .f32⟩
  | 29 => ⟨S_, .i32⟩
  | 30 => ⟨S320000, .i32⟩
  | 31 => ⟨S320000, .i1⟩
  | 32 => ⟨S_, .i32⟩
  | 33 => ⟨S320000, .i32⟩
  | 34 => ⟨S320000, .i32⟩
  | 35 => ⟨S320000, .i32⟩
  | 36 => ⟨S320000x1, .i32⟩
  | 37 => ⟨S320000x256, .f32⟩
  | 38 => ⟨S320000x256, .f32⟩
  | 39 => ⟨S1x256, .f32⟩
  | 40 => ⟨S320000x256, .f32⟩
  | 41 => ⟨S320000x256, .f32⟩
  | 42 => ⟨S1x320000, .i32⟩
  | 43 => ⟨S320000, .i32⟩
  | 44 => ⟨S1x320000, .i32⟩
  | 45 => ⟨S320000, .i32⟩
  | 46 => ⟨S_, .f32⟩
  | 47 => ⟨S320000, .f32⟩
  | 48 => ⟨S_, .f32⟩
  | 49 => ⟨S10000, .f32⟩
  | 50 => ⟨S320000x1, .i32⟩
  | 51 => ⟨S10000, .f32⟩
  | 52 => ⟨S_, .f32⟩
  | 53 => ⟨S10000, .f32⟩
  | 54 => ⟨S320000x1, .i32⟩
  | 55 => ⟨S10000, .f32⟩
  | 56 => ⟨S_, .f32⟩
  | 57 => ⟨S10000, .f32⟩
  | 58 => ⟨S10000, .i1⟩
  | 59 => ⟨S_, .f32⟩
  | 60 => ⟨S10000, .f32⟩
  | 61 => ⟨S10000, .f32⟩
  | 62 => ⟨S_, .f32⟩
  | 63 => ⟨S_, .f32⟩
  | 64 => ⟨S10000, .f32⟩
  | 65 => ⟨S10000, .f32⟩
  | 66 => ⟨S10000x1, .f32⟩
  | 67 => ⟨S_, .f32⟩
  | 68 => ⟨S10000, .f32⟩
  | 69 => ⟨S10000, .i1⟩
  | 70 => ⟨S_, .f32⟩
  | 71 => ⟨S10000, .f32⟩
  | 72 => ⟨S10000, .f32⟩
  | 73 => ⟨S_, .f32⟩
  | 74 => ⟨S_, .f32⟩
  | 75 => ⟨S10000, .f32⟩
  | 76 => ⟨S10000, .f32⟩
  | 77 => ⟨S10000x1, .f32⟩
  | 78 => ⟨S10000x256, .f32⟩
  | 79 => ⟨S10000x256, .f32⟩
  | 80 => ⟨S_, .i32⟩
  | 81 => ⟨S320000, .i32⟩
  | 82 => ⟨S320000, .i1⟩
  | 83 => ⟨S_, .i32⟩
  | 84 => ⟨S320000, .i32⟩
  | 85 => ⟨S320000, .i32⟩
  | 86 => ⟨S320000, .i32⟩
  | 87 => ⟨S320000x1, .i32⟩
  | 88 => ⟨S320000x256, .f32⟩
  | 89 => ⟨S_, .f32⟩
  | 90 => ⟨S10000x256, .f32⟩
  | 91 => ⟨S320000x1, .i32⟩
  | 92 => ⟨S10000x256, .f32⟩
  | 93 => ⟨S10000x256, .f32⟩
  | 94 => ⟨S10000x256, .f32⟩
  | 95 => ⟨S1x256x256, .f32⟩
  | 96 => ⟨S256x256, .f32⟩
  | 97 => ⟨S10000x256, .f32⟩
  | 98 => ⟨S1x256, .f32⟩
  | 99 => ⟨S256, .f32⟩
  | 100 => ⟨S1x256, .f32⟩
  | 101 => ⟨S10000x256, .f32⟩
  | 102 => ⟨S10000x256, .f32⟩
  | 103 => ⟨S_, .f32⟩
  | 104 => ⟨S10000x256, .f32⟩
  | 105 => ⟨S10000x256, .f32⟩
  | 106 => ⟨S10000x256, .f32⟩
  | 107 => ⟨S10000x256, .f32⟩
  | 108 => ⟨S_, .i32⟩
  | 109 => ⟨S320000, .i32⟩
  | 110 => ⟨S320000, .i1⟩
  | 111 => ⟨S_, .i32⟩
  | 112 => ⟨S320000, .i32⟩
  | 113 => ⟨S320000, .i32⟩
  | 114 => ⟨S320000, .i32⟩
  | 115 => ⟨S320000x1, .i32⟩
  | 116 => ⟨S320000x256, .f32⟩
  | 117 => ⟨S_, .f32⟩
  | 118 => ⟨S10000x256, .f32⟩
  | 119 => ⟨S320000x1, .i32⟩
  | 120 => ⟨S10000x256, .f32⟩
  | 121 => ⟨S10000x256, .f32⟩
  | 122 => ⟨S10000x256, .f32⟩
  | 123 => ⟨S1x256x256, .f32⟩
  | 124 => ⟨S256x256, .f32⟩
  | 125 => ⟨S10000x256, .f32⟩
  | 126 => ⟨S1x256, .f32⟩
  | 127 => ⟨S256, .f32⟩
  | _ => ⟨S10000, .i32⟩

abbrev hbmTy0_1 (i : Nat) : BufTy := match i % 128 with
  | 0 => ⟨S1x256, .f32⟩
  | 1 => ⟨S10000x256, .f32⟩
  | 2 => ⟨S10000x256, .f32⟩
  | 3 => ⟨S_, .f32⟩
  | 4 => ⟨S10000x256, .f32⟩
  | 5 => ⟨S10000x256, .f32⟩
  | 6 => ⟨S10000x256, .f32⟩
  | 7 => ⟨S10000x256, .f32⟩
  | 8 => ⟨S_, .i32⟩
  | 9 => ⟨S320000, .i32⟩
  | 10 => ⟨S320000, .i1⟩
  | 11 => ⟨S_, .i32⟩
  | 12 => ⟨S320000, .i32⟩
  | 13 => ⟨S320000, .i32⟩
  | 14 => ⟨S320000, .i32⟩
  | 15 => ⟨S320000x1, .i32⟩
  | 16 => ⟨S320000x256, .f32⟩
  | 17 => ⟨S_, .f32⟩
  | 18 => ⟨S10000x256, .f32⟩
  | 19 => ⟨S320000x1, .i32⟩
  | 20 => ⟨S10000x256, .f32⟩
  | 21 => ⟨S10000x256, .f32⟩
  | 22 => ⟨S10000x256, .f32⟩
  | 23 => ⟨S1x256x256, .f32⟩
  | 24 => ⟨S256x256, .f32⟩
  | 25 => ⟨S10000x256, .f32⟩
  | 26 => ⟨S1x256, .f32⟩
  | 27 => ⟨S256, .f32⟩
  | 28 => ⟨S1x256, .f32⟩
  | 29 => ⟨S10000x256, .f32⟩
  | 30 => ⟨S10000x256, .f32⟩
  | 31 => ⟨S_, .f32⟩
  | 32 => ⟨S10000x256, .f32⟩
  | 33 => ⟨S10000x256, .f32⟩
  | 34 => ⟨S100000x1, .i32⟩
  | 35 => ⟨S100000, .i32⟩
  | 36 => ⟨S100000x1, .i32⟩
  | 37 => ⟨S100000, .i32⟩
  | 38 => ⟨S_, .i32⟩
  | 39 => ⟨S100000, .i32⟩
  | 40 => ⟨S100000, .i1⟩
  | 41 => ⟨S_, .i32⟩
  | 42 => ⟨S100000, .i32⟩
  | 43 => ⟨S100000, .i32⟩
  | 44 => ⟨S100000, .i32⟩
  | 45 => ⟨S100000x1, .i32⟩
  | 46 => ⟨S100000x256, .f32⟩
  | 47 => ⟨S_, .i32⟩
  | 48 => ⟨S100000, .i32⟩
  | 49 => ⟨S100000, .i1⟩
  | 50 => ⟨S_, .i32⟩
  | 51 => ⟨S100000, .i32⟩
  | 52 => ⟨S100000, .i32⟩
  | 53 => ⟨S100000, .i32⟩
  | 54 => ⟨S100000x1, .i32⟩
  | 55 => ⟨S100000x256, .f32⟩
  | 56 => ⟨S100000x512, .f32⟩
  | 57 => ⟨S100000x256, .f32⟩
  | 58 => ⟨S1x256, .f32⟩
  | 59 => ⟨S100000x256, .f32⟩
  | 60 => ⟨S100000x256, .f32⟩
  | 61 => ⟨S_, .f32⟩
  | 62 => ⟨S100000x256, .f32⟩
  | 63 => ⟨S100000x256, .f32⟩
  | 64 => ⟨S100000x1, .f32⟩
  | 65 => ⟨S1x1, .f32⟩
  | 66 => ⟨S100000x1, .f32⟩
  | 67 => ⟨S100000x1, .f32⟩
  | 68 => ⟨S100000, .f32⟩
  | _ => ⟨S10000, .i32⟩

abbrev hbmTy (i : Nat) : BufTy := match i / 128 with
  | 0 => hbmTy0_0 i
  | 1 => hbmTy0_1 i
  | _ => ⟨S10000, .i32⟩

abbrev bufTy : (tb : Table) → Fin (tcTables nBuf tb) → BufTy
  | .hbm, ⟨i, _⟩ => hbmTy i
  | _, _ => ⟨S10000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_c_1 : Ref sig .tc := ⟨.hbm, 29, rfl⟩
abbrev main_v11 : Ref sig .tc := ⟨.hbm, 30, rfl⟩
abbrev main_v12 : Ref sig .tc := ⟨.hbm, 31, rfl⟩
abbrev main_c_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst : Ref sig .tc := ⟨.hbm, 46, rfl⟩
abbrev main_v26 : Ref sig .tc := ⟨.hbm, 47, rfl⟩
abbrev main_cst_3 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_4 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_5 : Ref sig .tc := ⟨.hbm, 56, rfl⟩
abbrev main_v33 : Ref sig .tc := ⟨.hbm, 57, rfl⟩
abbrev main_v34 : Ref sig .tc := ⟨.hbm, 58, rfl⟩
abbrev main_cst_6 : Ref sig .tc := ⟨.hbm, 59, rfl⟩
abbrev main_v35 : Ref sig .tc := ⟨.hbm, 60, rfl⟩
abbrev main_v36 : Ref sig .tc := ⟨.hbm, 61, rfl⟩
abbrev main_cst_7 : Ref sig .tc := ⟨.hbm, 62, rfl⟩
abbrev main_call0_v0 : Ref sig .tc := ⟨.hbm, 63, rfl⟩
abbrev main_call0_v1 : Ref sig .tc := ⟨.hbm, 64, rfl⟩
abbrev main_v37 : Ref sig .tc := ⟨.hbm, 65, rfl⟩
abbrev main_v38 : Ref sig .tc := ⟨.hbm, 66, rfl⟩
abbrev main_cst_8 : Ref sig .tc := ⟨.hbm, 67, rfl⟩
abbrev main_v39 : Ref sig .tc := ⟨.hbm, 68, rfl⟩
abbrev main_v40 : Ref sig .tc := ⟨.hbm, 69, rfl⟩
abbrev main_cst_9 : Ref sig .tc := ⟨.hbm, 70, rfl⟩
abbrev main_v41 : Ref sig .tc := ⟨.hbm, 71, rfl⟩
abbrev main_v42 : Ref sig .tc := ⟨.hbm, 72, rfl⟩
abbrev main_cst_10 : Ref sig .tc := ⟨.hbm, 73, rfl⟩
abbrev main_call1_v0 : Ref sig .tc := ⟨.hbm, 74, rfl⟩
abbrev main_call1_v1 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_c_11 : Ref sig .tc := ⟨.hbm, 80, rfl⟩
abbrev main_v47 : Ref sig .tc := ⟨.hbm, 81, rfl⟩
abbrev main_v48 : Ref sig .tc := ⟨.hbm, 82, rfl⟩
abbrev main_c_12 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_cst_13 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_call2_cst : Ref sig .tc := ⟨.hbm, 103, rfl⟩
abbrev main_call2_v0 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_c_14 : Ref sig .tc := ⟨.hbm, 108, rfl⟩
abbrev main_v70 : Ref sig .tc := ⟨.hbm, 109, rfl⟩
abbrev main_v71 : Ref sig .tc := ⟨.hbm, 110, rfl⟩
abbrev main_c_15 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_cst_16 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_call3_cst : Ref sig .tc := ⟨.hbm, 131, rfl⟩
abbrev main_call3_v0 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_c_17 : Ref sig .tc := ⟨.hbm, 136, rfl⟩
abbrev main_v93 : Ref sig .tc := ⟨.hbm, 137, rfl⟩
abbrev main_v94 : Ref sig .tc := ⟨.hbm, 138, rfl⟩
abbrev main_c_18 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_cst_19 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_call4_cst : Ref sig .tc := ⟨.hbm, 159, rfl⟩
abbrev main_call4_v0 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_c_20 : Ref sig .tc := ⟨.hbm, 166, rfl⟩
abbrev main_v118 : Ref sig .tc := ⟨.hbm, 167, rfl⟩
abbrev main_v119 : Ref sig .tc := ⟨.hbm, 168, rfl⟩
abbrev main_c_21 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_c_22 : Ref sig .tc := ⟨.hbm, 175, rfl⟩
abbrev main_v125 : Ref sig .tc := ⟨.hbm, 176, rfl⟩
abbrev main_v126 : Ref sig .tc := ⟨.hbm, 177, rfl⟩
abbrev main_c_23 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_call5_cst : Ref sig .tc := ⟨.hbm, 189, rfl⟩
abbrev main_call5_v0 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩

abbrev nD : Nat := 1
abbrev τ : Topo := Topo.v7x

variable {F : FTy → Type} [FloatOps F]

class Facts₀ : Prop where
  bcast_S_S10000 : S_.BroadcastsInDim S10000 (![] : Fin 0 → Fin S10000.rank)
  bcast_S10000_S10000x1_0 : S10000.BroadcastsInDim S10000x1 (![0] : Fin 1 → Fin S10000x1.rank)
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S320000 : S_.BroadcastsInDim S320000 (![] : Fin 0 → Fin S320000.rank)
  bcast_S320000_S320000x1_0 : S320000.BroadcastsInDim S320000x1 (![0] : Fin 1 → Fin S320000x1.rank)
  bcast_S1x256_S320000x256_0_1 : S1x256.BroadcastsInDim S320000x256 (![0, 1] : Fin 2 → Fin S320000x256.rank)
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S10000x1_S10000x256_0_1 : S10000x1.BroadcastsInDim S10000x256 (![0, 1] : Fin 2 → Fin S10000x256.rank)
  bcast_S_S10000x256 : S_.BroadcastsInDim S10000x256 (![] : Fin 0 → Fin S10000x256.rank)
  slices_S3x256x256_S1x256x256_0_0_0 : S3x256x256.Slices ![0, 0, 0] S1x256x256
  shapeCasts_S1x256x256_S256x256 : S1x256x256.ShapeCasts S256x256
  slices_S3x256_S1x256_0_0 : S3x256.Slices ![0, 0] S1x256
  shapeCasts_S1x256_S256 : S1x256.ShapeCasts S256
  slices_S3x256x256_S1x256x256_1_0_0 : S3x256x256.Slices ![1, 0, 0] S1x256x256
  slices_S3x256_S1x256_1_0 : S3x256.Slices ![1, 0] S1x256
  slices_S3x256x256_S1x256x256_2_0_0 : S3x256x256.Slices ![2, 0, 0] S1x256x256
  slices_S3x256_S1x256_2_0 : S3x256.Slices ![2, 0] S1x256
  slices_S100000x2_S100000x1_0_0 : S100000x2.Slices ![0, 0] S100000x1
  shapeCasts_S100000x1_S100000 : S100000x1.ShapeCasts S100000
  slices_S100000x2_S100000x1_0_1 : S100000x2.Slices ![0, 1] S100000x1
  bcast_S_S100000 : S_.BroadcastsInDim S100000 (![] : Fin 0 → Fin S100000.rank)
  bcast_S100000_S100000x1_0 : S100000.BroadcastsInDim S100000x1 (![0] : Fin 1 → Fin S100000x1.rank)
  concatenates_S100000x256_S100000x256_S100000x512_d1 : Shape.Concatenates [S100000x256, S100000x256] S100000x512 1
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  gather_S100x256_S10000x1_S10000x256_1_0_n_n_0_1_1256_wf : GatherDims.WF S100x256 S10000x1 S10000x256 [1] [0] [] [0] [] 1 ![1, 256]
  dot_S10000x256_S256x256_S10000x256_1_0_0_1_n_n_wf : DotDims.WF S10000x256 S256x256 S10000x256 [1] [0] [0] [1] [] []
  gather_S10x256_S320000x1_S320000x256_1_0_n_n_0_1_1256_wf : GatherDims.WF S10x256 S320000x1 S320000x256 [1] [0] [] [0] [] 1 ![1, 256]
  dot_S320000x256_S256x256_S320000x256_1_0_0_1_n_n_wf : DotDims.WF S320000x256 S256x256 S320000x256 [1] [0] [0] [1] [] []
  scatter_S10000_S320000x1_S320000_n_0_0_1_wf : ScatterDims.WF S10000 S320000x1 S320000 [] [0] [0] 1
  gather_S10000x256_S320000x1_S320000x256_1_0_n_n_0_1_1256_wf : GatherDims.WF S10000x256 S320000x1 S320000x256 [1] [0] [] [0] [] 1 ![1, 256]
  scatter_S10000x256_S320000x1_S320000x256_1_0_0_1_wf : ScatterDims.WF S10000x256 S320000x1 S320000x256 [1] [0] [0] 1
  gather_S10000x256_S100000x1_S100000x256_1_0_n_n_0_1_1256_wf : GatherDims.WF S10000x256 S100000x1 S100000x256 [1] [0] [] [0] [] 1 ![1, 256]
  dot_S100000x512_S512x256_S100000x256_1_0_0_1_n_n_wf : DotDims.WF S100000x512 S512x256 S100000x256 [1] [0] [0] [1] [] []
  dot_S100000x256_S256x1_S100000x1_1_0_0_1_n_n_wf : DotDims.WF S100000x256 S256x1 S100000x1 [1] [0] [0] [1] [] []

variable [Facts₀]

def gather_S100x256_S10000x1_S10000x256_1_0_n_n_0_1_1256 : GatherDims S100x256 S10000x1 S10000x256 where
  offsetDims := [1]
  collapsedSliceDims := [0]
  operandBatchingDims := []
  startIndicesBatchingDims := []
  startIndexMap := [0]
  indexVectorDim := 1
  sliceSizes := ![1, 256]
  wf := gather_S100x256_S10000x1_S10000x256_1_0_n_n_0_1_1256_wf
def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def gather_S10x256_S320000x1_S320000x256_1_0_n_n_0_1_1256 : GatherDims S10x256 S320000x1 S320000x256 where
  offsetDims := [1]
  collapsedSliceDims := [0]
  operandBatchingDims := []
  startIndicesBatchingDims := []
  startIndexMap := [0]
  indexVectorDim := 1
  sliceSizes := ![1, 256]
  wf := gather_S10x256_S320000x1_S320000x256_1_0_n_n_0_1_1256_wf
def dot_S320000x256_S256x256_S320000x256_1_0_0_1_n_n : DotDims S320000x256 S256x256 S320000x256 where
  lhsContracting := [1]
  rhsContracting := [0]
  lhsNonContracting := [0]
  rhsNonContracting := [1]
  lhsBatch := []
  rhsBatch := []
  wf := dot_S320000x256_S256x256_S320000x256_1_0_0_1_n_n_wf
def scatter_S10000_S320000x1_S320000_n_0_0_1 : ScatterDims S10000 S320000x1 S320000 where
  updateWindowDims := []
  insertedWindowDims := [0]
  scatterDimsToOperandDims := [0]
  indexVectorDim := 1
  wf := scatter_S10000_S320000x1_S320000_n_0_0_1_wf
def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf
def gather_S10000x256_S100000x1_S100000x256_1_0_n_n_0_1_1256 : GatherDims S10000x256 S100000x1 S100000x256 where
  offsetDims := [1]
  collapsedSliceDims := [0]
  operandBatchingDims := []
  startIndicesBatchingDims := []
  startIndexMap := [0]
  indexVectorDim := 1
  sliceSizes := ![1, 256]
  wf := gather_S10000x256_S100000x1_S100000x256_1_0_n_n_0_1_1256_wf
def dot_S100000x512_S512x256_S100000x256_1_0_0_1_n_n : DotDims S100000x512 S512x256 S100000x256 where
  lhsContracting := [1]
  rhsContracting := [0]
  lhsNonContracting := [0]
  rhsNonContracting := [1]
  lhsBatch := []
  rhsBatch := []
  wf := dot_S100000x512_S512x256_S100000x256_1_0_0_1_n_n_wf
def dot_S100000x256_S256x1_S100000x1_1_0_0_1_n_n : DotDims S100000x256 S256x1 S100000x1 where
  lhsContracting := [1]
  rhsContracting := [0]
  lhsNonContracting := [0]
  rhsNonContracting := [1]
  lhsBatch := []
  rhsBatch := []
  wf := dot_S100000x256_S256x1_S100000x1_1_0_0_1_n_n_wf

class Facts : Prop extends Facts₀ where

variable [Facts]
-- ==== Proof.Blocks.lean ====
/-
  The vector operations of the kernels' bodies read at one entry of a row block, on extended reals.

  A block of 400 (or 4000) rows times a 256 x 256 matrix: entry (p, q) is the sum over k of l[p, k] · r[k, q].
  A column [rows, 1] broadcast along the lanes reads its row's entry; a row [1, 256] broadcast down the rows reads its
  lane's entry. The zero of the clip is the real zero.
-/
import proofs.«431059_j80393197846860_3_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Blocks

open Cert.KernelIdeal Cert.KernelIdeal.Gen
open Idealize.ShloMosaic Idealize.ShloMosaic.TcCoe Idealize.ShloMosaic.ValueIdx

/-! ## The matrix product of a 400-row block -/

theorem lhs400_0 (i : S400x256.Idx) (q : dot_S400x256_S256x256_S400x256_1_0_0_1_n_n.contr.Idx) :
    (dot_S400x256_S256x256_S400x256_1_0_0_1_n_n.lhsIdx i q 0).val = (i 0).val := by
  unfold DotDims.lhsIdx
  rw [dif_neg (show ¬(0 : Fin S400x256.rank) ∈ dot_S400x256_S256x256_S400x256_1_0_0_1_n_n.lhsBatch by decide), dif_pos (show (0 : Fin S400x256.rank) ∈ dot_S400x256_S256x256_S400x256_1_0_0_1_n_n.lhsNonContracting by decide)]
  rfl
theorem lhs400_1 (i : S400x256.Idx) (q : dot_S400x256_S256x256_S400x256_1_0_0_1_n_n.contr.Idx) :
    (dot_S400x256_S256x256_S400x256_1_0_0_1_n_n.lhsIdx i q 1).val = (q ⟨0, by decide⟩).val :=
  dot_S400x256_S256x256_S400x256_1_0_0_1_n_n.lhsIdx_val_of_single rfl i q
theorem rhs400_0 (i : S400x256.Idx) (q : dot_S400x256_S256x256_S400x256_1_0_0_1_n_n.contr.Idx) :
    (dot_S400x256_S256x256_S400x256_1_0_0_1_n_n.rhsIdx i q 0).val = (q ⟨0, by decide⟩).val :=
  dot_S400x256_S256x256_S400x256_1_0_0_1_n_n.rhsIdx_val_of_single rfl i q
theorem rhs400_1 (i : S400x256.Idx) (q : dot_S400x256_S256x256_S400x256_1_0_0_1_n_n.contr.Idx) :
    (dot_S400x256_S256x256_S400x256_1_0_0_1_n_n.rhsIdx i q 1).val = (i 1).val := by
  unfold DotDims.rhsIdx
  rw [dif_neg (show ¬(1 : Fin S256x256.rank) ∈ dot_S400x256_S256x256_S400x256_1_0_0_1_n_n.rhsBatch by decide), dif_pos (show (1 : Fin S256x256.rank) ∈ dot_S400x256_S256x256_S400x256_1_0_0_1_n_n.rhsNonContracting by decide)]
  rfl

/-- Entry (p, q) of a 400-row block times a square matrix, into a zero accumulator. -/
theorem matmul400_apply (l : FVec Ideal S400x256 .bf16) (r : FVec Ideal S256x256 .bf16) (p : Fin 400) (q : Fin 256) :
    matmul dot_S400x256_S256x256_S400x256_1_0_0_1_n_n none l r (constant S400x256 .f32 0x00000000#32) (ix2 p q)
      = ∑ k : Fin 256, l (ix2 p k) * r (ix2 k q) := by
  show FloatOps.matmul dot_S400x256_S256x256_S400x256_1_0_0_1_n_n none l r (constant S400x256 .f32 0x00000000#32) (ix2 p q) = _
  rw [Ideal.matmul_constant_zero_apply, ← Equiv.sum_comp (contrEquiv1 dot_S400x256_S256x256_S400x256_1_0_0_1_n_n 256 rfl rfl).symm]
  refine Finset.sum_congr rfl fun k _ => ?_
  have hk := contrEquiv1_symm_val dot_S400x256_S256x256_S400x256_1_0_0_1_n_n 256 rfl rfl k
  have el : dot_S400x256_S256x256_S400x256_1_0_0_1_n_n.lhsIdx (ix2 p q) ((contrEquiv1 dot_S400x256_S256x256_S400x256_1_0_0_1_n_n 256 rfl rfl).symm k) = ix2 p k := funext fun a => Fin.ext (by
    match a with
    | ⟨0, _⟩ => exact lhs400_0 _ _
    | ⟨1, _⟩ => exact (lhs400_1 _ _).trans hk)
  have er : dot_S400x256_S256x256_S400x256_1_0_0_1_n_n.rhsIdx (ix2 p q) ((contrEquiv1 dot_S400x256_S256x256_S400x256_1_0_0_1_n_n 256 rfl rfl).symm k) = ix2 k q := funext fun a => Fin.ext (by
    match a with
    | ⟨0, _⟩ => exact (rhs400_0 _ _).trans hk
    | ⟨1, _⟩ => exact rhs400_1 _ _)
  rw [el, er]

/-! ## Broadcasts of a column and of a row over a 400-row block -/

theorem col400_apply (v : FVec Ideal S400x1 .f32) (p : Fin 400) (q : Fin 256) :
    broadcastTo S400x256 v broadcasts_S400x1_S400x256 (ix2 p q) = v (ix2 p (0 : Fin 1)) :=
  broadcastTo_apply v broadcasts_S400x1_S400x256 (ix2 p q) (ix2 p (0 : Fin 1)) (fun a => match a with
    | ⟨0, _⟩ => by show p.val = if (400 : Nat) = 1 then 0 else p.val; rw [if_neg (by decide)]
    | ⟨1, _⟩ => by show 0 = if (1 : Nat) = 1 then 0 else q.val; rw [if_pos rfl])

theorem row400_apply (v : FVec Ideal S1x256 .f32) (p : Fin 400) (q : Fin 256) :
    broadcastTo S400x256 v broadcasts_S1x256_S400x256 (ix2 p q) = v (ix2 (0 : Fin 1) q) :=
  broadcastTo_apply v broadcasts_S1x256_S400x256 (ix2 p q) (ix2 (0 : Fin 1) q) (fun a => match a with
    | ⟨0, _⟩ => by show 0 = if (1 : Nat) = 1 then 0 else p.val; rw [if_pos rfl]
    | ⟨1, _⟩ => by show q.val = if (256 : Nat) = 1 then 0 else q.val; rw [if_neg (by decide)])

/-- The clip's zero word is the real zero. -/
theorem zero_word : FloatOps.ofBits (F := Ideal) .f32 0x00000000#32 = (0 : EReal) := Ideal.ofBits_zero_f32

end Cert.KernelIdeal.Blocks

end
-- ==== Proof.Enc0.lean ====
/-
  What the atom-encoder call leaves in its result array, as one function of the arrays it finds.

  Grid point t works on rows 400·t … 400·t + 399: it multiplies its block of the gathered embedding by the whole
  256 x 256 weight matrix, adds the bias row and scales by the rows' outgoing weights. So entry (r, q) of the result is
      (Σ_k E[r, k] · W[k, q] + b[q]) · ns[r]
  whatever block r lies in, and the 25 blocks tile the 10000 rows.
-/
import proofs.«431059_j80393197846860_3_alg».proof.Proof.Gen.KernelIdeal.Frame
import proofs.«431059_j80393197846860_3_alg».proof.Proof.Blocks
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Enc0

open Cert.KernelIdeal Cert.KernelIdeal.Gen Cert.KernelIdeal.Blocks
open Idealize.ShloMosaic Idealize.ShloMosaic.TcCoe Idealize.SL.Sem Idealize.ShloMosaic.ValueIdx
open Idealize.ShloMosaic.Pipeline (Dat Cfg Window)

/-- The result array: entry (r, q) from row r of the embedding and of the outgoing weight column. -/
def G (X : FVec Ideal S10000x256 .f32) (W : FVec Ideal S256x256 .f32) (b : FVec Ideal S1x256 .f32)
    (NS : FVec Ideal S10000x1 .f32) : FVec Ideal S10000x256 .bf16 :=
  fun i => ((∑ k : Fin 256, X (ix2 (i 0) k) * W (ix2 k (i 1))) + b (ix2 (0 : Fin 1) (i 1))) * NS (ix2 (i 0) (0 : Fin 1))

theorem G_apply (X : FVec Ideal S10000x256 .f32) (W : FVec Ideal S256x256 .f32) (b : FVec Ideal S1x256 .f32)
    (NS : FVec Ideal S10000x1 .f32) (r : Fin 10000) (q : Fin 256) :
    G X W b NS (ix2 r q) = ((∑ k : Fin 256, X (ix2 r k) * W (ix2 k q)) + b (ix2 (0 : Fin 1) q)) * NS (ix2 r (0 : Fin 1)) := rfl

/-- The body's stored value at entry (p, q) of its block. -/
theorem pay_at (x : Vec Ideal S400x256 .f32) (W : Vec Ideal S256x256 .f32)
    (b : Vec Ideal S1x256 .f32) (ns : Vec Ideal S400x1 .f32) (p : Fin 400) (q : Fin 256) :
    k0_pay1 (F := Ideal) x W b ns (ix2 p q)
      = ((∑ k : Fin 256, x (ix2 p k) * W (ix2 k q)) + b (ix2 (0 : Fin 1) q)) * ns (ix2 p (0 : Fin 1)) := by
  unfold k0_pay1
  simp only [shapeCast_self]
  show (matmul (F := Ideal) dot_S400x256_S256x256_S400x256_1_0_0_1_n_n none
        (truncf (F := Ideal) .bf16 x bitsLt_bf16_f32)
        (truncf (F := Ideal) .bf16 W bitsLt_bf16_f32) (constant (F := Ideal) S400x256 .f32 0x00000000#32) (ix2 p q)
      + broadcastTo S400x256 b broadcasts_S1x256_S400x256 (ix2 p q))
    * broadcastTo S400x256 ns broadcasts_S400x1_S400x256 (ix2 p q) = _
  rw [matmul400_apply, row400_apply, col400_apply]
  rfl

/-- The same value, when the block's rows are rows of whole arrays: the result array's entry. -/
theorem point_eq (x : Vec Ideal S400x256 .f32) (Wb : Vec Ideal S256x256 .f32)
    (bb : Vec Ideal S1x256 .f32) (ns : Vec Ideal S400x1 .f32)
    (X : FVec Ideal S10000x256 .f32) (W : FVec Ideal S256x256 .f32) (b : FVec Ideal S1x256 .f32) (NS : FVec Ideal S10000x1 .f32)
    (j : S400x256.Idx) (i : S10000x256.Idx)
    (hx : ∀ k : Fin 256, x (ix2 (j 0) k) = X (ix2 (i 0) k))
    (hns : ns (ix2 (j 0) (0 : Fin 1)) = NS (ix2 (i 0) (0 : Fin 1)))
    (hW : ∀ y, Wb y = W y) (hb : ∀ y, bb y = b y) (h1 : (j 1).val = (i 1).val) :
    k0_pay1 (F := Ideal) x Wb bb ns j = G X W b NS i := by
  obtain ⟨p, q, rfl⟩ : ∃ (p : Fin 400) (q : Fin 256), j = ix2 p q := ⟨j 0, j 1, eq_ix2 j⟩
  obtain ⟨r, s, rfl⟩ : ∃ (r : Fin 10000) (s : Fin 256), i = ix2 r s := ⟨i 0, i 1, eq_ix2 i⟩
  obtain rfl : q = s := Fin.ext h1
  have hx' : ∀ k : Fin 256, x (ix2 p k) = X (ix2 r k) := hx
  have hns' : ns (ix2 p (0 : Fin 1)) = NS (ix2 r (0 : Fin 1)) := hns
  rw [pay_at]
  show _ = ((∑ k : Fin 256, X (ix2 r k) * W (ix2 k q)) + b (ix2 (0 : Fin 1) q)) * NS (ix2 r (0 : Fin 1))
  rw [hns', hb]
  simp only [hx', hW]

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 25 points: the row-blocked windows sit at block (t, 0), the weights and the bias at (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Window 0's block at point t is rows 400·t … of the gathered embedding. -/
theorem blk0 (c : Dev nD) (t : Fin cfg0.N) (x : S400x256.Idx) (k : S10000x256.Idx)
    (hk0 : (k 0).val = t.val * 400 + (x 0).val) (hk1 : (k 1).val = (x 1).val) :
    (iblk0 V c 0 t : Vec Ideal S400x256 .f32) x = (V c main_v6 : S10000x256.Idx → EReal) k := by
  obtain ⟨e0, e1, -⟩ := idx_facts t
  unfold iblk0
  rw [View.read_apply]
  show V c main_v6 _ = V c main_v6 _
  congr 1
  funext a
  apply Fin.ext
  match a with
  | ⟨0, _⟩ => show win0_0.index t (0 : Fin 2) * 400 + 1 * (x 0).val = (k 0).val; rw [e0, hk0]; omega
  | ⟨1, _⟩ => show win0_0.index t (1 : Fin 2) * 256 + 1 * (x 1).val = (k 1).val; rw [e1, hk1]; omega

/-- Window 1's block is the whole weight matrix. -/
theorem blk1 (c : Dev nD) (t : Fin cfg0.N) (x : S256x256.Idx) :
    (iblk0 V c 1 t : Vec Ideal S256x256 .f32) x = (V c main_arg5 : S256x256.Idx → EReal) x := by
  obtain ⟨-, -, e2, e3, -⟩ := idx_facts t
  unfold iblk0
  rw [View.read_apply]
  show V c main_arg5 _ = V c main_arg5 _
  congr 1
  funext a
  apply Fin.ext
  match a with
  | ⟨0, _⟩ => show win0_1.index t (0 : Fin 2) * 256 + 1 * (x 0).val = (x 0).val; rw [e2]; omega
  | ⟨1, _⟩ => show win0_1.index t (1 : Fin 2) * 256 + 1 * (x 1).val = (x 1).val; rw [e3]; omega

/-- Window 2's block is the whole bias row. -/
theorem blk2 (c : Dev nD) (t : Fin cfg0.N) (x : S1x256.Idx) :
    (iblk0 V c 2 t : Vec Ideal S1x256 .f32) x = (V c main_v30 : S1x256.Idx → EReal) x := by
  obtain ⟨-, -, -, -, e4, e5, -⟩ := idx_facts t
  unfold iblk0
  rw [View.read_apply]
  show V c main_v30 _ = V c main_v30 _
  congr 1
  funext a
  apply Fin.ext
  match a with
  | ⟨0, _⟩ => show win0_2.index t (0 : Fin 2) * 1 + 1 * (x 0).val = (x 0).val; rw [e4]; omega
  | ⟨1, _⟩ => show win0_2.index t (1 : Fin 2) * 256 + 1 * (x 1).val = (x 1).val; rw [e5]; omega

/-- Window 3: rows 400·t … of the outgoing weight column. -/
theorem blk3 (c : Dev nD) (t : Fin cfg0.N) (x : S400x1.Idx) (k : S10000x1.Idx)
    (hk0 : (k 0).val = t.val * 400 + (x 0).val) (hk1 : (k 1).val = (x 1).val) :
    (iblk0 V c 3 t : Vec Ideal S400x1 .f32) x = (V c main_v23 : S10000x1.Idx → EReal) k := by
  obtain ⟨-, -, -, -, -, -, e6, e7, -⟩ := idx_facts t
  unfold iblk0
  rw [View.read_apply]
  show V c main_v23 _ = V c main_v23 _
  congr 1
  funext a
  apply Fin.ext
  match a with
  | ⟨0, _⟩ => show win0_3.index t (0 : Fin 2) * 400 + 1 * (x 0).val = (k 0).val; rw [e6, hk0]; omega
  | ⟨1, _⟩ => show win0_3.index t (1 : Fin 2) * 1 + 1 * (x 1).val = (k 1).val; rw [e7, hk1]; omega

/-- What point t writes back is block t of the result array. -/
theorem flushed_eq (c : Dev nD) (t : Fin cfg0.N) :
    (dat0 V c).flushed 4 t = ((cfg0.win 4).blk t).view.read (Elt Ideal)
      (G (V c main_v6) (V c main_arg5) (V c main_v30) (V c main_v23)) := by
  show (cfg0.win 4).cut (grid0.coords t) ((dat0 V c).after 4 t) = _
  rw [after0_4]
  unfold out0_4
  rw [View.canon_unit_zero hz]
  simp only [View.ld_unit_zero (S := S400x256) hz, View.ld_unit_zero (S := S400x1) hz, View.ld_unit_zero (S := S256x256) hz,
    View.ld_unit_zero (S := S1x256) hz]
  funext j
  rw [View.read_apply]
  obtain ⟨-, -, -, -, -, -, -, -, e10, e11⟩ := idx_facts t
  have r0 : ((((cfg0.win 4).blk t).view.emb j : S10000x256.Idx) 0).val = t.val * 400 + ((j : S400x256.Idx) 0).val := by
    show win0_4.index t (0 : Fin 2) * 400 + 1 * ((j : S400x256.Idx) 0).val = _; rw [e10]; omega
  have r1 : ((((cfg0.win 4).blk t).view.emb j : S10000x256.Idx) 1).val = ((j : S400x256.Idx) 1).val := by
    show win0_4.index t (1 : Fin 2) * 256 + 1 * ((j : S400x256.Idx) 1).val = _; rw [e11]; omega
  refine point_eq (iblk0 V c 0 t) (iblk0 V c 1 t) (iblk0 V c 2 t) (iblk0 V c 3 t)
    (V c main_v6) (V c main_arg5) (V c main_v30) (V c main_v23) j (((cfg0.win 4).blk t).view.emb j) ?_ ?_ ?_ ?_ r1.symm
  · intro k; exact blk0 V c t _ _ r0 rfl
  · exact blk3 V c t _ _ r0 rfl
  · intro y; exact blk1 V c t y
  · intro y; exact blk2 V c t y

/-- An index of the result array lies in point t's block iff its row lies in rows 400·t … 400·t + 399. -/
theorem mem_blk (t : Fin cfg0.N) (i : S10000x256.Idx) :
    i ∈ ((cfg0.win 4).blk t).view.set ↔ ∀ a : Fin 2, win0_4.index t a * S400x256.size a ≤ (i a).val ∧ (i a).val < win0_4.index t a * S400x256.size a + S400x256.size a := by
  show i ∈ ((View.whole main_v31).slice (win0_4.rect t)).set ↔ _
  rw [View.set_slice_whole, Rect.mem_set_unit]
  exact Iff.rfl

/-- Every row lies in the block of the point r / 400. -/
theorem cover (i : S10000x256.Idx) : ∃ t : Fin cfg0.N, (cfg0.win 4).flush t = true ∧ i ∈ ((cfg0.win 4).blk t).view.set := by
  have hi0 : (i 0).val < 10000 := (i 0).isLt
  have hi1 : (i 1).val < 256 := (i 1).isLt
  have hlt : (i 0).val / 400 < grid0.N := by rw [N_0]; omega
  refine ⟨⟨(i 0).val / 400, hlt⟩, flush0_4 _, ?_⟩
  rw [mem_blk]
  obtain ⟨-, -, -, -, -, -, -, -, e10, e11⟩ := idx_facts ⟨(i 0).val / 400, hlt⟩
  intro a
  match a with
  | ⟨0, _⟩ =>
    show win0_4.index ⟨(i 0).val / 400, hlt⟩ (0 : Fin 2) * 400 ≤ (i 0).val ∧ (i 0).val < win0_4.index ⟨(i 0).val / 400, hlt⟩ (0 : Fin 2) * 400 + 400
    rw [e10]; show (i 0).val / 400 * 400 ≤ (i 0).val ∧ (i 0).val < (i 0).val / 400 * 400 + 400; omega
  | ⟨1, _⟩ =>
    show win0_4.index ⟨(i 0).val / 400, hlt⟩ (1 : Fin 2) * 256 ≤ (i 1).val ∧ (i 1).val < win0_4.index ⟨(i 0).val / 400, hlt⟩ (1 : Fin 2) * 256 + 256
    rw [e11]; omega

/-- The result array after the region. -/
theorem final (c : Dev nD) :
    (dat0 V c).arrAt 4 cfg0.N = G (V c main_v6) (V c main_arg5) (V c main_v30) (V c main_v23) :=
  (dat0 V c).arrAt_eq_of_cover 4 _ (fun t _ => flushed_eq V c t) cover

end Cert.KernelIdeal.Enc0

end
-- ==== Proof.Conv1.lean ====
/-
  What the first scaled graph-convolution call leaves in its result array, as one function of the arrays it finds.

  Grid point t works on rows 400·t … 400·t + 399: it scales its block of the aggregated table by the rows' incoming
  weights, multiplies by the whole 256 x 256 weight matrix, adds the bias row, clips at zero and scales by the rows'
  outgoing weights. So entry (r, q) of the result is
      max(Σ_k (X[r, k] · nd[r]) · W[k, q] + b[q], 0) · ns[r]
  whatever block r lies in, and the 25 blocks tile the 10000 rows.
-/
import proofs.«431059_j80393197846860_3_alg».proof.Proof.Gen.KernelIdeal.Frame
import proofs.«431059_j80393197846860_3_alg».proof.Proof.Blocks
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Conv1

open Cert.KernelIdeal Cert.KernelIdeal.Gen Cert.KernelIdeal.Blocks
open Idealize.ShloMosaic Idealize.ShloMosaic.TcCoe Idealize.SL.Sem Idealize.ShloMosaic.ValueIdx
open Idealize.ShloMosaic.Pipeline (Dat Cfg Window)

/-- The result array: entry (r, q) from row r of the aggregated table and of the two weight columns. -/
def G (X : FVec Ideal S10000x256 .f32) (W : FVec Ideal S256x256 .f32) (b : FVec Ideal S1x256 .f32)
    (ND NS : FVec Ideal S10000x1 .f32) : FVec Ideal S10000x256 .bf16 :=
  fun i => max ((∑ k : Fin 256, (X (ix2 (i 0) k) * ND (ix2 (i 0) (0 : Fin 1))) * W (ix2 k (i 1))) + b (ix2 (0 : Fin 1) (i 1))) 0
    * NS (ix2 (i 0) (0 : Fin 1))

theorem G_apply (X : FVec Ideal S10000x256 .f32) (W : FVec Ideal S256x256 .f32) (b : FVec Ideal S1x256 .f32)
    (ND NS : FVec Ideal S10000x1 .f32) (r : Fin 10000) (q : Fin 256) :
    G X W b ND NS (ix2 r q)
      = max ((∑ k : Fin 256, (X (ix2 r k) * ND (ix2 r (0 : Fin 1))) * W (ix2 k q)) + b (ix2 (0 : Fin 1) q)) 0 * NS (ix2 r (0 : Fin 1)) := rfl

/-- The body's stored value at entry (p, q) of its block. -/
theorem pay_at (x : Vec Ideal S400x256 .f32) (nd : Vec Ideal S400x1 .f32) (W : Vec Ideal S256x256 .f32)
    (b : Vec Ideal S1x256 .f32) (ns : Vec Ideal S400x1 .f32) (p : Fin 400) (q : Fin 256) :
    k1_pay1 (F := Ideal) x nd W b ns (ix2 p q)
      = max ((∑ k : Fin 256, (x (ix2 p k) * nd (ix2 p (0 : Fin 1))) * W (ix2 k q)) + b (ix2 (0 : Fin 1) q)) 0
        * ns (ix2 p (0 : Fin 1)) := by
  unfold k1_pay1
  simp only [shapeCast_self]
  show max (matmul (F := Ideal) dot_S400x256_S256x256_S400x256_1_0_0_1_n_n none
        (truncf (F := Ideal) .bf16 (mulf (F := Ideal) x (broadcastTo S400x256 nd broadcasts_S400x1_S400x256)) bitsLt_bf16_f32)
        (truncf (F := Ideal) .bf16 W bitsLt_bf16_f32) (constant (F := Ideal) S400x256 .f32 0x00000000#32) (ix2 p q)
      + broadcastTo S400x256 b broadcasts_S1x256_S400x256 (ix2 p q)) (FloatOps.ofBits (F := Ideal) .f32 0x00000000#32)
    * broadcastTo S400x256 ns broadcasts_S400x1_S400x256 (ix2 p q) = _
  rw [matmul400_apply, row400_apply, col400_apply, zero_word]
  refine congrArg (fun s => max (s + b (ix2 (0 : Fin 1) q)) 0 * ns (ix2 p (0 : Fin 1))) (Finset.sum_congr rfl fun k _ => ?_)
  show x (ix2 p k) * broadcastTo S400x256 nd broadcasts_S400x1_S400x256 (ix2 p k) * W (ix2 k q) = _
  rw [col400_apply]

/-- The same value, when the block's rows are rows of whole arrays: the result array's entry. -/
theorem point_eq (x : Vec Ideal S400x256 .f32) (nd : Vec Ideal S400x1 .f32) (Wb : Vec Ideal S256x256 .f32)
    (bb : Vec Ideal S1x256 .f32) (ns : Vec Ideal S400x1 .f32)
    (X : FVec Ideal S10000x256 .f32) (W : FVec Ideal S256x256 .f32) (b : FVec Ideal S1x256 .f32) (ND NS : FVec Ideal S10000x1 .f32)
    (j : S400x256.Idx) (i : S10000x256.Idx)
    (hx : ∀ k : Fin 256, x (ix2 (j 0) k) = X (ix2 (i 0) k))
    (hnd : nd (ix2 (j 0) (0 : Fin 1)) = ND (ix2 (i 0) (0 : Fin 1)))
    (hns : ns (ix2 (j 0) (0 : Fin 1)) = NS (ix2 (i 0) (0 : Fin 1)))
    (hW : ∀ y, Wb y = W y) (hb : ∀ y, bb y = b y) (h1 : (j 1).val = (i 1).val) :
    k1_pay1 (F := Ideal) x nd Wb bb ns j = G X W b ND NS i := by
  obtain ⟨p, q, rfl⟩ : ∃ (p : Fin 400) (q : Fin 256), j = ix2 p q := ⟨j 0, j 1, eq_ix2 j⟩
  obtain ⟨r, s, rfl⟩ : ∃ (r : Fin 10000) (s : Fin 256), i = ix2 r s := ⟨i 0, i 1, eq_ix2 i⟩
  obtain rfl : q = s := Fin.ext h1
  have hx' : ∀ k : Fin 256, x (ix2 p k) = X (ix2 r k) := hx
  have hnd' : nd (ix2 p (0 : Fin 1)) = ND (ix2 r (0 : Fin 1)) := hnd
  have hns' : ns (ix2 p (0 : Fin 1)) = NS (ix2 r (0 : Fin 1)) := hns
  rw [pay_at]
  show _ = max ((∑ k : Fin 256, (X (ix2 r k) * ND (ix2 r (0 : Fin 1))) * W (ix2 k q)) + b (ix2 (0 : Fin 1) q)) 0 * NS (ix2 r (0 : Fin 1))
  rw [hnd', hns', hb]
  simp only [hx', hW]

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 25 points: the row-blocked windows sit at block (t, 0), the weights and the bias at (0, 0). -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- Window 0's block at point t is rows 400·t … of the aggregated table. -/
theorem blk0 (c : Dev nD) (t : Fin cfg1.N) (x : S400x256.Idx) (k : S10000x256.Idx)
    (hk0 : (k 0).val = t.val * 400 + (x 0).val) (hk1 : (k 1).val = (x 1).val) :
    (iblk1 V c 0 t : Vec Ideal S400x256 .f32) x = (V c main_v42 : S10000x256.Idx → EReal) k := by
  obtain ⟨e0, e1, -⟩ := idx_facts t
  unfold iblk1
  rw [View.read_apply]
  show V c main_v42 _ = V c main_v42 _
  congr 1
  funext a
  apply Fin.ext
  match a with
  | ⟨0, _⟩ => show win1_0.index t (0 : Fin 2) * 400 + 1 * (x 0).val = (k 0).val; rw [e0, hk0]; omega
  | ⟨1, _⟩ => show win1_0.index t (1 : Fin 2) * 256 + 1 * (x 1).val = (k 1).val; rw [e1, hk1]; omega

/-- Window 1's block is the whole weight matrix. -/
theorem blk1 (c : Dev nD) (t : Fin cfg1.N) (x : S256x256.Idx) :
    (iblk1 V c 1 t : Vec Ideal S256x256 .f32) x = (V c main_v44 : S256x256.Idx → EReal) x := by
  obtain ⟨-, -, e2, e3, -⟩ := idx_facts t
  unfold iblk1
  rw [View.read_apply]
  show V c main_v44 _ = V c main_v44 _
  congr 1
  funext a
  apply Fin.ext
  match a with
  | ⟨0, _⟩ => show win1_1.index t (0 : Fin 2) * 256 + 1 * (x 0).val = (x 0).val; rw [e2]; omega
  | ⟨1, _⟩ => show win1_1.index t (1 : Fin 2) * 256 + 1 * (x 1).val = (x 1).val; rw [e3]; omega

/-- Window 2's block is the whole bias row. -/
theorem blk2 (c : Dev nD) (t : Fin cfg1.N) (x : S1x256.Idx) :
    (iblk1 V c 2 t : Vec Ideal S1x256 .f32) x = (V c main_v47 : S1x256.Idx → EReal) x := by
  obtain ⟨-, -, -, -, e4, e5, -⟩ := idx_facts t
  unfold iblk1
  rw [View.read_apply]
  show V c main_v47 _ = V c main_v47 _
  congr 1
  funext a
  apply Fin.ext
  match a with
  | ⟨0, _⟩ => show win1_2.index t (0 : Fin 2) * 1 + 1 * (x 0).val = (x 0).val; rw [e4]; omega
  | ⟨1, _⟩ => show win1_2.index t (1 : Fin 2) * 256 + 1 * (x 1).val = (x 1).val; rw [e5]; omega

/-- Windows 3 and 4: rows 400·t … of the two weight columns. -/
theorem blk3 (c : Dev nD) (t : Fin cfg1.N) (x : S400x1.Idx) (k : S10000x1.Idx)
    (hk0 : (k 0).val = t.val * 400 + (x 0).val) (hk1 : (k 1).val = (x 1).val) :
    (iblk1 V c 3 t : Vec Ideal S400x1 .f32) x = (V c main_v29 : S10000x1.Idx → EReal) k := by
  obtain ⟨-, -, -, -, -, -, e6, e7, -⟩ := idx_facts t
  unfold iblk1
  rw [View.read_apply]
  show V c main_v29 _ = V c main_v29 _
  congr 1
  funext a
  apply Fin.ext
  match a with
  | ⟨0, _⟩ => show win1_3.index t (0 : Fin 2) * 400 + 1 * (x 0).val = (k 0).val; rw [e6, hk0]; omega
  | ⟨1, _⟩ => show win1_3.index t (1 : Fin 2) * 1 + 1 * (x 1).val = (k 1).val; rw [e7, hk1]; omega

theorem blk4 (c : Dev nD) (t : Fin cfg1.N) (x : S400x1.Idx) (k : S10000x1.Idx)
    (hk0 : (k 0).val = t.val * 400 + (x 0).val) (hk1 : (k 1).val = (x 1).val) :
    (iblk1 V c 4 t : Vec Ideal S400x1 .f32) x = (V c main_v23 : S10000x1.Idx → EReal) k := by
  obtain ⟨-, -, -, -, -, -, -, -, e8, e9, -⟩ := idx_facts t
  unfold iblk1
  rw [View.read_apply]
  show V c main_v23 _ = V c main_v23 _
  congr 1
  funext a
  apply Fin.ext
  match a with
  | ⟨0, _⟩ => show win1_4.index t (0 : Fin 2) * 400 + 1 * (x 0).val = (k 0).val; rw [e8, hk0]; omega
  | ⟨1, _⟩ => show win1_4.index t (1 : Fin 2) * 1 + 1 * (x 1).val = (k 1).val; rw [e9, hk1]; omega

/-- What point t writes back is block t of the result array. -/
theorem flushed_eq (c : Dev nD) (t : Fin cfg1.N) :
    (dat1 V c).flushed 5 t = ((cfg1.win 5).blk t).view.read (Elt Ideal)
      (G (V c main_v42) (V c main_v44) (V c main_v47) (V c main_v29) (V c main_v23)) := by
  show (cfg1.win 5).cut (grid1.coords t) ((dat1 V c).after 5 t) = _
  rw [after1_5]
  unfold out1_5
  rw [View.canon_unit_zero hz]
  simp only [View.ld_unit_zero (S := S400x256) hz, View.ld_unit_zero (S := S400x1) hz, View.ld_unit_zero (S := S256x256) hz,
    View.ld_unit_zero (S := S1x256) hz]
  funext j
  rw [View.read_apply]
  obtain ⟨-, -, -, -, -, -, -, -, -, -, e10, e11⟩ := idx_facts t
  have r0 : ((((cfg1.win 5).blk t).view.emb j : S10000x256.Idx) 0).val = t.val * 400 + ((j : S400x256.Idx) 0).val := by
    show win1_5.index t (0 : Fin 2) * 400 + 1 * ((j : S400x256.Idx) 0).val = _; rw [e10]; omega
  have r1 : ((((cfg1.win 5).blk t).view.emb j : S10000x256.Idx) 1).val = ((j : S400x256.Idx) 1).val := by
    show win1_5.index t (1 : Fin 2) * 256 + 1 * ((j : S400x256.Idx) 1).val = _; rw [e11]; omega
  refine point_eq (iblk1 V c 0 t) (iblk1 V c 3 t) (iblk1 V c 1 t) (iblk1 V c 2 t) (iblk1 V c 4 t)
    (V c main_v42) (V c main_v44) (V c main_v47) (V c main_v29) (V c main_v23) j (((cfg1.win 5).blk t).view.emb j) ?_ ?_ ?_ ?_ ?_ r1.symm
  · intro k; exact blk0 V c t _ _ r0 rfl
  · exact blk3 V c t _ _ r0 rfl
  · exact blk4 V c t _ _ r0 rfl
  · intro y; exact blk1 V c t y
  · intro y; exact blk2 V c t y

/-- An index of the result array lies in point t's block iff its row lies in rows 400·t … 400·t + 399. -/
theorem mem_blk (t : Fin cfg1.N) (i : S10000x256.Idx) :
    i ∈ ((cfg1.win 5).blk t).view.set ↔ ∀ a : Fin 2, win1_5.index t a * S400x256.size a ≤ (i a).val ∧ (i a).val < win1_5.index t a * S400x256.size a + S400x256.size a := by
  show i ∈ ((View.whole main_v48).slice (win1_5.rect t)).set ↔ _
  rw [View.set_slice_whole, Rect.mem_set_unit]
  exact Iff.rfl

/-- Every row lies in the block of the point r / 400. -/
theorem cover (i : S10000x256.Idx) : ∃ t : Fin cfg1.N, (cfg1.win 5).flush t = true ∧ i ∈ ((cfg1.win 5).blk t).view.set := by
  have hi0 : (i 0).val < 10000 := (i 0).isLt
  have hi1 : (i 1).val < 256 := (i 1).isLt
  have hlt : (i 0).val / 400 < grid1.N := by rw [N_1]; omega
  refine ⟨⟨(i 0).val / 400, hlt⟩, flush1_5 _, ?_⟩
  rw [mem_blk]
  obtain ⟨-, -, -, -, -, -, -, -, -, -, e10, e11⟩ := idx_facts ⟨(i 0).val / 400, hlt⟩
  intro a
  match a with
  | ⟨0, _⟩ =>
    show win1_5.index ⟨(i 0).val / 400, hlt⟩ (0 : Fin 2) * 400 ≤ (i 0).val ∧ (i 0).val < win1_5.index ⟨(i 0).val / 400, hlt⟩ (0 : Fin 2) * 400 + 400
    rw [e10]; show (i 0).val / 400 * 400 ≤ (i 0).val ∧ (i 0).val < (i 0).val / 400 * 400 + 400; omega
  | ⟨1, _⟩ =>
    show win1_5.index ⟨(i 0).val / 400, hlt⟩ (1 : Fin 2) * 256 ≤ (i 1).val ∧ (i 1).val < win1_5.index ⟨(i 0).val / 400, hlt⟩ (1 : Fin 2) * 256 + 256
    rw [e11]; omega

/-- The result array after the region. -/
theorem final (c : Dev nD) :
    (dat1 V c).arrAt 5 cfg1.N = G (V c main_v42) (V c main_v44) (V c main_v47) (V c main_v29) (V c main_v23) :=
  (dat1 V c).arrAt_eq_of_cover 5 _ (fun t _ => flushed_eq V c t) cover

end Cert.KernelIdeal.Conv1

end
-- ==== Proof.Conv2.lean ====
/-
  What the second scaled graph-convolution call leaves in its result array, as one function of the arrays it finds.

  Grid point t works on rows 400·t … 400·t + 399: it scales its block of the aggregated table by the rows' incoming
  weights, multiplies by the whole 256 x 256 weight matrix, adds the bias row, clips at zero and scales by the rows'
  outgoing weights. So entry (r, q) of the result is
      max(Σ_k (X[r, k] · nd[r]) · W[k, q] + b[q], 0) · ns[r]
  whatever block r lies in, and the 25 blocks tile the 10000 rows.
-/
import proofs.«431059_j80393197846860_3_alg».proof.Proof.Gen.KernelIdeal.Frame
import proofs.«431059_j80393197846860_3_alg».proof.Proof.Blocks
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Conv2

open Cert.KernelIdeal Cert.KernelIdeal.Gen Cert.KernelIdeal.Blocks
open Idealize.ShloMosaic Idealize.ShloMosaic.TcCoe Idealize.SL.Sem Idealize.ShloMosaic.ValueIdx
open Idealize.ShloMosaic.Pipeline (Dat Cfg Window)

/-- The result array: entry (r, q) from row r of the aggregated table and of the two weight columns. -/
def G (X : FVec Ideal S10000x256 .f32) (W : FVec Ideal S256x256 .f32) (b : FVec Ideal S1x256 .f32)
    (ND NS : FVec Ideal S10000x1 .f32) : FVec Ideal S10000x256 .bf16 :=
  fun i => max ((∑ k : Fin 256, (X (ix2 (i 0) k) * ND (ix2 (i 0) (0 : Fin 1))) * W (ix2 k (i 1))) + b (ix2 (0 : Fin 1) (i 1))) 0
    * NS (ix2 (i 0) (0 : Fin 1))

theorem G_apply (X : FVec Ideal S10000x256 .f32) (W : FVec Ideal S256x256 .f32) (b : FVec Ideal S1x256 .f32)
    (ND NS : FVec Ideal S10000x1 .f32) (r : Fin 10000) (q : Fin 256) :
    G X W b ND NS (ix2 r q)
      = max ((∑ k : Fin 256, (X (ix2 r k) * ND (ix2 r (0 : Fin 1))) * W (ix2 k q)) + b (ix2 (0 : Fin 1) q)) 0 * NS (ix2 r (0 : Fin 1)) := rfl

/-- The body's stored value at entry (p, q) of its block. -/
theorem pay_at (x : Vec Ideal S400x256 .f32) (nd : Vec Ideal S400x1 .f32) (W : Vec Ideal S256x256 .f32)
    (b : Vec Ideal S1x256 .f32) (ns : Vec Ideal S400x1 .f32) (p : Fin 400) (q : Fin 256) :
    k2_pay1 (F := Ideal) x nd W b ns (ix2 p q)
      = max ((∑ k : Fin 256, (x (ix2 p k) * nd (ix2 p (0 : Fin 1))) * W (ix2 k q)) + b (ix2 (0 : Fin 1) q)) 0
        * ns (ix2 p (0 : Fin 1)) := by
  unfold k2_pay1
  simp only [shapeCast_self]
  show max (matmul (F := Ideal) dot_S400x256_S256x256_S400x256_1_0_0_1_n_n none
        (truncf (F := Ideal) .bf16 (mulf (F := Ideal) x (broadcastTo S400x256 nd broadcasts_S400x1_S400x256)) bitsLt_bf16_f32)
        (truncf (F := Ideal) .bf16 W bitsLt_bf16_f32) (constant (F := Ideal) S400x256 .f32 0x00000000#32) (ix2 p q)
      + broadcastTo S400x256 b broadcasts_S1x256_S400x256 (ix2 p q)) (FloatOps.ofBits (F := Ideal) .f32 0x00000000#32)
    * broadcastTo S400x256 ns broadcasts_S400x1_S400x256 (ix2 p q) = _
  rw [matmul400_apply, row400_apply, col400_apply, zero_word]
  refine congrArg (fun s => max (s + b (ix2 (0 : Fin 1) q)) 0 * ns (ix2 p (0 : Fin 1))) (Finset.sum_congr rfl fun k _ => ?_)
  show x (ix2 p k) * broadcastTo S400x256 nd broadcasts_S400x1_S400x256 (ix2 p k) * W (ix2 k q) = _
  rw [col400_apply]

/-- The same value, when the block's rows are rows of whole arrays: the result array's entry. -/
theorem point_eq (x : Vec Ideal S400x256 .f32) (nd : Vec Ideal S400x1 .f32) (Wb : Vec Ideal S256x256 .f32)
    (bb : Vec Ideal S1x256 .f32) (ns : Vec Ideal S400x1 .f32)
    (X : FVec Ideal S10000x256 .f32) (W : FVec Ideal S256x256 .f32) (b : FVec Ideal S1x256 .f32) (ND NS : FVec Ideal S10000x1 .f32)
    (j : S400x256.Idx) (i : S10000x256.Idx)
    (hx : ∀ k : Fin 256, x (ix2 (j 0) k) = X (ix2 (i 0) k))
    (hnd : nd (ix2 (j 0) (0 : Fin 1)) = ND (ix2 (i 0) (0 : Fin 1)))
    (hns : ns (ix2 (j 0) (0 : Fin 1)) = NS (ix2 (i 0) (0 : Fin 1)))
    (hW : ∀ y, Wb y = W y) (hb : ∀ y, bb y = b y) (h1 : (j 1).val = (i 1).val) :
    k2_pay1 (F := Ideal) x nd Wb bb ns j = G X W b ND NS i := by
  obtain ⟨p, q, rfl⟩ : ∃ (p : Fin 400) (q : Fin 256), j = ix2 p q := ⟨j 0, j 1, eq_ix2 j⟩
  obtain ⟨r, s, rfl⟩ : ∃ (r : Fin 10000) (s : Fin 256), i = ix2 r s := ⟨i 0, i 1, eq_ix2 i⟩
  obtain rfl : q = s := Fin.ext h1
  have hx' : ∀ k : Fin 256, x (ix2 p k) = X (ix2 r k) := hx
  have hnd' : nd (ix2 p (0 : Fin 1)) = ND (ix2 r (0 : Fin 1)) := hnd
  have hns' : ns (ix2 p (0 : Fin 1)) = NS (ix2 r (0 : Fin 1)) := hns
  rw [pay_at]
  show _ = max ((∑ k : Fin 256, (X (ix2 r k) * ND (ix2 r (0 : Fin 1))) * W (ix2 k q)) + b (ix2 (0 : Fin 1) q)) 0 * NS (ix2 r (0 : Fin 1))
  rw [hnd', hns', hb]
  simp only [hx', hW]

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 25 points: the row-blocked windows sit at block (t, 0), the weights and the bias at (0, 0). -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0 :=
  (by decide +kernel : ∀ t : Fin grid2.N, _)

/-- Window 0's block at point t is rows 400·t … of the aggregated table. -/
theorem blk0 (c : Dev nD) (t : Fin cfg2.N) (x : S400x256.Idx) (k : S10000x256.Idx)
    (hk0 : (k 0).val = t.val * 400 + (x 0).val) (hk1 : (k 1).val = (x 1).val) :
    (iblk2 V c 0 t : Vec Ideal S400x256 .f32) x = (V c main_v59 : S10000x256.Idx → EReal) k := by
  obtain ⟨e0, e1, -⟩ := idx_facts t
  unfold iblk2
  rw [View.read_apply]
  show V c main_v59 _ = V c main_v59 _
  congr 1
  funext a
  apply Fin.ext
  match a with
  | ⟨0, _⟩ => show win2_0.index t (0 : Fin 2) * 400 + 1 * (x 0).val = (k 0).val; rw [e0, hk0]; omega
  | ⟨1, _⟩ => show win2_0.index t (1 : Fin 2) * 256 + 1 * (x 1).val = (k 1).val; rw [e1, hk1]; omega

/-- Window 1's block is the whole weight matrix. -/
theorem blk1 (c : Dev nD) (t : Fin cfg2.N) (x : S256x256.Idx) :
    (iblk2 V c 1 t : Vec Ideal S256x256 .f32) x = (V c main_v61 : S256x256.Idx → EReal) x := by
  obtain ⟨-, -, e2, e3, -⟩ := idx_facts t
  unfold iblk2
  rw [View.read_apply]
  show V c main_v61 _ = V c main_v61 _
  congr 1
  funext a
  apply Fin.ext
  match a with
  | ⟨0, _⟩ => show win2_1.index t (0 : Fin 2) * 256 + 1 * (x 0).val = (x 0).val; rw [e2]; omega
  | ⟨1, _⟩ => show win2_1.index t (1 : Fin 2) * 256 + 1 * (x 1).val = (x 1).val; rw [e3]; omega

/-- Window 2's block is the whole bias row. -/
theorem blk2 (c : Dev nD) (t : Fin cfg2.N) (x : S1x256.Idx) :
    (iblk2 V c 2 t : Vec Ideal S1x256 .f32) x = (V c main_v64 : S1x256.Idx → EReal) x := by
  obtain ⟨-, -, -, -, e4, e5, -⟩ := idx_facts t
  unfold iblk2
  rw [View.read_apply]
  show V c main_v64 _ = V c main_v64 _
  congr 1
  funext a
  apply Fin.ext
  match a with
  | ⟨0, _⟩ => show win2_2.index t (0 : Fin 2) * 1 + 1 * (x 0).val = (x 0).val; rw [e4]; omega
  | ⟨1, _⟩ => show win2_2.index t (1 : Fin 2) * 256 + 1 * (x 1).val = (x 1).val; rw [e5]; omega

/-- Windows 3 and 4: rows 400·t … of the two weight columns. -/
theorem blk3 (c : Dev nD) (t : Fin cfg2.N) (x : S400x1.Idx) (k : S10000x1.Idx)
    (hk0 : (k 0).val = t.val * 400 + (x 0).val) (hk1 : (k 1).val = (x 1).val) :
    (iblk2 V c 3 t : Vec Ideal S400x1 .f32) x = (V c main_v29 : S10000x1.Idx → EReal) k := by
  obtain ⟨-, -, -, -, -, -, e6, e7, -⟩ := idx_facts t
  unfold iblk2
  rw [View.read_apply]
  show V c main_v29 _ = V c main_v29 _
  congr 1
  funext a
  apply Fin.ext
  match a with
  | ⟨0, _⟩ => show win2_3.index t (0 : Fin 2) * 400 + 1 * (x 0).val = (k 0).val; rw [e6, hk0]; omega
  | ⟨1, _⟩ => show win2_3.index t (1 : Fin 2) * 1 + 1 * (x 1).val = (k 1).val; rw [e7, hk1]; omega

theorem blk4 (c : Dev nD) (t : Fin cfg2.N) (x : S400x1.Idx) (k : S10000x1.Idx)
    (hk0 : (k 0).val = t.val * 400 + (x 0).val) (hk1 : (k 1).val = (x 1).val) :
    (iblk2 V c 4 t : Vec Ideal S400x1 .f32) x = (V c main_v23 : S10000x1.Idx → EReal) k := by
  obtain ⟨-, -, -, -, -, -, -, -, e8, e9, -⟩ := idx_facts t
  unfold iblk2
  rw [View.read_apply]
  show V c main_v23 _ = V c main_v23 _
  congr 1
  funext a
  apply Fin.ext
  match a with
  | ⟨0, _⟩ => show win2_4.index t (0 : Fin 2) * 400 + 1 * (x 0).val = (k 0).val; rw [e8, hk0]; omega
  | ⟨1, _⟩ => show win2_4.index t (1 : Fin 2) * 1 + 1 * (x 1).val = (k 1).val; rw [e9, hk1]; omega

/-- What point t writes back is block t of the result array. -/
theorem flushed_eq (c : Dev nD) (t : Fin cfg2.N) :
    (dat2 V c).flushed 5 t = ((cfg2.win 5).blk t).view.read (Elt Ideal)
      (G (V c main_v59) (V c main_v61) (V c main_v64) (V c main_v29) (V c main_v23)) := by
  show (cfg2.win 5).cut (grid2.coords t) ((dat2 V c).after 5 t) = _
  rw [after2_5]
  unfold out2_5
  rw [View.canon_unit_zero hz]
  simp only [View.ld_unit_zero (S := S400x256) hz, View.ld_unit_zero (S := S400x1) hz, View.ld_unit_zero (S := S256x256) hz,
    View.ld_unit_zero (S := S1x256) hz]
  funext j
  rw [View.read_apply]
  obtain ⟨-, -, -, -, -, -, -, -, -, -, e10, e11⟩ := idx_facts t
  have r0 : ((((cfg2.win 5).blk t).view.emb j : S10000x256.Idx) 0).val = t.val * 400 + ((j : S400x256.Idx) 0).val := by
    show win2_5.index t (0 : Fin 2) * 400 + 1 * ((j : S400x256.Idx) 0).val = _; rw [e10]; omega
  have r1 : ((((cfg2.win 5).blk t).view.emb j : S10000x256.Idx) 1).val = ((j : S400x256.Idx) 1).val := by
    show win2_5.index t (1 : Fin 2) * 256 + 1 * ((j : S400x256.Idx) 1).val = _; rw [e11]; omega
  refine point_eq (iblk2 V c 0 t) (iblk2 V c 3 t) (iblk2 V c 1 t) (iblk2 V c 2 t) (iblk2 V c 4 t)
    (V c main_v59) (V c main_v61) (V c main_v64) (V c main_v29) (V c main_v23) j (((cfg2.win 5).blk t).view.emb j) ?_ ?_ ?_ ?_ ?_ r1.symm
  · intro k; exact blk0 V c t _ _ r0 rfl
  · exact blk3 V c t _ _ r0 rfl
  · exact blk4 V c t _ _ r0 rfl
  · intro y; exact blk1 V c t y
  · intro y; exact blk2 V c t y

/-- An index of the result array lies in point t's block iff its row lies in rows 400·t … 400·t + 399. -/
theorem mem_blk (t : Fin cfg2.N) (i : S10000x256.Idx) :
    i ∈ ((cfg2.win 5).blk t).view.set ↔ ∀ a : Fin 2, win2_5.index t a * S400x256.size a ≤ (i a).val ∧ (i a).val < win2_5.index t a * S400x256.size a + S400x256.size a := by
  show i ∈ ((View.whole main_v65).slice (win2_5.rect t)).set ↔ _
  rw [View.set_slice_whole, Rect.mem_set_unit]
  exact Iff.rfl

/-- Every row lies in the block of the point r / 400. -/
theorem cover (i : S10000x256.Idx) : ∃ t : Fin cfg2.N, (cfg2.win 5).flush t = true ∧ i ∈ ((cfg2.win 5).blk t).view.set := by
  have hi0 : (i 0).val < 10000 := (i 0).isLt
  have hi1 : (i 1).val < 256 := (i 1).isLt
  have hlt : (i 0).val / 400 < grid2.N := by rw [N_2]; omega
  refine ⟨⟨(i 0).val / 400, hlt⟩, flush2_5 _, ?_⟩
  rw [mem_blk]
  obtain ⟨-, -, -, -, -, -, -, -, -, -, e10, e11⟩ := idx_facts ⟨(i 0).val / 400, hlt⟩
  intro a
  match a with
  | ⟨0, _⟩ =>
    show win2_5.index ⟨(i 0).val / 400, hlt⟩ (0 : Fin 2) * 400 ≤ (i 0).val ∧ (i 0).val < win2_5.index ⟨(i 0).val / 400, hlt⟩ (0 : Fin 2) * 400 + 400
    rw [e10]; show (i 0).val / 400 * 400 ≤ (i 0).val ∧ (i 0).val < (i 0).val / 400 * 400 + 400; omega
  | ⟨1, _⟩ =>
    show win2_5.index ⟨(i 0).val / 400, hlt⟩ (1 : Fin 2) * 256 ≤ (i 1).val ∧ (i 1).val < win2_5.index ⟨(i 0).val / 400, hlt⟩ (1 : Fin 2) * 256 + 256
    rw [e11]; omega

/-- The result array after the region. -/
theorem final (c : Dev nD) :
    (dat2 V c).arrAt 5 cfg2.N = G (V c main_v59) (V c main_v61) (V c main_v64) (V c main_v29) (V c main_v23) :=
  (dat2 V c).arrAt_eq_of_cover 5 _ (fun t _ => flushed_eq V c t) cover

end Cert.KernelIdeal.Conv2

end
-- ==== Proof.Last3.lean ====
/-
  What the last graph-convolution call leaves in its result array, as one function of the arrays it finds.

  Grid point t works on rows 400·t … 400·t + 399: it scales its block of the aggregated table by the rows' incoming
  weights, multiplies by the whole 256 x 256 weight matrix, adds the bias row and clips at zero; there is no outgoing
  scale after the last round. So entry (r, q) of the result is
      max(Σ_k (X[r, k] · nd[r]) · W[k, q] + b[q], 0)
  whatever block r lies in, and the 25 blocks tile the 10000 rows.
-/
import proofs.«431059_j80393197846860_3_alg».proof.Proof.Gen.KernelIdeal.Frame
import proofs.«431059_j80393197846860_3_alg».proof.Proof.Blocks
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Last3

open Cert.KernelIdeal Cert.KernelIdeal.Gen Cert.KernelIdeal.Blocks
open Idealize.ShloMosaic Idealize.ShloMosaic.TcCoe Idealize.SL.Sem Idealize.ShloMosaic.ValueIdx
open Idealize.ShloMosaic.Pipeline (Dat Cfg Window)

/-- The result array: entry (r, q) from row r of the aggregated table and of the incoming weight column. -/
def G (X : FVec Ideal S10000x256 .f32) (W : FVec Ideal S256x256 .f32) (b : FVec Ideal S1x256 .f32)
    (ND : FVec Ideal S10000x1 .f32) : FVec Ideal S10000x256 .bf16 :=
  fun i => max ((∑ k : Fin 256, (X (ix2 (i 0) k) * ND (ix2 (i 0) (0 : Fin 1))) * W (ix2 k (i 1))) + b (ix2 (0 : Fin 1) (i 1))) 0

theorem G_apply (X : FVec Ideal S10000x256 .f32) (W : FVec Ideal S256x256 .f32) (b : FVec Ideal S1x256 .f32)
    (ND : FVec Ideal S10000x1 .f32) (r : Fin 10000) (q : Fin 256) :
    G X W b ND (ix2 r q)
      = max ((∑ k : Fin 256, (X (ix2 r k) * ND (ix2 r (0 : Fin 1))) * W (ix2 k q)) + b (ix2 (0 : Fin 1) q)) 0 := rfl

/-- The body's stored value at entry (p, q) of its block. -/
theorem pay_at (x : Vec Ideal S400x256 .f32) (nd : Vec Ideal S400x1 .f32) (W : Vec Ideal S256x256 .f32)
    (b : Vec Ideal S1x256 .f32) (p : Fin 400) (q : Fin 256) :
    k3_pay1 (F := Ideal) x nd W b (ix2 p q)
      = max ((∑ k : Fin 256, (x (ix2 p k) * nd (ix2 p (0 : Fin 1))) * W (ix2 k q)) + b (ix2 (0 : Fin 1) q)) 0 := by
  unfold k3_pay1
  simp only [shapeCast_self]
  show max (matmul (F := Ideal) dot_S400x256_S256x256_S400x256_1_0_0_1_n_n none
        (truncf (F := Ideal) .bf16 (mulf (F := Ideal) x (broadcastTo S400x256 nd broadcasts_S400x1_S400x256)) bitsLt_bf16_f32)
        (truncf (F := Ideal) .bf16 W bitsLt_bf16_f32) (constant (F := Ideal) S400x256 .f32 0x00000000#32) (ix2 p q)
      + broadcastTo S400x256 b broadcasts_S1x256_S400x256 (ix2 p q)) (FloatOps.ofBits (F := Ideal) .f32 0x00000000#32) = _
  rw [matmul400_apply, row400_apply, zero_word]
  refine congrArg (fun s => max (s + b (ix2 (0 : Fin 1) q)) 0) (Finset.sum_congr rfl fun k _ => ?_)
  show x (ix2 p k) * broadcastTo S400x256 nd broadcasts_S400x1_S400x256 (ix2 p k) * W (ix2 k q) = _
  rw [col400_apply]

/-- The same value, when the block's rows are rows of whole arrays: the result array's entry. -/
theorem point_eq (x : Vec Ideal S400x256 .f32) (nd : Vec Ideal S400x1 .f32) (Wb : Vec Ideal S256x256 .f32)
    (bb : Vec Ideal S1x256 .f32)
    (X : FVec Ideal S10000x256 .f32) (W : FVec Ideal S256x256 .f32) (b : FVec Ideal S1x256 .f32) (ND : FVec Ideal S10000x1 .f32)
    (j : S400x256.Idx) (i : S10000x256.Idx)
    (hx : ∀ k : Fin 256, x (ix2 (j 0) k) = X (ix2 (i 0) k))
    (hnd : nd (ix2 (j 0) (0 : Fin 1)) = ND (ix2 (i 0) (0 : Fin 1)))
    (hW : ∀ y, Wb y = W y) (hb : ∀ y, bb y = b y) (h1 : (j 1).val = (i 1).val) :
    k3_pay1 (F := Ideal) x nd Wb bb j = G X W b ND i := by
  obtain ⟨p, q, rfl⟩ : ∃ (p : Fin 400) (q : Fin 256), j = ix2 p q := ⟨j 0, j 1, eq_ix2 j⟩
  obtain ⟨r, s, rfl⟩ : ∃ (r : Fin 10000) (s : Fin 256), i = ix2 r s := ⟨i 0, i 1, eq_ix2 i⟩
  obtain rfl : q = s := Fin.ext h1
  have hx' : ∀ k : Fin 256, x (ix2 p k) = X (ix2 r k) := hx
  have hnd' : nd (ix2 p (0 : Fin 1)) = ND (ix2 r (0 : Fin 1)) := hnd
  rw [pay_at]
  show _ = max ((∑ k : Fin 256, (X (ix2 r k) * ND (ix2 r (0 : Fin 1))) * W (ix2 k q)) + b (ix2 (0 : Fin 1) q)) 0
  rw [hnd', hb]
  simp only [hx', hW]

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 25 points: the row-blocked windows sit at block (t, 0), the weights and the bias at (0, 0). -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0 :=
  (by decide +kernel : ∀ t : Fin grid3.N, _)

/-- Window 0's block at point t is rows 400·t … of the aggregated table. -/
theorem blk0 (c : Dev nD) (t : Fin cfg3.N) (x : S400x256.Idx) (k : S10000x256.Idx)
    (hk0 : (k 0).val = t.val * 400 + (x 0).val) (hk1 : (k 1).val = (x 1).val) :
    (iblk3 V c 0 t : Vec Ideal S400x256 .f32) x = (V c main_v76 : S10000x256.Idx → EReal) k := by
  obtain ⟨e0, e1, -⟩ := idx_facts t
  unfold iblk3
  rw [View.read_apply]
  show V c main_v76 _ = V c main_v76 _
  congr 1
  funext a
  apply Fin.ext
  match a with
  | ⟨0, _⟩ => show win3_0.index t (0 : Fin 2) * 400 + 1 * (x 0).val = (k 0).val; rw [e0, hk0]; omega
  | ⟨1, _⟩ => show win3_0.index t (1 : Fin 2) * 256 + 1 * (x 1).val = (k 1).val; rw [e1, hk1]; omega

/-- Window 1's block is the whole weight matrix. -/
theorem blk1 (c : Dev nD) (t : Fin cfg3.N) (x : S256x256.Idx) :
    (iblk3 V c 1 t : Vec Ideal S256x256 .f32) x = (V c main_v78 : S256x256.Idx → EReal) x := by
  obtain ⟨-, -, e2, e3, -⟩ := idx_facts t
  unfold iblk3
  rw [View.read_apply]
  show V c main_v78 _ = V c main_v78 _
  congr 1
  funext a
  apply Fin.ext
  match a with
  | ⟨0, _⟩ => show win3_1.index t (0 : Fin 2) * 256 + 1 * (x 0).val = (x 0).val; rw [e2]; omega
  | ⟨1, _⟩ => show win3_1.index t (1 : Fin 2) * 256 + 1 * (x 1).val = (x 1).val; rw [e3]; omega

/-- Window 2's block is the whole bias row. -/
theorem blk2 (c : Dev nD) (t : Fin cfg3.N) (x : S1x256.Idx) :
    (iblk3 V c 2 t : Vec Ideal S1x256 .f32) x = (V c main_v81 : S1x256.Idx → EReal) x := by
  obtain ⟨-, -, -, -, e4, e5, -⟩ := idx_facts t
  unfold iblk3
  rw [View.read_apply]
  show V c main_v81 _ = V c main_v81 _
  congr 1
  funext a
  apply Fin.ext
  match a with
  | ⟨0, _⟩ => show win3_2.index t (0 : Fin 2) * 1 + 1 * (x 0).val = (x 0).val; rw [e4]; omega
  | ⟨1, _⟩ => show win3_2.index t (1 : Fin 2) * 256 + 1 * (x 1).val = (x 1).val; rw [e5]; omega

/-- Window 3: rows 400·t … of the incoming weight column. -/
theorem blk3 (c : Dev nD) (t : Fin cfg3.N) (x : S400x1.Idx) (k : S10000x1.Idx)
    (hk0 : (k 0).val = t.val * 400 + (x 0).val) (hk1 : (k 1).val = (x 1).val) :
    (iblk3 V c 3 t : Vec Ideal S400x1 .f32) x = (V c main_v29 : S10000x1.Idx → EReal) k := by
  obtain ⟨-, -, -, -, -, -, e6, e7, -⟩ := idx_facts t
  unfold iblk3
  rw [View.read_apply]
  show V c main_v29 _ = V c main_v29 _
  congr 1
  funext a
  apply Fin.ext
  match a with
  | ⟨0, _⟩ => show win3_3.index t (0 : Fin 2) * 400 + 1 * (x 0).val = (k 0).val; rw [e6, hk0]; omega
  | ⟨1, _⟩ => show win3_3.index t (1 : Fin 2) * 1 + 1 * (x 1).val = (k 1).val; rw [e7, hk1]; omega

/-- What point t writes back is block t of the result array. -/
theorem flushed_eq (c : Dev nD) (t : Fin cfg3.N) :
    (dat3 V c).flushed 4 t = ((cfg3.win 4).blk t).view.read (Elt Ideal)
      (G (V c main_v76) (V c main_v78) (V c main_v81) (V c main_v29)) := by
  show (cfg3.win 4).cut (grid3.coords t) ((dat3 V c).after 4 t) = _
  rw [after3_4]
  unfold out3_4
  rw [View.canon_unit_zero hz]
  simp only [View.ld_unit_zero (S := S400x256) hz, View.ld_unit_zero (S := S400x1) hz, View.ld_unit_zero (S := S256x256) hz,
    View.ld_unit_zero (S := S1x256) hz]
  funext j
  rw [View.read_apply]
  obtain ⟨-, -, -, -, -, -, -, -, e10, e11⟩ := idx_facts t
  have r0 : ((((cfg3.win 4).blk t).view.emb j : S10000x256.Idx) 0).val = t.val * 400 + ((j : S400x256.Idx) 0).val := by
    show win3_4.index t (0 : Fin 2) * 400 + 1 * ((j : S400x256.Idx) 0).val = _; rw [e10]; omega
  have r1 : ((((cfg3.win 4).blk t).view.emb j : S10000x256.Idx) 1).val = ((j : S400x256.Idx) 1).val := by
    show win3_4.index t (1 : Fin 2) * 256 + 1 * ((j : S400x256.Idx) 1).val = _; rw [e11]; omega
  refine point_eq (iblk3 V c 0 t) (iblk3 V c 3 t) (iblk3 V c 1 t) (iblk3 V c 2 t)
    (V c main_v76) (V c main_v78) (V c main_v81) (V c main_v29) j (((cfg3.win 4).blk t).view.emb j) ?_ ?_ ?_ ?_ r1.symm
  · intro k; exact blk0 V c t _ _ r0 rfl
  · exact blk3 V c t _ _ r0 rfl
  · intro y; exact blk1 V c t y
  · intro y; exact blk2 V c t y

/-- An index of the result array lies in point t's block iff its row lies in rows 400·t … 400·t + 399. -/
theorem mem_blk (t : Fin cfg3.N) (i : S10000x256.Idx) :
    i ∈ ((cfg3.win 4).blk t).view.set ↔ ∀ a : Fin 2, win3_4.index t a * S400x256.size a ≤ (i a).val ∧ (i a).val < win3_4.index t a * S400x256.size a + S400x256.size a := by
  show i ∈ ((View.whole main_v82).slice (win3_4.rect t)).set ↔ _
  rw [View.set_slice_whole, Rect.mem_set_unit]
  exact Iff.rfl

/-- Every row lies in the block of the point r / 400. -/
theorem cover (i : S10000x256.Idx) : ∃ t : Fin cfg3.N, (cfg3.win 4).flush t = true ∧ i ∈ ((cfg3.win 4).blk t).view.set := by
  have hi0 : (i 0).val < 10000 := (i 0).isLt
  have hi1 : (i 1).val < 256 := (i 1).isLt
  have hlt : (i 0).val / 400 < grid3.N := by rw [N_3]; omega
  refine ⟨⟨(i 0).val / 400, hlt⟩, flush3_4 _, ?_⟩
  rw [mem_blk]
  obtain ⟨-, -, -, -, -, -, -, -, e10, e11⟩ := idx_facts ⟨(i 0).val / 400, hlt⟩
  intro a
  match a with
  | ⟨0, _⟩ =>
    show win3_4.index ⟨(i 0).val / 400, hlt⟩ (0 : Fin 2) * 400 ≤ (i 0).val ∧ (i 0).val < win3_4.index ⟨(i 0).val / 400, hlt⟩ (0 : Fin 2) * 400 + 400
    rw [e10]; show (i 0).val / 400 * 400 ≤ (i 0).val ∧ (i 0).val < (i 0).val / 400 * 400 + 400; omega
  | ⟨1, _⟩ =>
    show win3_4.index ⟨(i 0).val / 400, hlt⟩ (1 : Fin 2) * 256 ≤ (i 1).val ∧ (i 1).val < win3_4.index ⟨(i 0).val / 400, hlt⟩ (1 : Fin 2) * 256 + 256
    rw [e11]; omega

/-- The result array after the region. -/
theorem final (c : Dev nD) :
    (dat3 V c).arrAt 4 cfg3.N = G (V c main_v76) (V c main_v78) (V c main_v81) (V c main_v29) :=
  (dat3 V c).arrAt_eq_of_cover 4 _ (fun t _ => flushed_eq V c t) cover

end Cert.KernelIdeal.Last3

end
-- ==== Proof.Score4.lean ====
/-
  What the candidate scorer, the program's last call, leaves in its result array, as one function of the arrays it finds.

  Grid point t works on rows 4000·t … 4000·t + 3999 of the two gathered endpoint tables U and V. For each such row r it
  forms the hidden vector  h[k] = max(Σ_j U[r, j] · W1u[j, k] + Σ_j V[r, j] · W1v[j, k] + b1[k], 0)  over the 256 lanes,
  multiplies it lane by lane with the second layer's weight row, sums the lanes and adds the second layer's bias:
      out[r, 0] = Σ_k h[k] · w2[k] + b2.
  The value depends on row r of the tables only, whatever block r lies in, and the 25 blocks tile the 100000 rows.
-/
import proofs.«431059_j80393197846860_3_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Score4

open Cert.KernelIdeal Cert.KernelIdeal.Gen
open Idealize.ShloMosaic Idealize.ShloMosaic.TcCoe Idealize.SL.Sem Idealize.ShloMosaic.ValueIdx
open Idealize.ShloMosaic.Pipeline (Dat Cfg Window)

/-! ## The matrix product of a 4000-row block -/

theorem lhs4000_0 (i : S4000x256.Idx) (q : dot_S4000x256_S256x256_S4000x256_1_0_0_1_n_n.contr.Idx) :
    (dot_S4000x256_S256x256_S4000x256_1_0_0_1_n_n.lhsIdx i q 0).val = (i 0).val := by
  unfold DotDims.lhsIdx
  rw [dif_neg (show ¬(0 : Fin S4000x256.rank) ∈ dot_S4000x256_S256x256_S4000x256_1_0_0_1_n_n.lhsBatch by decide), dif_pos (show (0 : Fin S4000x256.rank) ∈ dot_S4000x256_S256x256_S4000x256_1_0_0_1_n_n.lhsNonContracting by decide)]
  rfl
theorem lhs4000_1 (i : S4000x256.Idx) (q : dot_S4000x256_S256x256_S4000x256_1_0_0_1_n_n.contr.Idx) :
    (dot_S4000x256_S256x256_S4000x256_1_0_0_1_n_n.lhsIdx i q 1).val = (q ⟨0, by decide⟩).val :=
  dot_S4000x256_S256x256_S4000x256_1_0_0_1_n_n.lhsIdx_val_of_single rfl i q
theorem rhs4000_0 (i : S4000x256.Idx) (q : dot_S4000x256_S256x256_S4000x256_1_0_0_1_n_n.contr.Idx) :
    (dot_S4000x256_S256x256_S4000x256_1_0_0_1_n_n.rhsIdx i q 0).val = (q ⟨0, by decide⟩).val :=
  dot_S4000x256_S256x256_S4000x256_1_0_0_1_n_n.rhsIdx_val_of_single rfl i q
theorem rhs4000_1 (i : S4000x256.Idx) (q : dot_S4000x256_S256x256_S4000x256_1_0_0_1_n_n.contr.Idx) :
    (dot_S4000x256_S256x256_S4000x256_1_0_0_1_n_n.rhsIdx i q 1).val = (i 1).val := by
  unfold DotDims.rhsIdx
  rw [dif_neg (show ¬(1 : Fin S256x256.rank) ∈ dot_S4000x256_S256x256_S4000x256_1_0_0_1_n_n.rhsBatch by decide), dif_pos (show (1 : Fin S256x256.rank) ∈ dot_S4000x256_S256x256_S4000x256_1_0_0_1_n_n.rhsNonContracting by decide)]
  rfl

/-- Entry (p, q) of a 4000-row block times a square matrix, into a zero accumulator. -/
theorem matmul4000_apply (l : FVec Ideal S4000x256 .bf16) (r : FVec Ideal S256x256 .bf16) (p : Fin 4000) (q : Fin 256) :
    matmul dot_S4000x256_S256x256_S4000x256_1_0_0_1_n_n none l r (constant S4000x256 .f32 0x00000000#32) (ix2 p q)
      = ∑ k : Fin 256, l (ix2 p k) * r (ix2 k q) := by
  show FloatOps.matmul dot_S4000x256_S256x256_S4000x256_1_0_0_1_n_n none l r (constant S4000x256 .f32 0x00000000#32) (ix2 p q) = _
  rw [Ideal.matmul_constant_zero_apply, ← Equiv.sum_comp (contrEquiv1 dot_S4000x256_S256x256_S4000x256_1_0_0_1_n_n 256 rfl rfl).symm]
  refine Finset.sum_congr rfl fun k _ => ?_
  have hk := contrEquiv1_symm_val dot_S4000x256_S256x256_S4000x256_1_0_0_1_n_n 256 rfl rfl k
  have el : dot_S4000x256_S256x256_S4000x256_1_0_0_1_n_n.lhsIdx (ix2 p q) ((contrEquiv1 dot_S4000x256_S256x256_S4000x256_1_0_0_1_n_n 256 rfl rfl).symm k) = ix2 p k := funext fun a => Fin.ext (by
    match a with
    | ⟨0, _⟩ => exact lhs4000_0 _ _
    | ⟨1, _⟩ => exact (lhs4000_1 _ _).trans hk)
  have er : dot_S4000x256_S256x256_S4000x256_1_0_0_1_n_n.rhsIdx (ix2 p q) ((contrEquiv1 dot_S4000x256_S256x256_S4000x256_1_0_0_1_n_n 256 rfl rfl).symm k) = ix2 k q := funext fun a => Fin.ext (by
    match a with
    | ⟨0, _⟩ => exact (rhs4000_0 _ _).trans hk
    | ⟨1, _⟩ => exact rhs4000_1 _ _)
  rw [el, er]

/-! ## Broadcasts over a 4000-row block -/

/-- A row [1, 256] broadcast down the 4000 rows reads its lane's entry. -/
theorem row4000_apply (v : FVec Ideal S1x256 .f32) (p : Fin 4000) (q : Fin 256) :
    broadcastTo S4000x256 v broadcasts_S1x256_S4000x256 (ix2 p q) = v (ix2 (0 : Fin 1) q) :=
  broadcastTo_apply v broadcasts_S1x256_S4000x256 (ix2 p q) (ix2 (0 : Fin 1) q) (fun a => match a with
    | ⟨0, _⟩ => by show 0 = if (1 : Nat) = 1 then 0 else p.val; rw [if_pos rfl]
    | ⟨1, _⟩ => by show q.val = if (256 : Nat) = 1 then 0 else q.val; rw [if_neg (by decide)])

/-- A single entry [1, 1] broadcast over a column of 4000 rows reads that entry. -/
theorem one4000_apply (v : FVec Ideal S1x1 .f32) (p : Fin 4000) :
    broadcastTo S4000x1 v broadcasts_S1x1_S4000x1 (ix2 p (0 : Fin 1)) = v (ix2 (0 : Fin 1) (0 : Fin 1)) :=
  broadcastTo_apply v broadcasts_S1x1_S4000x1 (ix2 p (0 : Fin 1)) (ix2 (0 : Fin 1) (0 : Fin 1)) (fun a => match a with
    | ⟨0, _⟩ => by show 0 = if (1 : Nat) = 1 then 0 else p.val; rw [if_pos rfl]
    | ⟨1, _⟩ => by show 0 = if (1 : Nat) = 1 then 0 else 0; rw [if_pos rfl])

/-- The clip's zero word is the real zero. -/
theorem zero_word : FloatOps.ofBits (F := Ideal) .f32 0x00000000#32 = (0 : EReal) := Ideal.ofBits_zero_f32

/-! ## The lane sum and the column it is cast to -/

/-- Row p's index with lane k put back on the summed axis is (p, k). -/
theorem lift4000 (p : Fin 4000) (k : Fin 256) :
    reduces_S4000x256_S4000.lift (ix1 p) k = ix2 p k := funext fun a => Fin.ext (by
  match a with
  | ⟨0, _⟩ => rfl
  | ⟨1, _⟩ => rfl)

/-- The sum over the lanes of a 4000 x 256 block at row p. -/
theorem lanesum4000_apply (v : FVec Ideal S4000x256 .f32) (p : Fin 4000) :
    multiReduction (F := Ideal) .add [1] S4000 v 0x00000000#32 reduces_S4000x256_S4000 (.inl rfl) rfl (ix1 p)
      = ∑ k : Fin 256, v (ix2 p k) := by
  refine (Ideal.multiReduction_add_single v _ reduces_S4000x256_S4000 _ _ (ix1 p)).trans ?_
  show ∑ k : Fin 256, v (reduces_S4000x256_S4000.lift (ix1 p) k) = _
  refine Finset.sum_congr rfl fun k _ => ?_
  rw [lift4000]

/-- The 4000 sums recast as a column: entry (p, 0) is sum p. -/
theorem col4000_apply (v : FVec Ideal S4000 .f32) (p : Fin 4000) :
    shapeCast S4000x1 v shapeCasts_S4000_S4000x1 (ix2 p (0 : Fin 1)) = v (ix1 p) :=
  shapeCast_apply v shapeCasts_S4000_S4000x1 (ix2 p (0 : Fin 1)) (ix1 p)
    (by rw [Shape.rowMajor_val_two, Shape.rowMajor_val_one]; show p.val = p.val * 1 + 0; omega)

/-! ## The body's stored value -/

/-- The result array: entry (r, 0) from row r of the two endpoint tables. -/
def G (U Vv : FVec Ideal S100000x256 .bf16) (W1u W1v : FVec Ideal S256x256 .bf16) (b1 w2 : FVec Ideal S1x256 .f32) (b2 : FVec Ideal S1x1 .f32) : FVec Ideal S100000x1 .f32 :=
  fun i => (∑ k : Fin 256, max (((∑ j : Fin 256, U (ix2 (i 0) j) * W1u (ix2 j k)) + (∑ j : Fin 256, Vv (ix2 (i 0) j) * W1v (ix2 j k))) + b1 (ix2 (0 : Fin 1) k)) 0 * w2 (ix2 (0 : Fin 1) k)) + b2 (ix2 (0 : Fin 1) (0 : Fin 1))

/-- The result array at row c, spelled out. -/
theorem G_apply (U Vv : FVec Ideal S100000x256 .bf16) (W1u W1v : FVec Ideal S256x256 .bf16) (b1 w2 : FVec Ideal S1x256 .f32) (b2 : FVec Ideal S1x1 .f32) (c : Fin 100000) :
    G U Vv W1u W1v b1 w2 b2 (ix2 c (0 : Fin 1))
      = (∑ k : Fin 256, max (((∑ j : Fin 256, U (ix2 c j) * W1u (ix2 j k)) + (∑ j : Fin 256, Vv (ix2 c j) * W1v (ix2 j k))) + b1 (ix2 (0 : Fin 1) k)) 0 * w2 (ix2 (0 : Fin 1) k)) + b2 (ix2 (0 : Fin 1) (0 : Fin 1)) := rfl

/-- The body's stored value at entry (p, 0) of its block. -/
theorem pay_at (hu hv : Vec Ideal S4000x256 .bf16) (w1u w1v : Vec Ideal S256x256 .bf16) (b1 w2 : Vec Ideal S1x256 .f32)
    (b2 : Vec Ideal S1x1 .f32) (p : Fin 4000) :
    k4_pay1 (F := Ideal) hu hv w1u w1v b1 w2 b2 (ix2 p (0 : Fin 1))
      = (∑ k : Fin 256, max (((∑ j : Fin 256, hu (ix2 p j) * w1u (ix2 j k)) + (∑ j : Fin 256, hv (ix2 p j) * w1v (ix2 j k))) + b1 (ix2 (0 : Fin 1) k)) 0 * w2 (ix2 (0 : Fin 1) k))
        + b2 (ix2 (0 : Fin 1) (0 : Fin 1)) := by
  unfold k4_pay1
  simp only [shapeCast_self]
  show shapeCast S4000x1 (multiReduction (F := Ideal) .add [1] S4000
        (mulf (F := Ideal) (maximumf (F := Ideal) (addf (F := Ideal) (addf (F := Ideal)
            (matmul (F := Ideal) dot_S4000x256_S256x256_S4000x256_1_0_0_1_n_n none hu w1u (constant (F := Ideal) S4000x256 .f32 0x00000000#32))
            (matmul (F := Ideal) dot_S4000x256_S256x256_S4000x256_1_0_0_1_n_n none hv w1v (constant (F := Ideal) S4000x256 .f32 0x00000000#32)))
            (broadcastTo S4000x256 b1 broadcasts_S1x256_S4000x256))
          (broadcast S4000x256 (FloatOps.ofBits (F := Ideal) .f32 0x00000000#32)))
          (broadcastTo S4000x256 w2 broadcasts_S1x256_S4000x256))
        0x00000000#32 reduces_S4000x256_S4000 (.inl rfl) rfl) shapeCasts_S4000_S4000x1 (ix2 p (0 : Fin 1))
      + broadcastTo S4000x1 b2 broadcasts_S1x1_S4000x1 (ix2 p (0 : Fin 1)) = _
  rw [col4000_apply, lanesum4000_apply, one4000_apply]
  refine congrArg (fun s => s + b2 (ix2 (0 : Fin 1) (0 : Fin 1))) (Finset.sum_congr rfl fun k _ => ?_)
  show max ((matmul (F := Ideal) dot_S4000x256_S256x256_S4000x256_1_0_0_1_n_n none hu w1u (constant (F := Ideal) S4000x256 .f32 0x00000000#32) (ix2 p k)
        + matmul (F := Ideal) dot_S4000x256_S256x256_S4000x256_1_0_0_1_n_n none hv w1v (constant (F := Ideal) S4000x256 .f32 0x00000000#32) (ix2 p k))
        + broadcastTo S4000x256 b1 broadcasts_S1x256_S4000x256 (ix2 p k)) (FloatOps.ofBits (F := Ideal) .f32 0x00000000#32)
      * broadcastTo S4000x256 w2 broadcasts_S1x256_S4000x256 (ix2 p k) = _
  rw [matmul4000_apply, matmul4000_apply, row4000_apply, row4000_apply, zero_word]

/-- The same value, when the block's rows are rows of whole tables: the result array's entry. -/
theorem point_eq (hu hv : Vec Ideal S4000x256 .bf16) (w1u w1v : Vec Ideal S256x256 .bf16) (b1b w2b : Vec Ideal S1x256 .f32)
    (b2b : Vec Ideal S1x1 .f32)
    (U Vv : FVec Ideal S100000x256 .bf16) (W1u W1v : FVec Ideal S256x256 .bf16) (b1 w2 : FVec Ideal S1x256 .f32) (b2 : FVec Ideal S1x1 .f32)
    (j : S4000x1.Idx) (i : S100000x1.Idx)
    (hU : ∀ k : Fin 256, hu (ix2 (j 0) k) = U (ix2 (i 0) k))
    (hV : ∀ k : Fin 256, hv (ix2 (j 0) k) = Vv (ix2 (i 0) k))
    (hW1u : ∀ y, w1u y = W1u y) (hW1v : ∀ y, w1v y = W1v y) (hb1 : ∀ y, b1b y = b1 y) (hw2 : ∀ y, w2b y = w2 y)
    (hb2 : ∀ y, b2b y = b2 y) :
    k4_pay1 (F := Ideal) hu hv w1u w1v b1b w2b b2b j = G U Vv W1u W1v b1 w2 b2 i := by
  obtain ⟨p, q, rfl⟩ : ∃ (p : Fin 4000) (q : Fin 1), j = ix2 p q := ⟨j 0, j 1, eq_ix2 j⟩
  obtain ⟨r, s, rfl⟩ : ∃ (r : Fin 100000) (s : Fin 1), i = ix2 r s := ⟨i 0, i 1, eq_ix2 i⟩
  obtain rfl : q = 0 := Fin.fin_one_eq_zero q
  have hU' : ∀ k : Fin 256, hu (ix2 p k) = U (ix2 r k) := hU
  have hV' : ∀ k : Fin 256, hv (ix2 p k) = Vv (ix2 r k) := hV
  rw [pay_at]
  show _ = (∑ k : Fin 256, max (((∑ j : Fin 256, U (ix2 r j) * W1u (ix2 j k)) + (∑ j : Fin 256, Vv (ix2 r j) * W1v (ix2 j k))) + b1 (ix2 (0 : Fin 1) k)) 0 * w2 (ix2 (0 : Fin 1) k))
    + b2 (ix2 (0 : Fin 1) (0 : Fin 1))
  rw [hb2]
  simp only [hU', hV', hW1u, hW1v, hb1, hw2]

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 25 points: the two endpoint tables and the result sit at block (t, 0), the weights
    and the biases at (0, 0). -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = t.val ∧ win4_7.index t (1 : Fin 2) = 0 :=
  (by decide +kernel : ∀ t : Fin grid4.N, _)

/-- Window 0's block at point t is rows 4000·t … of the first endpoint table. -/
theorem blk0 (c : Dev nD) (t : Fin cfg4.N) (x : S4000x256.Idx) (k : S100000x256.Idx)
    (hk0 : (k 0).val = t.val * 4000 + (x 0).val) (hk1 : (k 1).val = (x 1).val) :
    (iblk4 V c 0 t : Vec Ideal S4000x256 .bf16) x = (V c main_v93 : S100000x256.Idx → EReal) k := by
  obtain ⟨e0, e1, -⟩ := idx_facts t
  unfold iblk4
  rw [View.read_apply]
  show V c main_v93 _ = V c main_v93 _
  congr 1
  funext a
  apply Fin.ext
  match a with
  | ⟨0, _⟩ => show win4_0.index t (0 : Fin 2) * 4000 + 1 * (x 0).val = (k 0).val; rw [e0, hk0]; omega
  | ⟨1, _⟩ => show win4_0.index t (1 : Fin 2) * 256 + 1 * (x 1).val = (k 1).val; rw [e1, hk1]; omega

/-- Window 1's block at point t is rows 4000·t … of the second endpoint table. -/
theorem blk1 (c : Dev nD) (t : Fin cfg4.N) (x : S4000x256.Idx) (k : S100000x256.Idx)
    (hk0 : (k 0).val = t.val * 4000 + (x 0).val) (hk1 : (k 1).val = (x 1).val) :
    (iblk4 V c 1 t : Vec Ideal S4000x256 .bf16) x = (V c main_v100 : S100000x256.Idx → EReal) k := by
  obtain ⟨-, -, e0, e1, -⟩ := idx_facts t
  unfold iblk4
  rw [View.read_apply]
  show V c main_v100 _ = V c main_v100 _
  congr 1
  funext a
  apply Fin.ext
  match a with
  | ⟨0, _⟩ => show win4_1.index t (0 : Fin 2) * 4000 + 1 * (x 0).val = (k 0).val; rw [e0, hk0]; omega
  | ⟨1, _⟩ => show win4_1.index t (1 : Fin 2) * 256 + 1 * (x 1).val = (k 1).val; rw [e1, hk1]; omega

/-- Window 2's block is the whole first-layer matrix of the first endpoint. -/
theorem blk2 (c : Dev nD) (t : Fin cfg4.N) (x : S256x256.Idx) :
    (iblk4 V c 2 t : Vec Ideal S256x256 .bf16) x = (V c main_v102 : S256x256.Idx → EReal) x := by
  obtain ⟨-, -, -, -, e0, e1, -⟩ := idx_facts t
  unfold iblk4
  rw [View.read_apply]
  show V c main_v102 _ = V c main_v102 _
  congr 1
  funext a
  apply Fin.ext
  match a with
  | ⟨0, _⟩ => show win4_2.index t (0 : Fin 2) * 256 + 1 * (x 0).val = (x 0).val; rw [e0]; omega
  | ⟨1, _⟩ => show win4_2.index t (1 : Fin 2) * 256 + 1 * (x 1).val = (x 1).val; rw [e1]; omega

/-- Window 3's block is the whole first-layer matrix of the second endpoint. -/
theorem blk3 (c : Dev nD) (t : Fin cfg4.N) (x : S256x256.Idx) :
    (iblk4 V c 3 t : Vec Ideal S256x256 .bf16) x = (V c main_v104 : S256x256.Idx → EReal) x := by
  obtain ⟨-, -, -, -, -, -, e0, e1, -⟩ := idx_facts t
  unfold iblk4
  rw [View.read_apply]
  show V c main_v104 _ = V c main_v104 _
  congr 1
  funext a
  apply Fin.ext
  match a with
  | ⟨0, _⟩ => show win4_3.index t (0 : Fin 2) * 256 + 1 * (x 0).val = (x 0).val; rw [e0]; omega
  | ⟨1, _⟩ => show win4_3.index t (1 : Fin 2) * 256 + 1 * (x 1).val = (x 1).val; rw [e1]; omega

/-- Window 4's block is the whole first-layer bias row. -/
theorem blk4 (c : Dev nD) (t : Fin cfg4.N) (x : S1x256.Idx) :
    (iblk4 V c 4 t : Vec Ideal S1x256 .f32) x = (V c main_v106 : S1x256.Idx → EReal) x := by
  obtain ⟨-, -, -, -, -, -, -, -, e0, e1, -⟩ := idx_facts t
  unfold iblk4
  rw [View.read_apply]
  show V c main_v106 _ = V c main_v106 _
  congr 1
  funext a
  apply Fin.ext
  match a with
  | ⟨0, _⟩ => show win4_4.index t (0 : Fin 2) * 1 + 1 * (x 0).val = (x 0).val; rw [e0]; omega
  | ⟨1, _⟩ => show win4_4.index t (1 : Fin 2) * 256 + 1 * (x 1).val = (x 1).val; rw [e1]; omega

/-- Window 5's block is the whole second-layer weight row. -/
theorem blk5 (c : Dev nD) (t : Fin cfg4.N) (x : S1x256.Idx) :
    (iblk4 V c 5 t : Vec Ideal S1x256 .f32) x = (V c main_v105 : S1x256.Idx → EReal) x := by
  obtain ⟨-, -, -, -, -, -, -, -, -, -, e0, e1, -⟩ := idx_facts t
  unfold iblk4
  rw [View.read_apply]
  show V c main_v105 _ = V c main_v105 _
  congr 1
  funext a
  apply Fin.ext
  match a with
  | ⟨0, _⟩ => show win4_5.index t (0 : Fin 2) * 1 + 1 * (x 0).val = (x 0).val; rw [e0]; omega
  | ⟨1, _⟩ => show win4_5.index t (1 : Fin 2) * 256 + 1 * (x 1).val = (x 1).val; rw [e1]; omega

/-- Window 6's block is the second-layer bias. -/
theorem blk6 (c : Dev nD) (t : Fin cfg4.N) (x : S1x1.Idx) :
    (iblk4 V c 6 t : Vec Ideal S1x1 .f32) x = (V c main_v107 : S1x1.Idx → EReal) x := by
  obtain ⟨-, -, -, -, -, -, -, -, -, -, -, -, e0, e1, -⟩ := idx_facts t
  unfold iblk4
  rw [View.read_apply]
  show V c main_v107 _ = V c main_v107 _
  congr 1
  funext a
  apply Fin.ext
  match a with
  | ⟨0, _⟩ => show win4_6.index t (0 : Fin 2) * 1 + 1 * (x 0).val = (x 0).val; rw [e0]; omega
  | ⟨1, _⟩ => show win4_6.index t (1 : Fin 2) * 1 + 1 * (x 1).val = (x 1).val; rw [e1]; omega

/-- What point t writes back is block t of the result array. -/
theorem flushed_eq (c : Dev nD) (t : Fin cfg4.N) :
    (dat4 V c).flushed 7 t = ((cfg4.win 7).blk t).view.read (Elt Ideal)
      (G (V c main_v93) (V c main_v100) (V c main_v102) (V c main_v104) (V c main_v106) (V c main_v105) (V c main_v107)) := by
  show (cfg4.win 7).cut (grid4.coords t) ((dat4 V c).after 7 t) = _
  rw [after4_7]
  unfold out4_7
  rw [View.canon_unit_zero hz]
  simp only [View.ld_unit_zero (S := S4000x256) hz, View.ld_unit_zero (S := S256x256) hz, View.ld_unit_zero (S := S1x256) hz,
    View.ld_unit_zero (S := S1x1) hz]
  funext j
  rw [View.read_apply]
  obtain ⟨-, -, -, -, -, -, -, -, -, -, -, -, -, -, e0, e1⟩ := idx_facts t
  have r0 : ((((cfg4.win 7).blk t).view.emb j : S100000x1.Idx) 0).val = t.val * 4000 + ((j : S4000x1.Idx) 0).val := by
    show win4_7.index t (0 : Fin 2) * 4000 + 1 * ((j : S4000x1.Idx) 0).val = _; rw [e0]; omega
  refine point_eq (iblk4 V c 0 t) (iblk4 V c 1 t) (iblk4 V c 2 t) (iblk4 V c 3 t) (iblk4 V c 4 t) (iblk4 V c 5 t) (iblk4 V c 6 t)
    (V c main_v93) (V c main_v100) (V c main_v102) (V c main_v104) (V c main_v106) (V c main_v105) (V c main_v107) j (((cfg4.win 7).blk t).view.emb j) ?_ ?_ ?_ ?_ ?_ ?_ ?_
  · intro k; exact blk0 V c t _ _ r0 rfl
  · intro k; exact blk1 V c t _ _ r0 rfl
  · intro y; exact blk2 V c t y
  · intro y; exact blk3 V c t y
  · intro y; exact blk4 V c t y
  · intro y; exact blk5 V c t y
  · intro y; exact blk6 V c t y

/-- An index of the result array lies in point t's block iff its row lies in rows 4000·t … 4000·t + 3999. -/
theorem mem_blk (t : Fin cfg4.N) (i : S100000x1.Idx) :
    i ∈ ((cfg4.win 7).blk t).view.set ↔ ∀ a : Fin 2, win4_7.index t a * S4000x1.size a ≤ (i a).val ∧ (i a).val < win4_7.index t a * S4000x1.size a + S4000x1.size a := by
  show i ∈ ((View.whole main_v108).slice (win4_7.rect t)).set ↔ _
  rw [View.set_slice_whole, Rect.mem_set_unit]
  exact Iff.rfl

/-- Every row lies in the block of the point r / 4000. -/
theorem cover (i : S100000x1.Idx) : ∃ t : Fin cfg4.N, (cfg4.win 7).flush t = true ∧ i ∈ ((cfg4.win 7).blk t).view.set := by
  have hi0 : (i 0).val < 100000 := (i 0).isLt
  have hi1 : (i 1).val < 1 := (i 1).isLt
  have hlt : (i 0).val / 4000 < grid4.N := by rw [N_4]; omega
  refine ⟨⟨(i 0).val / 4000, hlt⟩, flush4_7 _, ?_⟩
  rw [mem_blk]
  obtain ⟨-, -, -, -, -, -, -, -, -, -, -, -, -, -, e0, e1⟩ := idx_facts ⟨(i 0).val / 4000, hlt⟩
  intro a
  match a with
  | ⟨0, _⟩ =>
    show win4_7.index ⟨(i 0).val / 4000, hlt⟩ (0 : Fin 2) * 4000 ≤ (i 0).val ∧ (i 0).val < win4_7.index ⟨(i 0).val / 4000, hlt⟩ (0 : Fin 2) * 4000 + 4000
    rw [e0]; show (i 0).val / 4000 * 4000 ≤ (i 0).val ∧ (i 0).val < (i 0).val / 4000 * 4000 + 4000; omega
  | ⟨1, _⟩ =>
    show win4_7.index ⟨(i 0).val / 4000, hlt⟩ (1 : Fin 2) * 1 ≤ (i 1).val ∧ (i 1).val < win4_7.index ⟨(i 0).val / 4000, hlt⟩ (1 : Fin 2) * 1 + 1
    rw [e1]; omega

/-- The result array after the region. -/
theorem final (c : Dev nD) :
    (dat4 V c).arrAt 7 cfg4.N = G (V c main_v93) (V c main_v100) (V c main_v102) (V c main_v104) (V c main_v106) (V c main_v105) (V c main_v107) :=
  (dat4 V c).arrAt_eq_of_cover 7 _ (fun t _ => flushed_eq V c t) cover

end Cert.KernelIdeal.Score4

end
-- ==== Proof.Spec.lean ====
/-
  The message-passing network both programs compute, as functions on extended reals, index by index.

  A node table is an array [10000, 256]; a candidate table an array [100000, 256].
    * the node encoder:     enc(E)[r, q]   = (Σ_k E[r, k] · W[k, q] + b[q]) · ns[r]
    * a graph convolution:  conv_l(X)[r, q] = max(Σ_k (X[r, k] · nd[r]) · W_l[k, q] + b_l[q], 0) · ns[r]
    * the last convolution: last_l(X)[r, q] = max(Σ_k (X[r, k] · nd[r]) · W_l[k, q] + b_l[q], 0)
    * the pair scorer:      score(U, V)[c]  = Σ_k max(Σ_j U[c, j] · W1[j, k] + Σ_j V[c, j] · W1[256 + j, k] + b1[k], 0) · W2[k, 0] + b2[0]
  The network is  score(gu h3, gv h3)  with  h0 = enc(E), h1 = conv_0(mp h0), h2 = conv_1(mp h1), h3 = last_2(mp h2),
  where `mp` (gather the rows of a node table by the edges' sources, add them up by the edges' destinations) and
  `gu`, `gv` (gather rows by a candidate pair's two ends) are carried as functions: nothing here opens them.
-/
import Idealize.ShloMosaic.PureOps.Ideal
import Idealize.ShloMosaic.Lib.ValueIdx

noncomputable section

namespace Cert.Wln

open Idealize.ShloMosaic Idealize.ShloMosaic.ValueIdx

/-- A node table: one row of 256 features per node. -/
abbrev NodeTab : Type := (⟨2, ![10000, 256]⟩ : Shape).Idx → EReal
/-- A candidate table: one row of 256 features per candidate pair. -/
abbrev CandTab : Type := (⟨2, ![100000, 256]⟩ : Shape).Idx → EReal
/-- One weight per node. -/
abbrev NodeVec : Type := (⟨1, ![10000]⟩ : Shape).Idx → EReal
abbrev Mat256 : Type := (⟨2, ![256, 256]⟩ : Shape).Idx → EReal
abbrev Vec256 : Type := (⟨1, ![256]⟩ : Shape).Idx → EReal
abbrev ConvW : Type := (⟨3, ![3, 256, 256]⟩ : Shape).Idx → EReal
abbrev ConvB : Type := (⟨2, ![3, 256]⟩ : Shape).Idx → EReal
abbrev ScoreW1 : Type := (⟨2, ![512, 256]⟩ : Shape).Idx → EReal
abbrev ScoreW2 : Type := (⟨2, ![256, 1]⟩ : Shape).Idx → EReal
abbrev Vec1 : Type := (⟨1, ![1]⟩ : Shape).Idx → EReal
abbrev Scores : Type := (⟨1, ![100000]⟩ : Shape).Idx → EReal

/-- Row `j` of the upper half of the scorer's first weight matrix. -/
abbrev lo (j : Fin 256) : Fin 512 := ⟨j.val, by have := j.isLt; omega⟩
/-- Row `256 + j`: the lower half. -/
abbrev hi (j : Fin 256) : Fin 512 := ⟨256 + j.val, by have := j.isLt; omega⟩

/-- The encoder's entry (r, q): a row of the embedding through the dense layer, scaled by the row's weight. -/
def encAt (E : NodeTab) (W : Mat256) (b : Vec256) (ns : NodeVec) (r : Fin 10000) (q : Fin 256) : EReal :=
  ((∑ k : Fin 256, E (ix2 r k) * W (ix2 k q)) + b (ix1 q)) * ns (ix1 r)

def encArr (E : NodeTab) (W : Mat256) (b : Vec256) (ns : NodeVec) : NodeTab :=
  fun i => encAt E W b ns (i 0) (i 1)

/-- A convolution's entry (r, q) before the outgoing scale: the aggregated row scaled by the row's incoming weight,
    through layer `l`'s dense layer, clipped at zero. -/
def lastAt (l : Fin 3) (X : NodeTab) (W : ConvW) (B : ConvB) (nd : NodeVec) (r : Fin 10000) (q : Fin 256) : EReal :=
  max ((∑ k : Fin 256, (X (ix2 r k) * nd (ix1 r)) * W (ix3 l k q)) + B (ix2 l q)) 0

def lastArr (l : Fin 3) (X : NodeTab) (W : ConvW) (B : ConvB) (nd : NodeVec) : NodeTab :=
  fun i => lastAt l X W B nd (i 0) (i 1)

/-- The same entry with the outgoing scale. -/
def convAt (l : Fin 3) (X : NodeTab) (W : ConvW) (B : ConvB) (nd ns : NodeVec) (r : Fin 10000) (q : Fin 256) : EReal :=
  lastAt l X W B nd r q * ns (ix1 r)

def convArr (l : Fin 3) (X : NodeTab) (W : ConvW) (B : ConvB) (nd ns : NodeVec) : NodeTab :=
  fun i => convAt l X W B nd ns (i 0) (i 1)

/-- The hidden unit `k` of candidate `c`: the two ends' rows through the two halves of the first layer. -/
def hidAt (U V : CandTab) (W1 : ScoreW1) (b1 : Vec256) (c : Fin 100000) (k : Fin 256) : EReal :=
  max (((∑ j : Fin 256, U (ix2 c j) * W1 (ix2 (lo j) k)) + (∑ j : Fin 256, V (ix2 c j) * W1 (ix2 (hi j) k))) + b1 (ix1 k)) 0

/-- The score of candidate `c`. -/
def scoreAt (U V : CandTab) (W1 : ScoreW1) (b1 : Vec256) (W2 : ScoreW2) (b2 : Vec1) (c : Fin 100000) : EReal :=
  (∑ k : Fin 256, hidAt U V W1 b1 c k * W2 (ix2 k (0 : Fin 1))) + b2 (ix1 (0 : Fin 1))

def scoreArr (U V : CandTab) (W1 : ScoreW1) (b1 : Vec256) (W2 : ScoreW2) (b2 : Vec1) : Scores :=
  fun i => scoreAt U V W1 b1 W2 b2 (i 0)

/-- The whole network over its glue. -/
def model (E : NodeTab) (W : Mat256) (b : Vec256) (ns nd : NodeVec) (CW : ConvW) (CB : ConvB)
    (W1 : ScoreW1) (b1 : Vec256) (W2 : ScoreW2) (b2 : Vec1)
    (mp : NodeTab → NodeTab) (gu gv : NodeTab → CandTab) : Scores :=
  let h0 := encArr E W b ns
  let h1 := convArr 0 (mp h0) CW CB nd ns
  let h2 := convArr 1 (mp h1) CW CB nd ns
  let h3 := lastArr 2 (mp h2) CW CB nd
  scoreArr (gu h3) (gv h3) W1 b1 W2 b2

end Cert.Wln

end
-- ==== Proof.Layout.lean ====
/-
  Each call's result function, applied to the operands the host hands it, is the specification's function.

  The host reshapes a vector of 10000 node weights into a column and a vector of 256 biases into a row, cuts layer l's
  256 x 256 matrix and bias row out of the stacked weights [3, 256, 256] and biases [3, 256], cuts the scorer's first
  weight matrix [512, 256] into its upper and lower halves (rows j and 256 + j), lays the second weight column [256, 1]
  as a row, and flattens the column of scores. Read at one index each of these is the operand at the matching index:
  a reshape keeps the row-major position, a slice shifts by its offsets, and a change of format is the identity on
  extended reals. With them every result function's entry is, term by term, the specification's entry.
-/
import proofs.«431059_j80393197846860_3_alg».proof.Proof.Enc0
import proofs.«431059_j80393197846860_3_alg».proof.Proof.Conv1
import proofs.«431059_j80393197846860_3_alg».proof.Proof.Conv2
import proofs.«431059_j80393197846860_3_alg».proof.Proof.Last3
import proofs.«431059_j80393197846860_3_alg».proof.Proof.Score4
import proofs.«431059_j80393197846860_3_alg».proof.Proof.Spec
import Idealize.ShloMosaic.Lib.Pipeline.Value
import Idealize.ShloMosaic.Lib.ValueIdx

set_option maxRecDepth 16384

noncomputable section

namespace Cert.KernelIdeal.Layout

open Cert.KernelIdeal Cert.KernelIdeal.Gen Cert.Wln Idealize.ShloMosaic Idealize.ShloMosaic.ValueIdx

/-! ## Reshapes between a vector and a column or a row -/

/-- A vector of 10000 entries recast as a column: entry (r, 0) is entry r. -/
theorem col_of_vec {α : Type} (v : S10000.Idx → α) (r : Fin 10000) :
    shapeCast S10000x1 v shapeCasts_S10000_S10000x1 (ix2 r (0 : Fin 1)) = v (ix1 r) :=
  shapeCast_apply v shapeCasts_S10000_S10000x1 (ix2 r (0 : Fin 1)) (ix1 r)
    (by rw [Shape.rowMajor_val_two, Shape.rowMajor_val_one]; show r.val = r.val * 1 + 0; omega)

/-- A vector of 256 entries recast as a row: entry (0, q) is entry q. -/
theorem row_of_vec {α : Type} (v : S256.Idx → α) (q : Fin 256) :
    shapeCast S1x256 v shapeCasts_S256_S1x256 (ix2 (0 : Fin 1) q) = v (ix1 q) :=
  shapeCast_apply v shapeCasts_S256_S1x256 (ix2 (0 : Fin 1) q) (ix1 q)
    (by rw [Shape.rowMajor_val_two, Shape.rowMajor_val_one]; show q.val = 0 * 256 + q.val; omega)

/-! ## One layer's weights and bias out of the stacked ones -/

/-- Layer 0's matrix: the slab 0 of the stacked weights, its unit axis dropped. -/
theorem wslice0 {α : Type} (a10 : S3x256x256.Idx → α) (k q : Fin 256) :
    shapeCast S256x256 (extractStridedSlice S1x256x256 ![0, 0, 0] a10 slices_S3x256x256_S1x256x256_0_0_0) shapeCasts_S1x256x256_S256x256 (ix2 k q)
      = a10 (ix3 (0 : Fin 3) k q) := by
  refine (shapeCast_apply _ shapeCasts_S1x256x256_S256x256 (ix2 k q) (ix3 (0 : Fin 1) k q) (by
    rw [Shape.rowMajor_val_three, Shape.rowMajor_val_two]; show ((0 : Nat) * 256 + k.val) * 256 + q.val = k.val * 256 + q.val; omega)).trans ?_
  exact extractStridedSlice_apply ![0, 0, 0] a10 slices_S3x256x256_S1x256x256_0_0_0 (ix3 (0 : Fin 1) k q) (ix3 (0 : Fin 3) k q) (fun a => match a with
    | ⟨0, _⟩ => by show (0 : Nat) = 0 + 0; rfl
    | ⟨1, _⟩ => by show k.val = 0 + k.val; omega
    | ⟨2, _⟩ => by show q.val = 0 + q.val; omega)

/-- Layer 1's matrix: the slab 1 of the stacked weights, its unit axis dropped. -/
theorem wslice1 {α : Type} (a10 : S3x256x256.Idx → α) (k q : Fin 256) :
    shapeCast S256x256 (extractStridedSlice S1x256x256 ![1, 0, 0] a10 slices_S3x256x256_S1x256x256_1_0_0) shapeCasts_S1x256x256_S256x256 (ix2 k q)
      = a10 (ix3 (1 : Fin 3) k q) := by
  refine (shapeCast_apply _ shapeCasts_S1x256x256_S256x256 (ix2 k q) (ix3 (0 : Fin 1) k q) (by
    rw [Shape.rowMajor_val_three, Shape.rowMajor_val_two]; show ((0 : Nat) * 256 + k.val) * 256 + q.val = k.val * 256 + q.val; omega)).trans ?_
  exact extractStridedSlice_apply ![1, 0, 0] a10 slices_S3x256x256_S1x256x256_1_0_0 (ix3 (0 : Fin 1) k q) (ix3 (1 : Fin 3) k q) (fun a => match a with
    | ⟨0, _⟩ => by show (1 : Nat) = 1 + 0; rfl
    | ⟨1, _⟩ => by show k.val = 0 + k.val; omega
    | ⟨2, _⟩ => by show q.val = 0 + q.val; omega)

/-- Layer 2's matrix: the slab 2 of the stacked weights, its unit axis dropped. -/
theorem wslice2 {α : Type} (a10 : S3x256x256.Idx → α) (k q : Fin 256) :
    shapeCast S256x256 (extractStridedSlice S1x256x256 ![2, 0, 0] a10 slices_S3x256x256_S1x256x256_2_0_0) shapeCasts_S1x256x256_S256x256 (ix2 k q)
      = a10 (ix3 (2 : Fin 3) k q) := by
  refine (shapeCast_apply _ shapeCasts_S1x256x256_S256x256 (ix2 k q) (ix3 (0 : Fin 1) k q) (by
    rw [Shape.rowMajor_val_three, Shape.rowMajor_val_two]; show ((0 : Nat) * 256 + k.val) * 256 + q.val = k.val * 256 + q.val; omega)).trans ?_
  exact extractStridedSlice_apply ![2, 0, 0] a10 slices_S3x256x256_S1x256x256_2_0_0 (ix3 (0 : Fin 1) k q) (ix3 (2 : Fin 3) k q) (fun a => match a with
    | ⟨0, _⟩ => by show (2 : Nat) = 2 + 0; rfl
    | ⟨1, _⟩ => by show k.val = 0 + k.val; omega
    | ⟨2, _⟩ => by show q.val = 0 + q.val; omega)

/-- Layer 0's bias row: row 0 of the stacked biases, flattened and made a row again. -/
theorem bslice0 {α : Type} (a11 : S3x256.Idx → α) (q : Fin 256) :
    shapeCast S1x256 (shapeCast S256 (extractStridedSlice S1x256 ![0, 0] a11 slices_S3x256_S1x256_0_0) shapeCasts_S1x256_S256) shapeCasts_S256_S1x256 (ix2 (0 : Fin 1) q)
      = a11 (ix2 (0 : Fin 3) q) := by
  rw [row_of_vec]
  refine (shapeCast_apply _ shapeCasts_S1x256_S256 (ix1 q) (ix2 (0 : Fin 1) q) (by
    rw [Shape.rowMajor_val_two, Shape.rowMajor_val_one]; show (0 : Nat) * 256 + q.val = q.val; omega)).trans ?_
  exact extractStridedSlice_apply ![0, 0] a11 slices_S3x256_S1x256_0_0 (ix2 (0 : Fin 1) q) (ix2 (0 : Fin 3) q) (fun a => match a with
    | ⟨0, _⟩ => by show (0 : Nat) = 0 + 0; rfl
    | ⟨1, _⟩ => by show q.val = 0 + q.val; omega)

/-- Layer 1's bias row: row 1 of the stacked biases, flattened and made a row again. -/
theorem bslice1 {α : Type} (a11 : S3x256.Idx → α) (q : Fin 256) :
    shapeCast S1x256 (shapeCast S256 (extractStridedSlice S1x256 ![1, 0] a11 slices_S3x256_S1x256_1_0) shapeCasts_S1x256_S256) shapeCasts_S256_S1x256 (ix2 (0 : Fin 1) q)
      = a11 (ix2 (1 : Fin 3) q) := by
  rw [row_of_vec]
  refine (shapeCast_apply _ shapeCasts_S1x256_S256 (ix1 q) (ix2 (0 : Fin 1) q) (by
    rw [Shape.rowMajor_val_two, Shape.rowMajor_val_one]; show (0 : Nat) * 256 + q.val = q.val; omega)).trans ?_
  exact extractStridedSlice_apply ![1, 0] a11 slices_S3x256_S1x256_1_0 (ix2 (0 : Fin 1) q) (ix2 (1 : Fin 3) q) (fun a => match a with
    | ⟨0, _⟩ => by show (1 : Nat) = 1 + 0; rfl
    | ⟨1, _⟩ => by show q.val = 0 + q.val; omega)

/-- Layer 2's bias row: row 2 of the stacked biases, flattened and made a row again. -/
theorem bslice2 {α : Type} (a11 : S3x256.Idx → α) (q : Fin 256) :
    shapeCast S1x256 (shapeCast S256 (extractStridedSlice S1x256 ![2, 0] a11 slices_S3x256_S1x256_2_0) shapeCasts_S1x256_S256) shapeCasts_S256_S1x256 (ix2 (0 : Fin 1) q)
      = a11 (ix2 (2 : Fin 3) q) := by
  rw [row_of_vec]
  refine (shapeCast_apply _ shapeCasts_S1x256_S256 (ix1 q) (ix2 (0 : Fin 1) q) (by
    rw [Shape.rowMajor_val_two, Shape.rowMajor_val_one]; show (0 : Nat) * 256 + q.val = q.val; omega)).trans ?_
  exact extractStridedSlice_apply ![2, 0] a11 slices_S3x256_S1x256_2_0 (ix2 (0 : Fin 1) q) (ix2 (2 : Fin 3) q) (fun a => match a with
    | ⟨0, _⟩ => by show (2 : Nat) = 2 + 0; rfl
    | ⟨1, _⟩ => by show q.val = 0 + q.val; omega)

/-! ## The scorer's operands -/

/-- The upper half of the first weight matrix: rows 0 … 255. -/
theorem w1u_apply (a12 : (⟨S512x256, .f32⟩ : BufTy).Contents (Elt Ideal)) (j k : Fin 256) :
    (truncf (F := Ideal) .bf16 (extractStridedSlice S256x256 ![0, 0] a12 slices_S512x256_S256x256_0_0) bitsLt_bf16_f32 : FVec Ideal S256x256 .bf16) (ix2 j k)
      = a12 (ix2 (lo j) k) := by
  show extractStridedSlice S256x256 ![0, 0] a12 slices_S512x256_S256x256_0_0 (ix2 j k) = _
  exact extractStridedSlice_apply ![0, 0] a12 slices_S512x256_S256x256_0_0 (ix2 j k) (ix2 (lo j) k) (fun a => match a with
    | ⟨0, _⟩ => by show j.val = 0 + j.val; omega
    | ⟨1, _⟩ => by show k.val = 0 + k.val; omega)

/-- The lower half: rows 256 … 511. -/
theorem w1v_apply (a12 : (⟨S512x256, .f32⟩ : BufTy).Contents (Elt Ideal)) (j k : Fin 256) :
    (truncf (F := Ideal) .bf16 (extractStridedSlice S256x256 ![256, 0] a12 slices_S512x256_S256x256_256_0) bitsLt_bf16_f32 : FVec Ideal S256x256 .bf16) (ix2 j k)
      = a12 (ix2 (hi j) k) := by
  show extractStridedSlice S256x256 ![256, 0] a12 slices_S512x256_S256x256_256_0 (ix2 j k) = _
  exact extractStridedSlice_apply ![256, 0] a12 slices_S512x256_S256x256_256_0 (ix2 j k) (ix2 (hi j) k) (fun a => match a with
    | ⟨0, _⟩ => by show 256 + j.val = 256 + j.val; rfl
    | ⟨1, _⟩ => by show k.val = 0 + k.val; omega)

/-- The second layer's weight column laid as a row: entry (0, k) is entry (k, 0). -/
theorem w2row_apply {α : Type} (a14 : S256x1.Idx → α) (k : Fin 256) :
    shapeCast S1x256 a14 shapeCasts_S256x1_S1x256 (ix2 (0 : Fin 1) k) = a14 (ix2 k (0 : Fin 1)) :=
  shapeCast_apply a14 shapeCasts_S256x1_S1x256 (ix2 (0 : Fin 1) k) (ix2 k (0 : Fin 1))
    (by rw [Shape.rowMajor_val_two, Shape.rowMajor_val_two]; show k.val * 1 + 0 = 0 * 256 + k.val; omega)

/-- The second layer's bias as a 1 x 1 array. -/
theorem b2_apply {α : Type} (a15 : S1.Idx → α) :
    shapeCast S1x1 a15 shapeCasts_S1_S1x1 (ix2 (0 : Fin 1) (0 : Fin 1)) = a15 (ix1 (0 : Fin 1)) :=
  shapeCast_apply a15 shapeCasts_S1_S1x1 (ix2 (0 : Fin 1) (0 : Fin 1)) (ix1 (0 : Fin 1))
    (by rw [Shape.rowMajor_val_two, Shape.rowMajor_val_one]; rfl)

/-- The column of scores flattened: entry c is entry (c, 0). -/
theorem vec_of_col {α : Type} (y : S100000x1.Idx → α) (c : Fin 100000) :
    shapeCast S100000 y shapeCasts_S100000x1_S100000 (ix1 c) = y (ix2 c (0 : Fin 1)) :=
  shapeCast_apply y shapeCasts_S100000x1_S100000 (ix1 c) (ix2 c (0 : Fin 1))
    (by rw [Shape.rowMajor_val_two, Shape.rowMajor_val_one]; show c.val * 1 + 0 = c.val; omega)

/-! ## Each call's result function on the host's operands is the specification's -/

theorem enc_layout (E : FVec Ideal S10000x256 .f32) (a5 : (⟨S256x256, .f32⟩ : BufTy).Contents (Elt Ideal)) (a6 : (⟨S256, .f32⟩ : BufTy).Contents (Elt Ideal)) (ns1 : FVec Ideal S10000 .f32) :
    Enc0.G E a5 (shapeCast S1x256 a6 shapeCasts_S256_S1x256) (shapeCast S10000x1 ns1 shapeCasts_S10000_S10000x1) = encArr E a5 a6 ns1 := by
  funext i
  obtain ⟨r, q, rfl⟩ : ∃ (r : Fin 10000) (q : Fin 256), i = ix2 r q := ⟨i 0, i 1, eq_ix2 i⟩
  rw [Enc0.G_apply, row_of_vec, col_of_vec]
  rfl

theorem conv1_layout (X : FVec Ideal S10000x256 .f32) (a10 : (⟨S3x256x256, .f32⟩ : BufTy).Contents (Elt Ideal)) (a11 : (⟨S3x256, .f32⟩ : BufTy).Contents (Elt Ideal))
    (nd1 ns1 : FVec Ideal S10000 .f32) :
    Conv1.G X
        (shapeCast S256x256 (extractStridedSlice S1x256x256 ![0, 0, 0] a10 slices_S3x256x256_S1x256x256_0_0_0) shapeCasts_S1x256x256_S256x256)
        (shapeCast S1x256 (shapeCast S256 (extractStridedSlice S1x256 ![0, 0] a11 slices_S3x256_S1x256_0_0) shapeCasts_S1x256_S256) shapeCasts_S256_S1x256)
        (shapeCast S10000x1 nd1 shapeCasts_S10000_S10000x1) (shapeCast S10000x1 ns1 shapeCasts_S10000_S10000x1)
      = convArr 0 X a10 a11 nd1 ns1 := by
  funext i
  obtain ⟨r, q, rfl⟩ : ∃ (r : Fin 10000) (q : Fin 256), i = ix2 r q := ⟨i 0, i 1, eq_ix2 i⟩
  rw [Conv1.G_apply]
  simp only [wslice0, bslice0, col_of_vec]
  rfl

theorem conv2_layout (X : FVec Ideal S10000x256 .f32) (a10 : (⟨S3x256x256, .f32⟩ : BufTy).Contents (Elt Ideal)) (a11 : (⟨S3x256, .f32⟩ : BufTy).Contents (Elt Ideal))
    (nd1 ns1 : FVec Ideal S10000 .f32) :
    Conv2.G X
        (shapeCast S256x256 (extractStridedSlice S1x256x256 ![1, 0, 0] a10 slices_S3x256x256_S1x256x256_1_0_0) shapeCasts_S1x256x256_S256x256)
        (shapeCast S1x256 (shapeCast S256 (extractStridedSlice S1x256 ![1, 0] a11 slices_S3x256_S1x256_1_0) shapeCasts_S1x256_S256) shapeCasts_S256_S1x256)
        (shapeCast S10000x1 nd1 shapeCasts_S10000_S10000x1) (shapeCast S10000x1 ns1 shapeCasts_S10000_S10000x1)
      = convArr 1 X a10 a11 nd1 ns1 := by
  funext i
  obtain ⟨r, q, rfl⟩ : ∃ (r : Fin 10000) (q : Fin 256), i = ix2 r q := ⟨i 0, i 1, eq_ix2 i⟩
  rw [Conv2.G_apply]
  simp only [wslice1, bslice1, col_of_vec]
  rfl

theorem last_layout (X : FVec Ideal S10000x256 .f32) (a10 : (⟨S3x256x256, .f32⟩ : BufTy).Contents (Elt Ideal)) (a11 : (⟨S3x256, .f32⟩ : BufTy).Contents (Elt Ideal))
    (nd1 : FVec Ideal S10000 .f32) :
    Last3.G X
        (shapeCast S256x256 (extractStridedSlice S1x256x256 ![2, 0, 0] a10 slices_S3x256x256_S1x256x256_2_0_0) shapeCasts_S1x256x256_S256x256)
        (shapeCast S1x256 (shapeCast S256 (extractStridedSlice S1x256 ![2, 0] a11 slices_S3x256_S1x256_2_0) shapeCasts_S1x256_S256) shapeCasts_S256_S1x256)
        (shapeCast S10000x1 nd1 shapeCasts_S10000_S10000x1)
      = lastArr 2 X a10 a11 nd1 := by
  funext i
  obtain ⟨r, q, rfl⟩ : ∃ (r : Fin 10000) (q : Fin 256), i = ix2 r q := ⟨i 0, i 1, eq_ix2 i⟩
  rw [Last3.G_apply]
  simp only [wslice2, bslice2, col_of_vec]
  rfl

theorem score_layout (U Vv : FVec Ideal S100000x256 .bf16) (a12 : (⟨S512x256, .f32⟩ : BufTy).Contents (Elt Ideal)) (a13 : (⟨S256, .f32⟩ : BufTy).Contents (Elt Ideal)) (a14 : (⟨S256x1, .f32⟩ : BufTy).Contents (Elt Ideal)) (a15 : (⟨S1, .f32⟩ : BufTy).Contents (Elt Ideal)) :
    shapeCast S100000 (Score4.G U Vv
        (truncf (F := Ideal) .bf16 (extractStridedSlice S256x256 ![0, 0] a12 slices_S512x256_S256x256_0_0) bitsLt_bf16_f32)
        (truncf (F := Ideal) .bf16 (extractStridedSlice S256x256 ![256, 0] a12 slices_S512x256_S256x256_256_0) bitsLt_bf16_f32)
        (shapeCast S1x256 a13 shapeCasts_S256_S1x256) (shapeCast S1x256 a14 shapeCasts_S256x1_S1x256) (shapeCast S1x1 a15 shapeCasts_S1_S1x1))
      shapeCasts_S100000x1_S100000
      = scoreArr U Vv a12 a13 a14 a15 := by
  funext i
  obtain ⟨c, rfl⟩ : ∃ c : Fin 100000, i = ix1 c := ⟨i 0, eq_ix1 i⟩
  rw [vec_of_col, Score4.G_apply]
  simp only [w1u_apply, w1v_apply, row_of_vec, w2row_apply, b2_apply]
  rfl

end Cert.KernelIdeal.Layout

end
-- ==== Proof.KernelValue.lean ====
/-
  What the kernel program's run leaves in its result buffer, as the network of proof/Proof/Spec.lean.

  The program's @main is fifteen segments: host operations, then the five calls with host operations between them.
  Read backwards from the result: the last reshape of the scorer call's result; that result is the pair scorer of the two
  candidate gathers of the last convolution's result; each convolution's result is the convolution of the edge
  aggregation (gather by sources, add by destinations) of the call before; the first is the encoder of the gathered
  atom embedding. Between calls nothing that a later segment reads is overwritten: the edge lists, the two weight
  columns and the parameter arrays keep the contents they had when the first call was entered.
-/
import proofs.«431059_j80393197846860_3_alg».proof.Proof.Enc0
import proofs.«431059_j80393197846860_3_alg».proof.Proof.Conv1
import proofs.«431059_j80393197846860_3_alg».proof.Proof.Conv2
import proofs.«431059_j80393197846860_3_alg».proof.Proof.Last3
import proofs.«431059_j80393197846860_3_alg».proof.Proof.Score4
import proofs.«431059_j80393197846860_3_alg».proof.Proof.Layout
import proofs.«431059_j80393197846860_3_alg».proof.Proof.Spec
import Idealize.ShloMosaic.Lib.StableHlo.Run

set_option maxRecDepth 16384

noncomputable section

namespace Cert.KernelIdeal.KValue

open Cert.KernelIdeal Cert.KernelIdeal.Gen Cert.Wln
open Idealize.ShloMosaic Idealize.ShloMosaic.TcCoe Idealize.SL.Sem Idealize.ShloMosaic.StableHlo Idealize.ShloMosaic.ValueIdx

/-! ## The glue, as the program spells it -/

/-- Rows of a node table gathered by the edges' sources (negative indices wrapped by the table's length), added up by
    the edges' destinations into a zero table. -/
def mp (src dst : (⟨S320000, .i32⟩ : BufTy).Contents (Elt Ideal)) (h : NodeTab) : NodeTab :=
  Host.scatterAdd scatter_S10000x256_S320000x1_S320000x256_1_0_0_1
    (broadcastInDim S10000x256 ![] bcast_S_S10000x256 (constant (F := Ideal) S_ .f32 0x00000000#32))
    (broadcastInDim S320000x1 ![0] bcast_S320000_S320000x1_0 dst)
    (extf (F := Ideal) .f32 (Host.gather gather_S10000x256_S320000x1_S320000x256_1_0_n_n_0_1_1256 h
      (broadcastInDim S320000x1 ![0] bcast_S320000_S320000x1_0
        (select (cmpi .slt src (broadcastInDim S320000 ![] bcast_S_S320000 (constantI S_ 32 0#32)))
          (addi src (broadcastInDim S320000 ![] bcast_S_S320000 (constantI S_ 32 10000#32))) src))) bitsLt_bf16_f32)

/-- Rows of a node table gathered by one end of the candidate pairs. -/
def pick (idx : (⟨S100000, .i32⟩ : BufTy).Contents (Elt Ideal)) (h : NodeTab) : CandTab :=
  Host.gather gather_S10000x256_S100000x1_S100000x256_1_0_n_n_0_1_1256 h
    (broadcastInDim S100000x1 ![0] bcast_S100000_S100000x1_0
      (select (cmpi .slt idx (broadcastInDim S100000 ![] bcast_S_S100000 (constantI S_ 32 0#32)))
        (addi idx (broadcastInDim S100000 ![] bcast_S_S100000 (constantI S_ 32 10000#32))) idx))

/-- The candidate pairs' first and second ends. -/
def uEnd (a3 : (⟨S100000x2, .i32⟩ : BufTy).Contents (Elt Ideal)) : (⟨S100000, .i32⟩ : BufTy).Contents (Elt Ideal) :=
  shapeCast S100000 (extractStridedSlice S100000x1 ![0, 0] a3 slices_S100000x2_S100000x1_0_0) shapeCasts_S100000x1_S100000
def vEnd (a3 : (⟨S100000x2, .i32⟩ : BufTy).Contents (Elt Ideal)) : (⟨S100000, .i32⟩ : BufTy).Contents (Elt Ideal) :=
  shapeCast S100000 (extractStridedSlice S100000x1 ![0, 1] a3 slices_S100000x2_S100000x1_0_1) shapeCasts_S100000x1_S100000

variable (m : (ℓ : Loc nD τ sig) → Buf (Elt Ideal) ℓ) (ρ : Dev nD → PrngReg) (c : Dev nD)

/-! ## What no later segment overwrites -/

/-- A buffer none of a stretch's operations writes: the side condition of "the stretch keeps it". -/
macro "not_written " h:ident : tactic =>
  `(tactic| (refine List.forall_iff_forall_mem.mp ?_
             simp only [$h:ident, List.Forall, StableHlo.nullary_writes, StableHlo.unary_writes, StableHlo.binary_writes,
               StableHlo.ternary_writes, StableHlo.quaternary_writes, StableHlo.reshape_writes, StableHlo.binaryIndexed_writes,
               Finset.mem_singleton]
             repeat' apply And.intro
             all_goals exact StableHlo.devRef_ne_of_ne (by decide)))

theorem W7_of (x : Ref sig .tc)
    (h : ∀ op ∈ (hostOps1 : List (HloOp τ sig (Elt Ideal))), Proc.devRef .tc x ∉ op.writes)
    (h6 : W6 m ρ c (Proc.devRef .tc x) = W5 m ρ c (Proc.devRef .tc x)) :
    W7 m ρ c (Proc.devRef .tc x) = W5 m ρ c (Proc.devRef .tc x) :=
  (StableHlo.after_of_forall_not_mem _ _ h).trans h6

theorem W9_of (x : Ref sig .tc)
    (h : ∀ op ∈ (hostOps2 : List (HloOp τ sig (Elt Ideal))), Proc.devRef .tc x ∉ op.writes)
    (h8 : W8 m ρ c (Proc.devRef .tc x) = W7 m ρ c (Proc.devRef .tc x))
    (h7 : W7 m ρ c (Proc.devRef .tc x) = W5 m ρ c (Proc.devRef .tc x)) :
    W9 m ρ c (Proc.devRef .tc x) = W5 m ρ c (Proc.devRef .tc x) :=
  (StableHlo.after_of_forall_not_mem _ _ h).trans (h8.trans h7)

theorem W11_of (x : Ref sig .tc)
    (h : ∀ op ∈ (hostOps3 : List (HloOp τ sig (Elt Ideal))), Proc.devRef .tc x ∉ op.writes)
    (h10 : W10 m ρ c (Proc.devRef .tc x) = W9 m ρ c (Proc.devRef .tc x))
    (h9 : W9 m ρ c (Proc.devRef .tc x) = W5 m ρ c (Proc.devRef .tc x)) :
    W11 m ρ c (Proc.devRef .tc x) = W5 m ρ c (Proc.devRef .tc x) :=
  (StableHlo.after_of_forall_not_mem _ _ h).trans (h10.trans h9)

/-- Kept from the first call's entry to the second's, the third's, the fourth's: a buffer no call has among its arrays. -/
macro "keep7" : tactic => `(tactic| exact W7_of _ _ _ _ (by not_written hostOps1) (W6_of_ne _ _ _ _ (by decide)))
macro "keep9" : tactic => `(tactic| exact W9_of _ _ _ _ (by not_written hostOps2) (W8_of_ne _ _ _ _ (by decide)) (by keep7))
macro "keep11" : tactic => `(tactic| exact W11_of _ _ _ _ (by not_written hostOps3) (W10_of_ne _ _ _ _ (by decide)) (by keep9))

/-! ## The first call's entry -/

/-- An argument array is as launched when the first call is entered. -/
macro "arg_at_entry" : tactic => `(tactic| (dsimp only [W5, W4, W3, W2, W1]; after_results_simp))

theorem W5_arg5 : W5 m ρ c (Proc.devRef .tc main_arg5) = m ((c : Thread nD τ).loc main_arg5) := by arg_at_entry
theorem W5_arg10 : W5 m ρ c (Proc.devRef .tc main_arg10) = m ((c : Thread nD τ).loc main_arg10) := by arg_at_entry
theorem W5_arg11 : W5 m ρ c (Proc.devRef .tc main_arg11) = m ((c : Thread nD τ).loc main_arg11) := by arg_at_entry
theorem W5_arg3 : W5 m ρ c (Proc.devRef .tc main_arg3) = m ((c : Thread nD τ).loc main_arg3) := by arg_at_entry
theorem W5_arg12 : W5 m ρ c (Proc.devRef .tc main_arg12) = m ((c : Thread nD τ).loc main_arg12) := by arg_at_entry
theorem W5_arg13 : W5 m ρ c (Proc.devRef .tc main_arg13) = m ((c : Thread nD τ).loc main_arg13) := by arg_at_entry
theorem W5_arg14 : W5 m ρ c (Proc.devRef .tc main_arg14) = m ((c : Thread nD τ).loc main_arg14) := by arg_at_entry
theorem W5_arg15 : W5 m ρ c (Proc.devRef .tc main_arg15) = m ((c : Thread nD τ).loc main_arg15) := by arg_at_entry

/-- The bias row is the bias vector reshaped; the two weight columns are the weight vectors reshaped. -/
theorem W5_v30 : W5 m ρ c (Proc.devRef .tc main_v30) = shapeCast S1x256 (m ((c : Thread nD τ).loc main_arg6)) shapeCasts_S256_S1x256 := by
  dsimp only [W5, W4, W3, W2, W1]; after_results_simp; rfl
theorem W5_v23 : W5 m ρ c (Proc.devRef .tc main_v23) = shapeCast S10000x1 (W5 m ρ c (Proc.devRef .tc main_v22)) shapeCasts_S10000_S10000x1 := by
  dsimp only [W5, W4, W3, W2, W1]; after_results_simp; rfl
theorem W5_v29 : W5 m ρ c (Proc.devRef .tc main_v29) = shapeCast S10000x1 (W5 m ρ c (Proc.devRef .tc main_v28)) shapeCasts_S10000_S10000x1 := by
  dsimp only [W5, W4, W3, W2, W1]; after_results_simp; rfl

/-! ## Call by call -/

/-- The encoder call's result. -/
theorem enc_result : W6 m ρ c (Proc.devRef .tc main_v31)
    = encArr (W5 m ρ c (Proc.devRef .tc main_v6)) (m ((c : Thread nD τ).loc main_arg5)) (m ((c : Thread nD τ).loc main_arg6))
        (W5 m ρ c (Proc.devRef .tc main_v22)) := by
  refine (W6_arr m ρ c 4).trans ?_
  rw [Enc0.final (V5 m ρ) c]
  show Enc0.G (W5 m ρ c (Proc.devRef .tc main_v6)) (W5 m ρ c (Proc.devRef .tc main_arg5)) (W5 m ρ c (Proc.devRef .tc main_v30))
    (W5 m ρ c (Proc.devRef .tc main_v23)) = _
  rw [W5_arg5, W5_v30, W5_v23]
  exact Layout.enc_layout _ _ _ _

/-! The edge lists, the weight columns and the parameters, where later segments read them. -/

theorem W6_v8 : W6 m ρ c (Proc.devRef .tc main_v8) = W5 m ρ c (Proc.devRef .tc main_v8) := W6_of_ne m ρ c main_v8 (by decide)
theorem W6_v10 : W6 m ρ c (Proc.devRef .tc main_v10) = W5 m ρ c (Proc.devRef .tc main_v10) := W6_of_ne m ρ c main_v10 (by decide)
theorem W6_arg10 : W6 m ρ c (Proc.devRef .tc main_arg10) = m ((c : Thread nD τ).loc main_arg10) :=
  (W6_of_ne m ρ c main_arg10 (by decide)).trans (W5_arg10 m ρ c)
theorem W6_arg11 : W6 m ρ c (Proc.devRef .tc main_arg11) = m ((c : Thread nD τ).loc main_arg11) :=
  (W6_of_ne m ρ c main_arg11 (by decide)).trans (W5_arg11 m ρ c)

theorem W8_v8 : W8 m ρ c (Proc.devRef .tc main_v8) = W5 m ρ c (Proc.devRef .tc main_v8) := (W8_of_ne m ρ c main_v8 (by decide)).trans (by keep7)
theorem W8_v10 : W8 m ρ c (Proc.devRef .tc main_v10) = W5 m ρ c (Proc.devRef .tc main_v10) := (W8_of_ne m ρ c main_v10 (by decide)).trans (by keep7)
theorem W8_arg10 : W8 m ρ c (Proc.devRef .tc main_arg10) = m ((c : Thread nD τ).loc main_arg10) :=
  ((W8_of_ne m ρ c main_arg10 (by decide)).trans (by keep7)).trans (W5_arg10 m ρ c)
theorem W8_arg11 : W8 m ρ c (Proc.devRef .tc main_arg11) = m ((c : Thread nD τ).loc main_arg11) :=
  ((W8_of_ne m ρ c main_arg11 (by decide)).trans (by keep7)).trans (W5_arg11 m ρ c)

theorem W10_v8 : W10 m ρ c (Proc.devRef .tc main_v8) = W5 m ρ c (Proc.devRef .tc main_v8) := (W10_of_ne m ρ c main_v8 (by decide)).trans (by keep9)
theorem W10_v10 : W10 m ρ c (Proc.devRef .tc main_v10) = W5 m ρ c (Proc.devRef .tc main_v10) := (W10_of_ne m ρ c main_v10 (by decide)).trans (by keep9)
theorem W10_arg10 : W10 m ρ c (Proc.devRef .tc main_arg10) = m ((c : Thread nD τ).loc main_arg10) :=
  ((W10_of_ne m ρ c main_arg10 (by decide)).trans (by keep9)).trans (W5_arg10 m ρ c)
theorem W10_arg11 : W10 m ρ c (Proc.devRef .tc main_arg11) = m ((c : Thread nD τ).loc main_arg11) :=
  ((W10_of_ne m ρ c main_arg11 (by decide)).trans (by keep9)).trans (W5_arg11 m ρ c)

theorem W12_arg3 : W12 m ρ c (Proc.devRef .tc main_arg3) = m ((c : Thread nD τ).loc main_arg3) :=
  ((W12_of_ne m ρ c main_arg3 (by decide)).trans (by keep11)).trans (W5_arg3 m ρ c)
theorem W12_arg12 : W12 m ρ c (Proc.devRef .tc main_arg12) = m ((c : Thread nD τ).loc main_arg12) :=
  ((W12_of_ne m ρ c main_arg12 (by decide)).trans (by keep11)).trans (W5_arg12 m ρ c)
theorem W12_arg13 : W12 m ρ c (Proc.devRef .tc main_arg13) = m ((c : Thread nD τ).loc main_arg13) :=
  ((W12_of_ne m ρ c main_arg13 (by decide)).trans (by keep11)).trans (W5_arg13 m ρ c)
theorem W12_arg14 : W12 m ρ c (Proc.devRef .tc main_arg14) = m ((c : Thread nD τ).loc main_arg14) :=
  ((W12_of_ne m ρ c main_arg14 (by decide)).trans (by keep11)).trans (W5_arg14 m ρ c)
theorem W12_arg15 : W12 m ρ c (Proc.devRef .tc main_arg15) = m ((c : Thread nD τ).loc main_arg15) :=
  ((W12_of_ne m ρ c main_arg15 (by decide)).trans (by keep11)).trans (W5_arg15 m ρ c)

/-- The two weight columns are INPUT arrays of the calls: a call leaves an input array as it found it. -/
theorem W6_v23 : W6 m ρ c (Proc.devRef .tc main_v23) = W5 m ρ c (Proc.devRef .tc main_v23) :=
  (W6_arr m ρ c 3).trans (((dat0 (V5 m ρ) c).arrAt_in 3 rfl _).trans (A_eq0 (V5 m ρ) c 3))
theorem W8_v23 : W8 m ρ c (Proc.devRef .tc main_v23) = W7 m ρ c (Proc.devRef .tc main_v23) :=
  (W8_arr m ρ c 4).trans (((dat1 (V7 m ρ) c).arrAt_in 4 rfl _).trans (A_eq1 (V7 m ρ) c 4))
theorem W8_v29 : W8 m ρ c (Proc.devRef .tc main_v29) = W7 m ρ c (Proc.devRef .tc main_v29) :=
  (W8_arr m ρ c 3).trans (((dat1 (V7 m ρ) c).arrAt_in 3 rfl _).trans (A_eq1 (V7 m ρ) c 3))
theorem W10_v29 : W10 m ρ c (Proc.devRef .tc main_v29) = W9 m ρ c (Proc.devRef .tc main_v29) :=
  (W10_arr m ρ c 3).trans (((dat2 (V9 m ρ) c).arrAt_in 3 rfl _).trans (A_eq2 (V9 m ρ) c 3))

theorem W7_v23' : W7 m ρ c (Proc.devRef .tc main_v23) = W5 m ρ c (Proc.devRef .tc main_v23) :=
  W7_of m ρ c main_v23 (by not_written hostOps1) (W6_v23 m ρ c)
theorem W7_v29' : W7 m ρ c (Proc.devRef .tc main_v29) = W5 m ρ c (Proc.devRef .tc main_v29) :=
  W7_of m ρ c main_v29 (by not_written hostOps1) (W6_of_ne m ρ c main_v29 (by decide))
theorem W9_v23' : W9 m ρ c (Proc.devRef .tc main_v23) = W5 m ρ c (Proc.devRef .tc main_v23) :=
  W9_of m ρ c main_v23 (by not_written hostOps2) (W8_v23 m ρ c) (W7_v23' m ρ c)
theorem W9_v29' : W9 m ρ c (Proc.devRef .tc main_v29) = W5 m ρ c (Proc.devRef .tc main_v29) :=
  W9_of m ρ c main_v29 (by not_written hostOps2) (W8_v29 m ρ c) (W7_v29' m ρ c)
theorem W11_v29' : W11 m ρ c (Proc.devRef .tc main_v29) = W5 m ρ c (Proc.devRef .tc main_v29) :=
  W11_of m ρ c main_v29 (by not_written hostOps3) (W10_v29 m ρ c) (W9_v29' m ρ c)

theorem W7_v23 : W7 m ρ c (Proc.devRef .tc main_v23) = shapeCast S10000x1 (W5 m ρ c (Proc.devRef .tc main_v22)) shapeCasts_S10000_S10000x1 :=
  (W7_v23' m ρ c).trans (W5_v23 m ρ c)
theorem W7_v29 : W7 m ρ c (Proc.devRef .tc main_v29) = shapeCast S10000x1 (W5 m ρ c (Proc.devRef .tc main_v28)) shapeCasts_S10000_S10000x1 :=
  (W7_v29' m ρ c).trans (W5_v29 m ρ c)
theorem W9_v23 : W9 m ρ c (Proc.devRef .tc main_v23) = shapeCast S10000x1 (W5 m ρ c (Proc.devRef .tc main_v22)) shapeCasts_S10000_S10000x1 :=
  (W9_v23' m ρ c).trans (W5_v23 m ρ c)
theorem W9_v29 : W9 m ρ c (Proc.devRef .tc main_v29) = shapeCast S10000x1 (W5 m ρ c (Proc.devRef .tc main_v28)) shapeCasts_S10000_S10000x1 :=
  (W9_v29' m ρ c).trans (W5_v29 m ρ c)
theorem W11_v29 : W11 m ρ c (Proc.devRef .tc main_v29) = shapeCast S10000x1 (W5 m ρ c (Proc.devRef .tc main_v28)) shapeCasts_S10000_S10000x1 :=
  (W11_v29' m ρ c).trans (W5_v29 m ρ c)

/-- The first convolution call: its aggregated table, its weights, its result. -/
theorem W7_v42 : W7 m ρ c (Proc.devRef .tc main_v42)
    = mp (W5 m ρ c (Proc.devRef .tc main_v8)) (W5 m ρ c (Proc.devRef .tc main_v10)) (W6 m ρ c (Proc.devRef .tc main_v31)) := by
  dsimp only [W7]; after_results_simp
  rw [W6_v8, W6_v10]; rfl
theorem W7_v44 : W7 m ρ c (Proc.devRef .tc main_v44)
    = shapeCast S256x256 (extractStridedSlice S1x256x256 ![0, 0, 0] (m ((c : Thread nD τ).loc main_arg10)) slices_S3x256x256_S1x256x256_0_0_0) shapeCasts_S1x256x256_S256x256 := by
  dsimp only [W7]; after_results_simp
  rw [W6_arg10]; rfl
theorem W7_v47 : W7 m ρ c (Proc.devRef .tc main_v47)
    = shapeCast S1x256 (shapeCast S256 (extractStridedSlice S1x256 ![0, 0] (m ((c : Thread nD τ).loc main_arg11)) slices_S3x256_S1x256_0_0) shapeCasts_S1x256_S256) shapeCasts_S256_S1x256 := by
  dsimp only [W7]; after_results_simp
  rw [W6_arg11]; rfl

theorem conv1_result : W8 m ρ c (Proc.devRef .tc main_v48)
    = convArr 0 (mp (W5 m ρ c (Proc.devRef .tc main_v8)) (W5 m ρ c (Proc.devRef .tc main_v10)) (W6 m ρ c (Proc.devRef .tc main_v31)))
        (m ((c : Thread nD τ).loc main_arg10)) (m ((c : Thread nD τ).loc main_arg11))
        (W5 m ρ c (Proc.devRef .tc main_v28)) (W5 m ρ c (Proc.devRef .tc main_v22)) := by
  refine (W8_arr m ρ c 5).trans ?_
  rw [Conv1.final (V7 m ρ) c]
  show Conv1.G (W7 m ρ c (Proc.devRef .tc main_v42)) (W7 m ρ c (Proc.devRef .tc main_v44)) (W7 m ρ c (Proc.devRef .tc main_v47))
    (W7 m ρ c (Proc.devRef .tc main_v29)) (W7 m ρ c (Proc.devRef .tc main_v23)) = _
  rw [W7_v42, W7_v44, W7_v47, W7_v29, W7_v23]
  exact Layout.conv1_layout _ _ _ _ _

/-- The second convolution call. -/
theorem W9_v59 : W9 m ρ c (Proc.devRef .tc main_v59)
    = mp (W5 m ρ c (Proc.devRef .tc main_v8)) (W5 m ρ c (Proc.devRef .tc main_v10)) (W8 m ρ c (Proc.devRef .tc main_v48)) := by
  dsimp only [W9]; after_results_simp
  rw [W8_v8, W8_v10]; rfl
theorem W9_v61 : W9 m ρ c (Proc.devRef .tc main_v61)
    = shapeCast S256x256 (extractStridedSlice S1x256x256 ![1, 0, 0] (m ((c : Thread nD τ).loc main_arg10)) slices_S3x256x256_S1x256x256_1_0_0) shapeCasts_S1x256x256_S256x256 := by
  dsimp only [W9]; after_results_simp
  rw [W8_arg10]; rfl
theorem W9_v64 : W9 m ρ c (Proc.devRef .tc main_v64)
    = shapeCast S1x256 (shapeCast S256 (extractStridedSlice S1x256 ![1, 0] (m ((c : Thread nD τ).loc main_arg11)) slices_S3x256_S1x256_1_0) shapeCasts_S1x256_S256) shapeCasts_S256_S1x256 := by
  dsimp only [W9]; after_results_simp
  rw [W8_arg11]; rfl

theorem conv2_result : W10 m ρ c (Proc.devRef .tc main_v65)
    = convArr 1 (mp (W5 m ρ c (Proc.devRef .tc main_v8)) (W5 m ρ c (Proc.devRef .tc main_v10)) (W8 m ρ c (Proc.devRef .tc main_v48)))
        (m ((c : Thread nD τ).loc main_arg10)) (m ((c : Thread nD τ).loc main_arg11))
        (W5 m ρ c (Proc.devRef .tc main_v28)) (W5 m ρ c (Proc.devRef .tc main_v22)) := by
  refine (W10_arr m ρ c 5).trans ?_
  rw [Conv2.final (V9 m ρ) c]
  show Conv2.G (W9 m ρ c (Proc.devRef .tc main_v59)) (W9 m ρ c (Proc.devRef .tc main_v61)) (W9 m ρ c (Proc.devRef .tc main_v64))
    (W9 m ρ c (Proc.devRef .tc main_v29)) (W9 m ρ c (Proc.devRef .tc main_v23)) = _
  rw [W9_v59, W9_v61, W9_v64, W9_v29, W9_v23]
  exact Layout.conv2_layout _ _ _ _ _

/-- The last convolution call. -/
theorem W11_v76 : W11 m ρ c (Proc.devRef .tc main_v76)
    = mp (W5 m ρ c (Proc.devRef .tc main_v8)) (W5 m ρ c (Proc.devRef .tc main_v10)) (W10 m ρ c (Proc.devRef .tc main_v65)) := by
  dsimp only [W11]; after_results_simp
  rw [W10_v8, W10_v10]; rfl
theorem W11_v78 : W11 m ρ c (Proc.devRef .tc main_v78)
    = shapeCast S256x256 (extractStridedSlice S1x256x256 ![2, 0, 0] (m ((c : Thread nD τ).loc main_arg10)) slices_S3x256x256_S1x256x256_2_0_0) shapeCasts_S1x256x256_S256x256 := by
  dsimp only [W11]; after_results_simp
  rw [W10_arg10]; rfl
theorem W11_v81 : W11 m ρ c (Proc.devRef .tc main_v81)
    = shapeCast S1x256 (shapeCast S256 (extractStridedSlice S1x256 ![2, 0] (m ((c : Thread nD τ).loc main_arg11)) slices_S3x256_S1x256_2_0) shapeCasts_S1x256_S256) shapeCasts_S256_S1x256 := by
  dsimp only [W11]; after_results_simp
  rw [W10_arg11]; rfl

theorem last_result : W12 m ρ c (Proc.devRef .tc main_v82)
    = lastArr 2 (mp (W5 m ρ c (Proc.devRef .tc main_v8)) (W5 m ρ c (Proc.devRef .tc main_v10)) (W10 m ρ c (Proc.devRef .tc main_v65)))
        (m ((c : Thread nD τ).loc main_arg10)) (m ((c : Thread nD τ).loc main_arg11)) (W5 m ρ c (Proc.devRef .tc main_v28)) := by
  refine (W12_arr m ρ c 4).trans ?_
  rw [Last3.final (V11 m ρ) c]
  show Last3.G (W11 m ρ c (Proc.devRef .tc main_v76)) (W11 m ρ c (Proc.devRef .tc main_v78)) (W11 m ρ c (Proc.devRef .tc main_v81))
    (W11 m ρ c (Proc.devRef .tc main_v29)) = _
  rw [W11_v76, W11_v78, W11_v81, W11_v29]
  exact Layout.last_layout _ _ _ _

/-- The scorer call's operands. -/
theorem W13_v93 : W13 m ρ c (Proc.devRef .tc main_v93) = pick (uEnd (m ((c : Thread nD τ).loc main_arg3))) (W12 m ρ c (Proc.devRef .tc main_v82)) := by
  dsimp only [W13]; after_results_simp
  rw [W12_arg3]; rfl
theorem W13_v100 : W13 m ρ c (Proc.devRef .tc main_v100) = pick (vEnd (m ((c : Thread nD τ).loc main_arg3))) (W12 m ρ c (Proc.devRef .tc main_v82)) := by
  dsimp only [W13]; after_results_simp
  rw [W12_arg3]; rfl
theorem W13_v102 : W13 m ρ c (Proc.devRef .tc main_v102)
    = truncf (F := Ideal) .bf16 (extractStridedSlice S256x256 ![0, 0] (m ((c : Thread nD τ).loc main_arg12)) slices_S512x256_S256x256_0_0) bitsLt_bf16_f32 := by
  dsimp only [W13]; after_results_simp
  rw [W12_arg12]
theorem W13_v104 : W13 m ρ c (Proc.devRef .tc main_v104)
    = truncf (F := Ideal) .bf16 (extractStridedSlice S256x256 ![256, 0] (m ((c : Thread nD τ).loc main_arg12)) slices_S512x256_S256x256_256_0) bitsLt_bf16_f32 := by
  dsimp only [W13]; after_results_simp
  rw [W12_arg12]
theorem W13_v106 : W13 m ρ c (Proc.devRef .tc main_v106) = shapeCast S1x256 (m ((c : Thread nD τ).loc main_arg13)) shapeCasts_S256_S1x256 := by
  dsimp only [W13]; after_results_simp
  rw [W12_arg13]; rfl
theorem W13_v105 : W13 m ρ c (Proc.devRef .tc main_v105) = shapeCast S1x256 (m ((c : Thread nD τ).loc main_arg14)) shapeCasts_S256x1_S1x256 := by
  dsimp only [W13]; after_results_simp
  rw [W12_arg14]; rfl
theorem W13_v107 : W13 m ρ c (Proc.devRef .tc main_v107) = shapeCast S1x1 (m ((c : Thread nD τ).loc main_arg15)) shapeCasts_S1_S1x1 := by
  dsimp only [W13]; after_results_simp
  rw [W12_arg15]; rfl

/-- The result buffer after the run: the last reshape of the scorer call's result. -/
theorem result_eq : W15 m ρ c (Proc.devRef .tc main_v109)
    = scoreArr (pick (uEnd (m ((c : Thread nD τ).loc main_arg3))) (W12 m ρ c (Proc.devRef .tc main_v82)))
        (pick (vEnd (m ((c : Thread nD τ).loc main_arg3))) (W12 m ρ c (Proc.devRef .tc main_v82)))
        (m ((c : Thread nD τ).loc main_arg12)) (m ((c : Thread nD τ).loc main_arg13)) (m ((c : Thread nD τ).loc main_arg14)) (m ((c : Thread nD τ).loc main_arg15)) := by
  have h15 : W15 m ρ c (Proc.devRef .tc main_v109) = shapeCast S100000 (W14 m ρ c (Proc.devRef .tc main_v108)) shapeCasts_S100000x1_S100000 := by
    dsimp only [W15]; after_results_simp; rfl
  rw [h15, show W14 m ρ c (Proc.devRef .tc main_v108) = (dat4 (V13 m ρ) c).arrAt 7 cfg4.N from W14_arr m ρ c 7, Score4.final (V13 m ρ) c]
  show shapeCast S100000 (Score4.G (W13 m ρ c (Proc.devRef .tc main_v93)) (W13 m ρ c (Proc.devRef .tc main_v100)) (W13 m ρ c (Proc.devRef .tc main_v102))
    (W13 m ρ c (Proc.devRef .tc main_v104)) (W13 m ρ c (Proc.devRef .tc main_v106)) (W13 m ρ c (Proc.devRef .tc main_v105)) (W13 m ρ c (Proc.devRef .tc main_v107))) shapeCasts_S100000x1_S100000 = _
  rw [W13_v93, W13_v100, W13_v102, W13_v104, W13_v106, W13_v105, W13_v107]
  exact Layout.score_layout _ _ _ _ _ _

/-- The whole run's result is the network over the program's glue. -/
theorem kernel_model : W15 m ρ c (Proc.devRef .tc main_v109)
    = model (W5 m ρ c (Proc.devRef .tc main_v6)) (m ((c : Thread nD τ).loc main_arg5)) (m ((c : Thread nD τ).loc main_arg6))
        (W5 m ρ c (Proc.devRef .tc main_v22)) (W5 m ρ c (Proc.devRef .tc main_v28))
        (m ((c : Thread nD τ).loc main_arg10)) (m ((c : Thread nD τ).loc main_arg11))
        (m ((c : Thread nD τ).loc main_arg12)) (m ((c : Thread nD τ).loc main_arg13)) (m ((c : Thread nD τ).loc main_arg14)) (m ((c : Thread nD τ).loc main_arg15))
        (mp (W5 m ρ c (Proc.devRef .tc main_v8)) (W5 m ρ c (Proc.devRef .tc main_v10)))
        (pick (uEnd (m ((c : Thread nD τ).loc main_arg3)))) (pick (vEnd (m ((c : Thread nD τ).loc main_arg3)))) := by
  rw [result_eq, last_result, conv2_result, conv1_result, enc_result]
  rfl

end Cert.KernelIdeal.KValue

end
-- ==== Proof.RefValue.lean ====
/-
  The reference program computes the message-passing network of the specification (Spec.lean), stage by stage.

  Every reference operation is an array-valued function of the arguments of @main; read at one index, each stage of the
  reference is one entry of the specification:
    * the node encoder: operations %7-%10 (the dense layer on the gathered atom embedding %6 and its bias), %38 and %45
      (the outgoing node weight %37 spread along a row) and %46 (their product) give  enc(E)[r, q];
    * a graph convolution: the scatter %56 (%79, %102) of the gather %53 (%76, %99) is the aggregation `mp` of the
      previous table; %57-%58 scale its rows by the incoming node weight %43, %59-%61 put them through the layer's
      slice of the convolution weights, %62-%66 add the layer's slice of the biases, %67 clips at zero and %68-%69
      scale by the outgoing weight: conv_0; operations %80-%92 are conv_1 the same way, and %103-%113, which stop at
      the clip, are last_2;
    * the pair scorer: %124 and %131 gather the rows of the last table at a candidate's two ends, %132 joins them along
      the feature axis, so that the contraction %133 over 512 is the sum of the two contractions over 256 with the upper
      and the lower half of the first weight matrix; %134-%137 add the bias and clip, %138-%141 are the second layer,
      %142 drops the unit axis: score(gu h, gv h)[c].
  The composition of the five stages is the specification's `model` over the reference's own gathers and scatter.
-/
import proofs.«431059_j80393197846860_3_alg».proof.Proof.RefRead
import proofs.«431059_j80393197846860_3_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Cert.Wln Idealize.ShloMosaic Idealize.ShloMosaic.ValueIdx

/-- rows of a node table gathered by the edges' sources, added up by their destinations (reference operations %52-%56) -/
def mp (x2 : (⟨S2x320000, .i32⟩ : BufTy).Contents (Elt Ideal)) (h : Cert.Wln.NodeTab) : Cert.Wln.NodeTab :=
  Host.scatterAdd (F := Ideal) (φ := .f32) scatter_S10000x256_S320000x1_S320000x256_1_0_0_1 (val_main_v54 (F := Ideal)) (val_main_v55 (F := Ideal) x2)
    (Host.gather gather_S10000x256_S320000x1_S320000x256_1_0_n_n_0_1_1256 h (val_main_v52 (F := Ideal) x2))

/-- rows gathered by a candidate pair's first node (operations %123-%124) -/
def gu (x3 : (⟨S100000x2, .i32⟩ : BufTy).Contents (Elt Ideal)) (h : Cert.Wln.NodeTab) : Cert.Wln.CandTab :=
  Host.gather gather_S10000x256_S100000x1_S100000x256_1_0_n_n_0_1_1256 h (val_main_v123 (F := Ideal) x3)

/-- rows gathered by a candidate pair's second node (operations %130-%131) -/
def gv (x3 : (⟨S100000x2, .i32⟩ : BufTy).Contents (Elt Ideal)) (h : Cert.Wln.NodeTab) : Cert.Wln.CandTab :=
  Host.gather gather_S10000x256_S100000x1_S100000x256_1_0_n_n_0_1_1256 h (val_main_v130 (F := Ideal) x3)

variable (x0 : (⟨S10000, .i32⟩ : BufTy).Contents (Elt Ideal)) (x2 : (⟨S2x320000, .i32⟩ : BufTy).Contents (Elt Ideal))
  (x3 : (⟨S100000x2, .i32⟩ : BufTy).Contents (Elt Ideal)) (x4 : (⟨S100x256, .f32⟩ : BufTy).Contents (Elt Ideal))
  (x5 : (⟨S256x256, .f32⟩ : BufTy).Contents (Elt Ideal)) (x6 : (⟨S256, .f32⟩ : BufTy).Contents (Elt Ideal))
  (x10 : (⟨S3x256x256, .f32⟩ : BufTy).Contents (Elt Ideal)) (x11 : (⟨S3x256, .f32⟩ : BufTy).Contents (Elt Ideal))
  (x12 : (⟨S512x256, .f32⟩ : BufTy).Contents (Elt Ideal)) (x13 : (⟨S256, .f32⟩ : BufTy).Contents (Elt Ideal))
  (x14 : (⟨S256x1, .f32⟩ : BufTy).Contents (Elt Ideal)) (x15 : (⟨S1, .f32⟩ : BufTy).Contents (Elt Ideal))

/-! ## The aggregation of each layer is `mp` of the table before it -/

theorem mp56 : val_main_v56 (F := Ideal) x0 x2 x4 x5 x6 = mp x2 (val_main_v46 (F := Ideal) x0 x2 x4 x5 x6) := rfl

/-- the second and third aggregation repeat the first one's index arrays and zero table under other names -/
theorem mp_second (h : Cert.Wln.NodeTab) :
    Host.scatterAdd (F := Ideal) (φ := .f32) scatter_S10000x256_S320000x1_S320000x256_1_0_0_1 (val_main_v77 (F := Ideal)) (val_main_v78 (F := Ideal) x2)
      (Host.gather gather_S10000x256_S320000x1_S320000x256_1_0_n_n_0_1_1256 h (val_main_v75 (F := Ideal) x2)) = mp x2 h := rfl

theorem mp_third (h : Cert.Wln.NodeTab) :
    Host.scatterAdd (F := Ideal) (φ := .f32) scatter_S10000x256_S320000x1_S320000x256_1_0_0_1 (val_main_v100 (F := Ideal)) (val_main_v101 (F := Ideal) x2)
      (Host.gather gather_S10000x256_S320000x1_S320000x256_1_0_n_n_0_1_1256 h (val_main_v98 (F := Ideal) x2)) = mp x2 h := rfl

theorem mp79 : val_main_v79 (F := Ideal) x0 x2 x4 x5 x6 x10 x11 = mp x2 (val_main_v69 (F := Ideal) x0 x2 x4 x5 x6 x10 x11) :=
  mp_second x2 _

theorem mp102 : val_main_v102 (F := Ideal) x0 x2 x4 x5 x6 x10 x11 = mp x2 (val_main_v92 (F := Ideal) x0 x2 x4 x5 x6 x10 x11) :=
  mp_third x2 _

/-! ## Layout operations read at an index given by its coordinates -/

/-- the zero table a clip compares with -/
theorem zero_call2 (i : S10000x256.Idx) : val_main_call2_v0 (F := Ideal) i = 0 := by
  rw [val_main_call2_v0_apply, val_main_call2_cst_apply]; exact Ideal.ofBits_zero_f32
theorem zero_call3 (i : S10000x256.Idx) : val_main_call3_v0 (F := Ideal) i = 0 := zero_call2 i
theorem zero_call4 (i : S10000x256.Idx) : val_main_call4_v0 (F := Ideal) i = 0 := zero_call2 i
theorem zero_call5 (i : S100000x256.Idx) : val_main_call5_v0 (F := Ideal) i = 0 := by
  rw [val_main_call5_v0_apply, val_main_call5_cst_apply]; exact Ideal.ofBits_zero_f32

/-- a node weight spread along the rows: %45, %68, %91 carry the outgoing weight %37 … -/
theorem ns45 (r : Fin 10000) (q : Fin 256) : val_main_v45 (F := Ideal) x2 (ix2 r q) = val_main_v37 (F := Ideal) x2 (ix1 r) := by
  rw [val_main_v45_apply, val_main_v38_apply]
  exact congrArg _ (funext fun a => match a with | ⟨0, _⟩ => rfl)
theorem ns68 (r : Fin 10000) (q : Fin 256) : val_main_v68 (F := Ideal) x2 (ix2 r q) = val_main_v37 (F := Ideal) x2 (ix1 r) := ns45 x2 r q
theorem ns91 (r : Fin 10000) (q : Fin 256) : val_main_v91 (F := Ideal) x2 (ix2 r q) = val_main_v37 (F := Ideal) x2 (ix1 r) := ns45 x2 r q
/-- … and %57, %80, %103 the incoming weight %43 -/
theorem nd57 (r : Fin 10000) (q : Fin 256) : val_main_v57 (F := Ideal) x2 (ix2 r q) = val_main_v43 (F := Ideal) x2 (ix1 r) := by
  rw [val_main_v57_apply, val_main_v44_apply]
  exact congrArg _ (funext fun a => match a with | ⟨0, _⟩ => rfl)
theorem nd80 (r : Fin 10000) (q : Fin 256) : val_main_v80 (F := Ideal) x2 (ix2 r q) = val_main_v43 (F := Ideal) x2 (ix1 r) := nd57 x2 r q
theorem nd103 (r : Fin 10000) (q : Fin 256) : val_main_v103 (F := Ideal) x2 (ix2 r q) = val_main_v43 (F := Ideal) x2 (ix1 r) := nd57 x2 r q

/-- the encoder's bias spread along the columns -/
theorem bias9 (r : Fin 10000) (q : Fin 256) : val_main_v9 (F := Ideal) x6 (ix2 r q) = x6 (ix1 q) := by
  rw [val_main_v9_apply, val_main_v8_apply]
  exact congrArg _ (funext fun a => match a with | ⟨0, _⟩ => rfl)

/-- a layer's slice of the convolution biases spread along the columns -/
theorem bias65 (r : Fin 10000) (q : Fin 256) : val_main_v65 (F := Ideal) x11 (ix2 r q) = x11 (ix2 (0 : Fin 3) q) := by
  rw [val_main_v65_apply, val_main_v64_apply, val_main_v63_apply, val_main_v62_apply]
  refine congrArg _ (funext fun a => Fin.ext ?_)
  match a with
  | ⟨0, _⟩ => rfl
  | ⟨1, _⟩ => exact Nat.mod_eq_of_lt q.isLt
theorem bias88 (r : Fin 10000) (q : Fin 256) : val_main_v88 (F := Ideal) x11 (ix2 r q) = x11 (ix2 (1 : Fin 3) q) := by
  rw [val_main_v88_apply, val_main_v87_apply, val_main_v86_apply, val_main_v85_apply]
  refine congrArg _ (funext fun a => Fin.ext ?_)
  match a with
  | ⟨0, _⟩ => rfl
  | ⟨1, _⟩ => exact Nat.mod_eq_of_lt q.isLt
theorem bias111 (r : Fin 10000) (q : Fin 256) : val_main_v111 (F := Ideal) x11 (ix2 r q) = x11 (ix2 (2 : Fin 3) q) := by
  rw [val_main_v111_apply, val_main_v110_apply, val_main_v109_apply, val_main_v108_apply]
  refine congrArg _ (funext fun a => Fin.ext ?_)
  match a with
  | ⟨0, _⟩ => rfl
  | ⟨1, _⟩ => exact Nat.mod_eq_of_lt q.isLt

/-- a row-major position in a [256, 256] array gives its two coordinates back -/
theorem rowMajor_fst (k q : Fin 256) : (k.val * 256 + q.val) / 256 % 256 = k.val := by
  have := k.isLt; have := q.isLt; omega
theorem rowMajor_snd (k q : Fin 256) : (k.val * 256 + q.val) % 256 = q.val := by
  have := k.isLt; have := q.isLt; omega

/-- a layer's slice of the convolution weights -/
theorem w60 (k q : Fin 256) : val_main_v60 (F := Ideal) x10 (ix2 k q) = x10 (ix3 (0 : Fin 3) k q) := by
  rw [val_main_v60_apply, val_main_v59_apply]
  refine congrArg _ (funext fun a => Fin.ext ?_)
  match a with
  | ⟨0, _⟩ => rfl
  | ⟨1, _⟩ => exact rowMajor_fst k q
  | ⟨2, _⟩ => exact rowMajor_snd k q
theorem w83 (k q : Fin 256) : val_main_v83 (F := Ideal) x10 (ix2 k q) = x10 (ix3 (1 : Fin 3) k q) := by
  rw [val_main_v83_apply, val_main_v82_apply]
  refine congrArg _ (funext fun a => Fin.ext ?_)
  match a with
  | ⟨0, _⟩ => rfl
  | ⟨1, _⟩ => exact rowMajor_fst k q
  | ⟨2, _⟩ => exact rowMajor_snd k q
theorem w106 (k q : Fin 256) : val_main_v106 (F := Ideal) x10 (ix2 k q) = x10 (ix3 (2 : Fin 3) k q) := by
  rw [val_main_v106_apply, val_main_v105_apply]
  refine congrArg _ (funext fun a => Fin.ext ?_)
  match a with
  | ⟨0, _⟩ => rfl
  | ⟨1, _⟩ => exact rowMajor_fst k q
  | ⟨2, _⟩ => exact rowMajor_snd k q

/-- the operand indices of the [10000, 256] × [256, 256] contractions (%7, %61, %84, %107 share them) -/
theorem lidx_node (r : Fin 10000) (q k : Fin 256) : lidx_main_v7 (ix2 r q) k = ix2 r k :=
  funext fun a => match a with | ⟨0, _⟩ => rfl | ⟨1, _⟩ => rfl
theorem ridx_node (r : Fin 10000) (q k : Fin 256) : ridx_main_v7 (ix2 r q) k = ix2 k q :=
  funext fun a => match a with | ⟨0, _⟩ => rfl | ⟨1, _⟩ => rfl
theorem lidx61 (r : Fin 10000) (q k : Fin 256) : lidx_main_v61 (ix2 r q) k = ix2 r k :=
  funext fun a => match a with | ⟨0, _⟩ => rfl | ⟨1, _⟩ => rfl
theorem ridx61 (r : Fin 10000) (q k : Fin 256) : ridx_main_v61 (ix2 r q) k = ix2 k q :=
  funext fun a => match a with | ⟨0, _⟩ => rfl | ⟨1, _⟩ => rfl
theorem lidx84 (r : Fin 10000) (q k : Fin 256) : lidx_main_v84 (ix2 r q) k = ix2 r k :=
  funext fun a => match a with | ⟨0, _⟩ => rfl | ⟨1, _⟩ => rfl
theorem ridx84 (r : Fin 10000) (q k : Fin 256) : ridx_main_v84 (ix2 r q) k = ix2 k q :=
  funext fun a => match a with | ⟨0, _⟩ => rfl | ⟨1, _⟩ => rfl
theorem lidx107 (r : Fin 10000) (q k : Fin 256) : lidx_main_v107 (ix2 r q) k = ix2 r k :=
  funext fun a => match a with | ⟨0, _⟩ => rfl | ⟨1, _⟩ => rfl
theorem ridx107 (r : Fin 10000) (q k : Fin 256) : ridx_main_v107 (ix2 r q) k = ix2 k q :=
  funext fun a => match a with | ⟨0, _⟩ => rfl | ⟨1, _⟩ => rfl

/-! ## The node stages -/

/-- operations %7-%10, %38, %45, %46: the encoder -/
theorem enc_stage :
    val_main_v46 (F := Ideal) x0 x2 x4 x5 x6
      = encArr (val_main_v6 (F := Ideal) x0 x4) x5 x6 (val_main_v37 (F := Ideal) x2) := by
  funext i
  obtain ⟨r, q, rfl⟩ : ∃ (r : Fin 10000) (q : Fin 256), i = ix2 r q := ⟨i 0, i 1, eq_ix2 i⟩
  rw [val_main_v46_apply, val_main_v10_apply, val_main_v7_apply, ns45 x2 r q, bias9 x6 r q]
  generalize val_main_v6 (F := Ideal) x0 x4 = E
  generalize val_main_v37 (F := Ideal) x2 = ns
  simp only [lidx_node, ridx_node]
  rfl

/-- operations %56-%69: the first convolution -/
theorem conv0_stage :
    val_main_v69 (F := Ideal) x0 x2 x4 x5 x6 x10 x11
      = convArr 0 (mp x2 (val_main_v46 (F := Ideal) x0 x2 x4 x5 x6)) x10 x11 (val_main_v43 (F := Ideal) x2) (val_main_v37 (F := Ideal) x2) := by
  funext i
  obtain ⟨r, q, rfl⟩ : ∃ (r : Fin 10000) (q : Fin 256), i = ix2 r q := ⟨i 0, i 1, eq_ix2 i⟩
  rw [val_main_v69_apply, val_main_v67_apply, val_main_v66_apply, val_main_v61_apply, ns68 x2 r q, bias65 x11 r q, zero_call2]
  simp only [lidx61, ridx61, val_main_v58_apply, nd57, w60, mp56]
  generalize mp x2 (val_main_v46 (F := Ideal) x0 x2 x4 x5 x6) = A
  generalize val_main_v43 (F := Ideal) x2 = nd
  generalize val_main_v37 (F := Ideal) x2 = ns
  rfl

/-- operations %79-%92: the second convolution -/
theorem conv1_stage :
    val_main_v92 (F := Ideal) x0 x2 x4 x5 x6 x10 x11
      = convArr 1 (mp x2 (val_main_v69 (F := Ideal) x0 x2 x4 x5 x6 x10 x11)) x10 x11 (val_main_v43 (F := Ideal) x2) (val_main_v37 (F := Ideal) x2) := by
  funext i
  obtain ⟨r, q, rfl⟩ : ∃ (r : Fin 10000) (q : Fin 256), i = ix2 r q := ⟨i 0, i 1, eq_ix2 i⟩
  rw [val_main_v92_apply, val_main_v90_apply, val_main_v89_apply, val_main_v84_apply, ns91 x2 r q, bias88 x11 r q, zero_call3]
  simp only [lidx84, ridx84, val_main_v81_apply, nd80, w83, mp79]
  generalize mp x2 (val_main_v69 (F := Ideal) x0 x2 x4 x5 x6 x10 x11) = A
  generalize val_main_v43 (F := Ideal) x2 = nd
  generalize val_main_v37 (F := Ideal) x2 = ns
  rfl

/-- operations %102-%113: the last convolution, which stops at the clip -/
theorem last_stage :
    val_main_v113 (F := Ideal) x0 x2 x4 x5 x6 x10 x11
      = lastArr 2 (mp x2 (val_main_v92 (F := Ideal) x0 x2 x4 x5 x6 x10 x11)) x10 x11 (val_main_v43 (F := Ideal) x2) := by
  funext i
  obtain ⟨r, q, rfl⟩ : ∃ (r : Fin 10000) (q : Fin 256), i = ix2 r q := ⟨i 0, i 1, eq_ix2 i⟩
  rw [val_main_v113_apply, val_main_v112_apply, val_main_v107_apply, bias111 x11 r q, zero_call4]
  simp only [lidx107, ridx107, val_main_v104_apply, nd103, w106, mp102]
  generalize mp x2 (val_main_v92 (F := Ideal) x0 x2 x4 x5 x6 x10 x11) = A
  generalize val_main_v43 (F := Ideal) x2 = nd
  rfl

/-! ## The pair scorer -/

/-- a sum over 512 is the sum over the upper half plus the sum over the lower half -/
theorem sum_halves (f : Fin 512 → EReal) : ∑ m : Fin 512, f m = (∑ j : Fin 256, f (lo j)) + ∑ j : Fin 256, f (hi j) :=
  Fin.sum_univ_add (a := 256) (b := 256) f

/-- the joined table at a column of the upper half is the first piece … -/
theorem cat_lo (U V : (⟨S100000x256, .f32⟩ : BufTy).Contents (Elt Ideal)) (c : Fin 100000) (j : Fin 256) :
    concatenate S100000x512 1 [⟨S100000x256, U⟩, ⟨S100000x256, V⟩] concatenates_S100000x256_S100000x256_S100000x512_d1 (ix2 c (lo j))
      = U (ix2 c j) :=
  concatenate_pair_apply_left 1 U V concatenates_S100000x256_S100000x256_S100000x512_d1 (ix2 c (lo j)) rfl (ix2 c j)
    (fun b => match b with | ⟨0, _⟩ => rfl | ⟨1, _⟩ => rfl)
/-- … and at a column of the lower half the second piece -/
theorem cat_hi (U V : (⟨S100000x256, .f32⟩ : BufTy).Contents (Elt Ideal)) (c : Fin 100000) (j : Fin 256) :
    concatenate S100000x512 1 [⟨S100000x256, U⟩, ⟨S100000x256, V⟩] concatenates_S100000x256_S100000x256_S100000x512_d1 (ix2 c (hi j))
      = V (ix2 c j) :=
  concatenate_pair_apply_right 1 U V concatenates_S100000x256_S100000x256_S100000x512_d1 (ix2 c (hi j)) rfl rfl (ix2 c j)
    (fun b hb => match b, hb with | ⟨0, _⟩, _ => rfl | ⟨1, _⟩, hb => absurd rfl hb)
    (Nat.add_comm j.val 256)

/-- operation %132 at the two halves: the rows of the last table at a candidate's first and second node -/
theorem cat132_lo (c : Fin 100000) (j : Fin 256) :
    val_main_v132 (F := Ideal) x0 x2 x3 x4 x5 x6 x10 x11 (ix2 c (lo j))
      = gu x3 (val_main_v113 (F := Ideal) x0 x2 x4 x5 x6 x10 x11) (ix2 c j) :=
  cat_lo (gu x3 (val_main_v113 (F := Ideal) x0 x2 x4 x5 x6 x10 x11)) (gv x3 (val_main_v113 (F := Ideal) x0 x2 x4 x5 x6 x10 x11)) c j
theorem cat132_hi (c : Fin 100000) (j : Fin 256) :
    val_main_v132 (F := Ideal) x0 x2 x3 x4 x5 x6 x10 x11 (ix2 c (hi j))
      = gv x3 (val_main_v113 (F := Ideal) x0 x2 x4 x5 x6 x10 x11) (ix2 c j) :=
  cat_hi (gu x3 (val_main_v113 (F := Ideal) x0 x2 x4 x5 x6 x10 x11)) (gv x3 (val_main_v113 (F := Ideal) x0 x2 x4 x5 x6 x10 x11)) c j

/-- the scorer's biases spread along the columns -/
theorem bias135 (c : Fin 100000) (k : Fin 256) : val_main_v135 (F := Ideal) x13 (ix2 c k) = x13 (ix1 k) := by
  rw [val_main_v135_apply, val_main_v134_apply]
  exact congrArg _ (funext fun a => match a with | ⟨0, _⟩ => rfl)
theorem bias140 (c : Fin 100000) : val_main_v140 (F := Ideal) x15 (ix2 c (0 : Fin 1)) = x15 (ix1 (0 : Fin 1)) := by
  rw [val_main_v140_apply, val_main_v139_apply]
  exact congrArg _ (funext fun a => match a with | ⟨0, _⟩ => rfl)

/-- the index of the reshape %142 and the operand indices of the two contractions %133 and %138 -/
theorem idx142 (c : Fin 100000) : idx_main_v142 (ix1 c) = ix2 c (0 : Fin 1) :=
  funext fun a => match a with | ⟨0, _⟩ => Fin.ext (Nat.div_one c.val) | ⟨1, _⟩ => rfl
theorem lidx133 (c : Fin 100000) (k : Fin 256) (m : Fin 512) : lidx_main_v133 (ix2 c k) m = ix2 c m :=
  funext fun a => match a with | ⟨0, _⟩ => rfl | ⟨1, _⟩ => rfl
theorem ridx133 (c : Fin 100000) (k : Fin 256) (m : Fin 512) : ridx_main_v133 (ix2 c k) m = ix2 m k :=
  funext fun a => match a with | ⟨0, _⟩ => rfl | ⟨1, _⟩ => rfl
theorem lidx138 (c : Fin 100000) (k : Fin 256) : lidx_main_v138 (ix2 c (0 : Fin 1)) k = ix2 c k :=
  funext fun a => match a with | ⟨0, _⟩ => rfl | ⟨1, _⟩ => rfl
theorem ridx138 (c : Fin 100000) (k : Fin 256) : ridx_main_v138 (ix2 c (0 : Fin 1)) k = ix2 k (0 : Fin 1) :=
  funext fun a => match a with | ⟨0, _⟩ => rfl | ⟨1, _⟩ => rfl

/-- operations %124-%142: the scorer on the two gathered tables -/
theorem score_stage :
    val_main_v142 (F := Ideal) x0 x2 x3 x4 x5 x6 x10 x11 x12 x13 x14 x15
      = scoreArr (gu x3 (val_main_v113 (F := Ideal) x0 x2 x4 x5 x6 x10 x11)) (gv x3 (val_main_v113 (F := Ideal) x0 x2 x4 x5 x6 x10 x11))
          x12 x13 x14 x15 := by
  funext i
  obtain ⟨c, rfl⟩ : ∃ c : Fin 100000, i = ix1 c := ⟨i 0, eq_ix1 i⟩
  rw [val_main_v142_apply, idx142 c, val_main_v141_apply, val_main_v138_apply, bias140 x15 c]
  simp only [lidx138, ridx138, val_main_v137_apply, val_main_v136_apply, val_main_v133_apply, bias135, zero_call5,
    lidx133, ridx133, sum_halves, cat132_lo, cat132_hi]
  generalize gu x3 (val_main_v113 (F := Ideal) x0 x2 x4 x5 x6 x10 x11) = U
  generalize gv x3 (val_main_v113 (F := Ideal) x0 x2 x4 x5 x6 x10 x11) = V
  rfl

/-! ## The reference is the network -/

theorem ref_model :
    val_main_v142 (F := Ideal) x0 x2 x3 x4 x5 x6 x10 x11 x12 x13 x14 x15
      = Cert.Wln.model (val_main_v6 (F := Ideal) x0 x4) x5 x6 (val_main_v37 (F := Ideal) x2) (val_main_v43 (F := Ideal) x2)
          x10 x11 x12 x13 x14 x15 (mp x2) (gu x3) (gv x3) := by
  rw [score_stage, last_stage, conv1_stage, conv0_stage, enc_stage]
  rfl

end Cert.ReferenceIdeal.RefValue

end
-- ==== Proof.Glue.lean ====
/-
  The two programs' host glue, operation for operation.

  Before its first call the kernel program gathers the atom embedding, splits the edge list into sources and
  destinations, and forms the two node weights (degree to the power -1/2 where the degree is positive, zero
  elsewhere); around each later call it aggregates a node table along the edges (gather by source, add by destination)
  and, before the last, gathers the rows of the candidate pairs' two ends. The reference does the same operations on
  the same arguments. The two programs name their shapes and their gather and scatter dimension records separately,
  with the same definitions, so each equality is by unfolding both sides down to the shared operations; the only
  operation one side has and the other lacks is the widening of gathered rows, the identity on extended reals.
-/
import proofs.«431059_j80393197846860_3_alg».proof.Proof.KernelValue
import proofs.«431059_j80393197846860_3_alg».proof.Proof.RefValue
import proofs.«431059_j80393197846860_3_alg».proof.Proof.RefRead
import Idealize.ShloMosaic.Lib.StableHlo.Run

set_option maxRecDepth 16384

noncomputable section

namespace Cert.Proof.Glue

open Cert.KernelIdeal.Gen Cert.KernelIdeal.KValue Cert.ReferenceIdeal.Read
open Idealize.ShloMosaic Idealize.ShloMosaic.TcCoe Idealize.SL.Sem Idealize.ShloMosaic.StableHlo Idealize.ShloMosaic.ValueIdx

variable (m : (ℓ : Loc Cert.KernelIdeal.nD Cert.KernelIdeal.τ Cert.KernelIdeal.sig) → Buf (Elt Ideal) ℓ) (ρ : Dev Cert.KernelIdeal.nD → PrngReg) (c : Dev Cert.KernelIdeal.nD)

/-! ## Before the first call -/

/-- The gathered atom embedding: atom numbers wrapped by the table's length, then the table's rows. -/
theorem g_emb : W5 m ρ c (Proc.devRef .tc Cert.KernelIdeal.main_v6) = val_main_v6 (F := Ideal) (m ((c : Thread Cert.KernelIdeal.nD Cert.KernelIdeal.τ).loc Cert.KernelIdeal.main_arg0)) (m ((c : Thread Cert.KernelIdeal.nD Cert.KernelIdeal.τ).loc Cert.KernelIdeal.main_arg4)) := by
  dsimp only [W5, W4, W3, W2, W1]; after_results_simp
  rfl

/-- The edges' sources and destinations: the two rows of the edge list. -/
theorem g_src : W5 m ρ c (Proc.devRef .tc Cert.KernelIdeal.main_v8) = val_main_v23 (F := Ideal) (m ((c : Thread Cert.KernelIdeal.nD Cert.KernelIdeal.τ).loc Cert.KernelIdeal.main_arg2)) := by
  dsimp only [W5, W4, W3, W2, W1]; after_results_simp
  rfl
theorem g_dst : W5 m ρ c (Proc.devRef .tc Cert.KernelIdeal.main_v10) = val_main_v25 (F := Ideal) (m ((c : Thread Cert.KernelIdeal.nD Cert.KernelIdeal.τ).loc Cert.KernelIdeal.main_arg2)) := by
  dsimp only [W5, W4, W3, W2, W1]; after_results_simp
  rfl

/-- The outgoing and the incoming weights: a node's degree (ones added up by the edges' sources, resp. destinations)
    to the power -1/2 where the degree is positive, zero elsewhere. -/
theorem g_ns : W5 m ρ c (Proc.devRef .tc Cert.KernelIdeal.main_v22) = val_main_v37 (F := Ideal) (m ((c : Thread Cert.KernelIdeal.nD Cert.KernelIdeal.τ).loc Cert.KernelIdeal.main_arg2)) := by
  dsimp only [W5, W4, W3, W2, W1]; after_results_simp
  simp only [StableHlo.TRef.ofBuf, StableHlo.TRef.toBuf, cast_eq]
  rfl
theorem g_nd : W5 m ρ c (Proc.devRef .tc Cert.KernelIdeal.main_v28) = val_main_v43 (F := Ideal) (m ((c : Thread Cert.KernelIdeal.nD Cert.KernelIdeal.τ).loc Cert.KernelIdeal.main_arg2)) := by
  dsimp only [W5, W4, W3, W2, W1]; after_results_simp
  simp only [StableHlo.TRef.ofBuf, StableHlo.TRef.toBuf, cast_eq]
  rfl

/-! ## Around the gathers -/

/-- The edge aggregation: the kernel program gathers rows and widens them, a change of format that is the identity on
    extended reals; the reference gathers the rows as they are. Both wrap negative sources by the table's length and
    add the rows up by destination into a zero table. -/
theorem g_mp (src dst : (⟨Cert.KernelIdeal.S320000, .i32⟩ : BufTy).Contents (Elt Ideal)) (x2 : (⟨Cert.ReferenceIdeal.S2x320000, .i32⟩ : BufTy).Contents (Elt Ideal))
    (hs : src = val_main_v23 (F := Ideal) x2) (hd : dst = val_main_v25 (F := Ideal) x2) :
    Cert.KernelIdeal.KValue.mp src dst = Cert.ReferenceIdeal.RefValue.mp x2 := by
  subst hs hd
  funext h
  unfold Cert.KernelIdeal.KValue.mp Cert.ReferenceIdeal.RefValue.mp
  rfl

/-- The candidate gathers by the pairs' first and second ends: a column of the pair list, negative entries wrapped. -/
theorem g_u (x3 : (⟨Cert.ReferenceIdeal.S100000x2, .i32⟩ : BufTy).Contents (Elt Ideal)) :
    Cert.KernelIdeal.KValue.pick (Cert.KernelIdeal.KValue.uEnd x3) = Cert.ReferenceIdeal.RefValue.gu x3 := by
  funext h
  unfold Cert.KernelIdeal.KValue.pick Cert.KernelIdeal.KValue.uEnd Cert.ReferenceIdeal.RefValue.gu
  rfl
theorem g_v (x3 : (⟨Cert.ReferenceIdeal.S100000x2, .i32⟩ : BufTy).Contents (Elt Ideal)) :
    Cert.KernelIdeal.KValue.pick (Cert.KernelIdeal.KValue.vEnd x3) = Cert.ReferenceIdeal.RefValue.gv x3 := by
  funext h
  unfold Cert.KernelIdeal.KValue.pick Cert.KernelIdeal.KValue.vEnd Cert.ReferenceIdeal.RefValue.gv
  rfl

end Cert.Proof.Glue

end
-- ==== Proof.lean ====
/-
  The certificate: a graph network's candidate scores, computed by five fused TPU calls with host gathers and
  scatter-adds between them, against the plain array program.

  Over the extended reals a change of float format is the identity, so the two programs differ only in how the work is
  cut: the kernel program scales by the outgoing node weight inside the call that produces a node table (the reference
  scales before its gather), it multiplies the two halves of the scorer's first layer separately and adds (the reference
  multiplies the concatenated pair once: a sum over 512 split at 256), and it takes the last layer, a single output
  unit, as a lane sum of products (the reference as a matrix product with a one-column matrix). Both are the network of
  Spec.lean over the same host glue — the atom-embedding gather, the two degree normalisations, the edge aggregation and
  the two candidate gathers, which the programs spell with the same operations. No step needs the inputs finite: only
  commutative-monoid laws of the sums are used.

  The three frames are the generated ones (the reference's is its run with the result dropped); nothing was idealized
  away, so the preservation claim is empty.
-/
import proofs.«431059_j80393197846860_3_alg».proof.Defs
import proofs.«431059_j80393197846860_3_alg».proof.Proof.Gen.Kernel
import proofs.«431059_j80393197846860_3_alg».proof.Proof.Gen.Kernel.Skeleton
import proofs.«431059_j80393197846860_3_alg».proof.Proof.Gen.Kernel.Launch
import proofs.«431059_j80393197846860_3_alg».proof.Proof.Gen.Kernel.Points
import proofs.«431059_j80393197846860_3_alg».proof.Proof.Gen.Kernel.Frame
import proofs.«431059_j80393197846860_3_alg».proof.Proof.Gen.KernelIdeal
import proofs.«431059_j80393197846860_3_alg».proof.Proof.Gen.KernelIdeal.Skeleton
import proofs.«431059_j80393197846860_3_alg».proof.Proof.Gen.KernelIdeal.Launch
import proofs.«431059_j80393197846860_3_alg».proof.Proof.Gen.KernelIdeal.Points
import proofs.«431059_j80393197846860_3_alg».proof.Proof.Gen.KernelIdeal.Frame
import proofs.«431059_j80393197846860_3_alg».proof.Proof.Gen.ReferenceIdeal
import proofs.«431059_j80393197846860_3_alg».proof.Proof.Gen.Pre_finite_inputs
import proofs.«431059_j80393197846860_3_alg».proof.Proof.KernelRun
import proofs.«431059_j80393197846860_3_alg».proof.Proof.KernelValue
import proofs.«431059_j80393197846860_3_alg».proof.Proof.RefRun
import proofs.«431059_j80393197846860_3_alg».proof.Proof.RefReadEq
import proofs.«431059_j80393197846860_3_alg».proof.Proof.RefValue
import proofs.«431059_j80393197846860_3_alg».proof.Proof.Glue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments both runs end with the network's scores: the kernel program's result
    buffer by its run and the call-by-call reading of the boundaries, the reference's by its run and its stages; the
    two instances of the network agree because their glue does. -/
theorem algebraic : Cert.algebraic_KernelIdeal_ReferenceIdeal := by
  intro m ρ m' ρ' _ hagree
  refine ⟨fun c => Cert.KernelIdeal.Gen.W15 m ρ c (Proc.devRef .tc Cert.KernelIdeal.main_v109),
    Cert.KernelIdeal.Run.run_result (F := Ideal) m ρ, ?_⟩
  refine (θ_run Cert.ReferenceIdeal.defs _ _).mono (fun _ h c => ⟨(h c).1.trans ?_, (h c).2⟩)
    (Cert.ReferenceIdeal.Value.run (F := Ideal) m' ρ')
  show Cert.ReferenceIdeal.Value.res_main_v142 m' c = Cert.KernelIdeal.Gen.W15 m ρ c (Proc.devRef .tc Cert.KernelIdeal.main_v109)
  obtain ⟨h0, h1, h2, h3, h4, h5, h6, h7, h8, h9, h10, h11, h12, h13, h14, h15⟩ := hagree c
  rw [Cert.ReferenceIdeal.Read.val_main_v142_eq, Cert.ReferenceIdeal.RefValue.ref_model, Cert.KernelIdeal.KValue.kernel_model,
    h0, h2, h3, h4, h5, h6, h10, h11, h12, h13, h14, h15,
    Cert.Proof.Glue.g_emb, Cert.Proof.Glue.g_ns, Cert.Proof.Glue.g_nd,
    Cert.Proof.Glue.g_mp _ _ _ (Cert.Proof.Glue.g_src m ρ c) (Cert.Proof.Glue.g_dst m ρ c), Cert.Proof.Glue.g_u, Cert.Proof.Glue.g_v]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
